-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S512x256 : Shape := ⟨2, ![512, 256]⟩
abbrev S1x256 : Shape := ⟨2, ![1, 256]⟩
abbrev S16x1x256 : Shape := ⟨3, ![16, 1, 256]⟩
abbrev S16 : Shape := ⟨1, ![16]⟩
abbrev S_ : Shape := ⟨0, ![]⟩
abbrev S256 : Shape := ⟨1, ![256]⟩
abbrev S1x1x256 : Shape := ⟨3, ![1, 1, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S16x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v71 : Index := Scalar.indexCast v2
  let c0_63 : Index := 0#32
  let c0_64 : Index := 0#32
  ![v71.toNat, 0, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_71 : BitVec 32 := 0#32
  let c0_i32_72 : BitVec 32 := 0#32
  ![v2.toNat, 0, 0]
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v75 : BitVec 32 := Scalar.addi v2 c1_i32_66
  let c16_i32_67 : BitVec 32 := 16#32
  let v76 : BitVec 32 := Scalar.remsi v75 c16_i32_67
  let c1_i32_69 : BitVec 32 := 1#32
  let v77 : BitVec 32 := Scalar.muli v76 c1_i32_69
  let v78 : BitVec 32 := Scalar.addi c0_i32_70 v77
  v78.toNat
def k0_dev17 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v85 : BitVec 32 := Scalar.addi v2 c2_i32_73
  let c16_i32_74 : BitVec 32 := 16#32
  let v86 : BitVec 32 := Scalar.remsi v85 c16_i32_74
  let c1_i32_76 : BitVec 32 := 1#32
  let v87 : BitVec 32 := Scalar.muli v86 c1_i32_76
  let v88 : BitVec 32 := Scalar.addi c0_i32_77 v87
  v88.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_80 : BitVec 32 := 3#32
  let v95 : BitVec 32 := Scalar.addi v2 c3_i32_80
  let c16_i32_81 : BitVec 32 := 16#32
  let v96 : BitVec 32 := Scalar.remsi v95 c16_i32_81
  let c1_i32_83 : BitVec 32 := 1#32
  let v97 : BitVec 32 := Scalar.muli v96 c1_i32_83
  let v98 : BitVec 32 := Scalar.addi c0_i32_84 v97
  v98.toNat
def k0_dev19 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_87 : BitVec 32 := 4#32
  let v105 : BitVec 32 := Scalar.addi v2 c4_i32_87
  let c16_i32_88 : BitVec 32 := 16#32
  let v106 : BitVec 32 := Scalar.remsi v105 c16_i32_88
  let c1_i32_90 : BitVec 32 := 1#32
  let v107 : BitVec 32 := Scalar.muli v106 c1_i32_90
  let v108 : BitVec 32 := Scalar.addi c0_i32_91 v107
  v108.toNat
def k0_dev20 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_94 : BitVec 32 := 5#32
  let v115 : BitVec 32 := Scalar.addi v2 c5_i32_94
  let c16_i32_95 : BitVec 32 := 16#32
  let v116 : BitVec 32 := Scalar.remsi v115 c16_i32_95
  let c1_i32_97 : BitVec 32 := 1#32
  let v117 : BitVec 32 := Scalar.muli v116 c1_i32_97
  let v118 : BitVec 32 := Scalar.addi c0_i32_98 v117
  v118.toNat
def k0_dev21 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_101 : BitVec 32 := 6#32
  let v125 : BitVec 32 := Scalar.addi v2 c6_i32_101
  let c16_i32_102 : BitVec 32 := 16#32
  let v126 : BitVec 32 := Scalar.remsi v125 c16_i32_102
  let c1_i32_104 : BitVec 32 := 1#32
  let v127 : BitVec 32 := Scalar.muli v126 c1_i32_104
  let v128 : BitVec 32 := Scalar.addi c0_i32_105 v127
  v128.toNat
def k0_dev22 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_108 : BitVec 32 := 7#32
  let v135 : BitVec 32 := Scalar.addi v2 c7_i32_108
  let c16_i32_109 : BitVec 32 := 16#32
  let v136 : BitVec 32 := Scalar.remsi v135 c16_i32_109
  let c1_i32_111 : BitVec 32 := 1#32
  let v137 : BitVec 32 := Scalar.muli v136 c1_i32_111
  let v138 : BitVec 32 := Scalar.addi c0_i32_112 v137
  v138.toNat
def k0_dev23 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_115 : BitVec 32 := 8#32
  let v145 : BitVec 32 := Scalar.addi v2 c8_i32_115
  let c16_i32_116 : BitVec 32 := 16#32
  let v146 : BitVec 32 := Scalar.remsi v145 c16_i32_116
  let c1_i32_118 : BitVec 32 := 1#32
  let v147 : BitVec 32 := Scalar.muli v146 c1_i32_118
  let v148 : BitVec 32 := Scalar.addi c0_i32_119 v147
  v148.toNat
def k0_dev24 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_122 : BitVec 32 := 9#32
  let v155 : BitVec 32 := Scalar.addi v2 c9_i32_122
  let c16_i32_123 : BitVec 32 := 16#32
  let v156 : BitVec 32 := Scalar.remsi v155 c16_i32_123
  let c1_i32_125 : BitVec 32 := 1#32
  let v157 : BitVec 32 := Scalar.muli v156 c1_i32_125
  let v158 : BitVec 32 := Scalar.addi c0_i32_126 v157
  v158.toNat
def k0_dev25 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_129 : BitVec 32 := 10#32
  let v165 : BitVec 32 := Scalar.addi v2 c10_i32_129
  let c16_i32_130 : BitVec 32 := 16#32
  let v166 : BitVec 32 := Scalar.remsi v165 c16_i32_130
  let c1_i32_132 : BitVec 32 := 1#32
  let v167 : BitVec 32 := Scalar.muli v166 c1_i32_132
  let v168 : BitVec 32 := Scalar.addi c0_i32_133 v167
  v168.toNat
def k0_dev26 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_136 : BitVec 32 := 11#32
  let v175 : BitVec 32 := Scalar.addi v2 c11_i32_136
  let c16_i32_137 : BitVec 32 := 16#32
  let v176 : BitVec 32 := Scalar.remsi v175 c16_i32_137
  let c1_i32_139 : BitVec 32 := 1#32
  let v177 : BitVec 32 := Scalar.muli v176 c1_i32_139
  let v178 : BitVec 32 := Scalar.addi c0_i32_140 v177
  v178.toNat
def k0_dev27 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_143 : BitVec 32 := 12#32
  let v185 : BitVec 32 := Scalar.addi v2 c12_i32_143
  let c16_i32_144 : BitVec 32 := 16#32
  let v186 : BitVec 32 := Scalar.remsi v185 c16_i32_144
  let c1_i32_146 : BitVec 32 := 1#32
  let v187 : BitVec 32 := Scalar.muli v186 c1_i32_146
  let v188 : BitVec 32 := Scalar.addi c0_i32_147 v187
  v188.toNat
def k0_dev28 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_150 : BitVec 32 := 13#32
  let v195 : BitVec 32 := Scalar.addi v2 c13_i32_150
  let c16_i32_151 : BitVec 32 := 16#32
  let v196 : BitVec 32 := Scalar.remsi v195 c16_i32_151
  let c1_i32_153 : BitVec 32 := 1#32
  let v197 : BitVec 32 := Scalar.muli v196 c1_i32_153
  let v198 : BitVec 32 := Scalar.addi c0_i32_154 v197
  v198.toNat
def k0_dev29 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_157 : BitVec 32 := 14#32
  let v205 : BitVec 32 := Scalar.addi v2 c14_i32_157
  let c16_i32_158 : BitVec 32 := 16#32
  let v206 : BitVec 32 := Scalar.remsi v205 c16_i32_158
  let c1_i32_160 : BitVec 32 := 1#32
  let v207 : BitVec 32 := Scalar.muli v206 c1_i32_160
  let v208 : BitVec 32 := Scalar.addi c0_i32_161 v207
  v208.toNat
def k0_dev30 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_164 : BitVec 32 := 15#32
  let v215 : BitVec 32 := Scalar.addi v2 c15_i32_164
  let c16_i32_165 : BitVec 32 := 16#32
  let v216 : BitVec 32 := Scalar.remsi v215 c16_i32_165
  let c1_i32_167 : BitVec 32 := 1#32
  let v217 : BitVec 32 := Scalar.muli v216 c1_i32_167
  let v218 : BitVec 32 := Scalar.addi c0_i32_168 v217
  v218.toNat
def k0_off4 (d0 : Dev nD) (c1_i32_171 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v225 : BitVec 32 := Scalar.addi v2 c1_i32_171
  let c16_i32_172 : BitVec 32 := 16#32
  let v226 : BitVec 32 := Scalar.remsi v225 c16_i32_172
  ![v226.toNat]
def k0_off5 (d0 : Dev nD) (c1_i32_171 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v225 : BitVec 32 := Scalar.addi v2 c1_i32_171
  let c16_i32_172 : BitVec 32 := 16#32
  let v226 : BitVec 32 := Scalar.remsi v225 c16_i32_172
  let c0_i32_176 : BitVec 32 := 0#32
  let c0_i32_177 : BitVec 32 := 0#32
  ![v226.toNat, 0, 0]
def k0_dev31 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_342 : BitVec 32 := 1#32
  let v408 : BitVec 32 := Scalar.addi v2 c1_i32_342
  let c16_i32_343 : BitVec 32 := 16#32
  let v409 : BitVec 32 := Scalar.remsi v408 c16_i32_343
  let c1_i32_345 : BitVec 32 := 1#32
  let v410 : BitVec 32 := Scalar.muli v409 c1_i32_345
  let v411 : BitVec 32 := Scalar.addi c0_i32_346 v410
  v411.toNat
def k0_dev32 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_347 : BitVec 32 := 2#32
  let v412 : BitVec 32 := Scalar.addi v2 c2_i32_347
  let c16_i32_348 : BitVec 32 := 16#32
  let v413 : BitVec 32 := Scalar.remsi v412 c16_i32_348
  let c1_i32_350 : BitVec 32 := 1#32
  let v414 : BitVec 32 := Scalar.muli v413 c1_i32_350
  let v415 : BitVec 32 := Scalar.addi c0_i32_351 v414
  v415.toNat
def k0_dev33 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_352 : BitVec 32 := 3#32
  let v416 : BitVec 32 := Scalar.addi v2 c3_i32_352
  let c16_i32_353 : BitVec 32 := 16#32
  let v417 : BitVec 32 := Scalar.remsi v416 c16_i32_353
  let c1_i32_355 : BitVec 32 := 1#32
  let v418 : BitVec 32 := Scalar.muli v417 c1_i32_355
  let v419 : BitVec 32 := Scalar.addi c0_i32_356 v418
  v419.toNat
def k0_dev34 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_357 : BitVec 32 := 4#32
  let v420 : BitVec 32 := Scalar.addi v2 c4_i32_357
  let c16_i32_358 : BitVec 32 := 16#32
  let v421 : BitVec 32 := Scalar.remsi v420 c16_i32_358
  let c1_i32_360 : BitVec 32 := 1#32
  let v422 : BitVec 32 := Scalar.muli v421 c1_i32_360
  let v423 : BitVec 32 := Scalar.addi c0_i32_361 v422
  v423.toNat
def k0_dev35 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_362 : BitVec 32 := 5#32
  let v424 : BitVec 32 := Scalar.addi v2 c5_i32_362
  let c16_i32_363 : BitVec 32 := 16#32
  let v425 : BitVec 32 := Scalar.remsi v424 c16_i32_363
  let c1_i32_365 : BitVec 32 := 1#32
  let v426 : BitVec 32 := Scalar.muli v425 c1_i32_365
  let v427 : BitVec 32 := Scalar.addi c0_i32_366 v426
  v427.toNat
def k0_dev36 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_367 : BitVec 32 := 6#32
  let v428 : BitVec 32 := Scalar.addi v2 c6_i32_367
  let c16_i32_368 : BitVec 32 := 16#32
  let v429 : BitVec 32 := Scalar.remsi v428 c16_i32_368
  let c1_i32_370 : BitVec 32 := 1#32
  let v430 : BitVec 32 := Scalar.muli v429 c1_i32_370
  let v431 : BitVec 32 := Scalar.addi c0_i32_371 v430
  v431.toNat
def k0_dev37 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_372 : BitVec 32 := 7#32
  let v432 : BitVec 32 := Scalar.addi v2 c7_i32_372
  let c16_i32_373 : BitVec 32 := 16#32
  let v433 : BitVec 32 := Scalar.remsi v432 c16_i32_373
  let c1_i32_375 : BitVec 32 := 1#32
  let v434 : BitVec 32 := Scalar.muli v433 c1_i32_375
  let v435 : BitVec 32 := Scalar.addi c0_i32_376 v434
  v435.toNat
def k0_dev38 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_377 : BitVec 32 := 8#32
  let v436 : BitVec 32 := Scalar.addi v2 c8_i32_377
  let c16_i32_378 : BitVec 32 := 16#32
  let v437 : BitVec 32 := Scalar.remsi v436 c16_i32_378
  let c1_i32_380 : BitVec 32 := 1#32
  let v438 : BitVec 32 := Scalar.muli v437 c1_i32_380
  let v439 : BitVec 32 := Scalar.addi c0_i32_381 v438
  v439.toNat
def k0_dev39 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_382 : BitVec 32 := 9#32
  let v440 : BitVec 32 := Scalar.addi v2 c9_i32_382
  let c16_i32_383 : BitVec 32 := 16#32
  let v441 : BitVec 32 := Scalar.remsi v440 c16_i32_383
  let c1_i32_385 : BitVec 32 := 1#32
  let v442 : BitVec 32 := Scalar.muli v441 c1_i32_385
  let v443 : BitVec 32 := Scalar.addi c0_i32_386 v442
  v443.toNat
def k0_dev40 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_387 : BitVec 32 := 10#32
  let v444 : BitVec 32 := Scalar.addi v2 c10_i32_387
  let c16_i32_388 : BitVec 32 := 16#32
  let v445 : BitVec 32 := Scalar.remsi v444 c16_i32_388
  let c1_i32_390 : BitVec 32 := 1#32
  let v446 : BitVec 32 := Scalar.muli v445 c1_i32_390
  let v447 : BitVec 32 := Scalar.addi c0_i32_391 v446
  v447.toNat
def k0_dev41 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_392 : BitVec 32 := 11#32
  let v448 : BitVec 32 := Scalar.addi v2 c11_i32_392
  let c16_i32_393 : BitVec 32 := 16#32
  let v449 : BitVec 32 := Scalar.remsi v448 c16_i32_393
  let c1_i32_395 : BitVec 32 := 1#32
  let v450 : BitVec 32 := Scalar.muli v449 c1_i32_395
  let v451 : BitVec 32 := Scalar.addi c0_i32_396 v450
  v451.toNat
def k0_dev42 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_397 : BitVec 32 := 12#32
  let v452 : BitVec 32 := Scalar.addi v2 c12_i32_397
  let c16_i32_398 : BitVec 32 := 16#32
  let v453 : BitVec 32 := Scalar.remsi v452 c16_i32_398
  let c1_i32_400 : BitVec 32 := 1#32
  let v454 : BitVec 32 := Scalar.muli v453 c1_i32_400
  let v455 : BitVec 32 := Scalar.addi c0_i32_401 v454
  v455.toNat
def k0_dev43 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_402 : BitVec 32 := 13#32
  let v456 : BitVec 32 := Scalar.addi v2 c13_i32_402
  let c16_i32_403 : BitVec 32 := 16#32
  let v457 : BitVec 32 := Scalar.remsi v456 c16_i32_403
  let c1_i32_405 : BitVec 32 := 1#32
  let v458 : BitVec 32 := Scalar.muli v457 c1_i32_405
  let v459 : BitVec 32 := Scalar.addi c0_i32_406 v458
  v459.toNat
def k0_dev44 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_407 : BitVec 32 := 14#32
  let v460 : BitVec 32 := Scalar.addi v2 c14_i32_407
  let c16_i32_408 : BitVec 32 := 16#32
  let v461 : BitVec 32 := Scalar.remsi v460 c16_i32_408
  let c1_i32_410 : BitVec 32 := 1#32
  let v462 : BitVec 32 := Scalar.muli v461 c1_i32_410
  let v463 : BitVec 32 := Scalar.addi c0_i32_411 v462
  v463.toNat
def k0_dev45 (d0 : Dev nD) : Nat :=
  let c0_i32_416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_412 : BitVec 32 := 15#32
  let v464 : BitVec 32 := Scalar.addi v2 c15_i32_412
  let c16_i32_413 : BitVec 32 := 16#32
  let v465 : BitVec 32 := Scalar.remsi v464 c16_i32_413
  let c1_i32_415 : BitVec 32 := 1#32
  let v466 : BitVec 32 := Scalar.muli v465 c1_i32_415
  let v467 : BitVec 32 := Scalar.addi c0_i32_416 v466
  v467.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S1x1x256 : 0 < S1x1x256.numel
  shapeCasts_S1x1x256_S1x256 : S1x1x256.ShapeCasts S1x256
  shapeCasts_S1x256_S1x1x256 : S1x256.ShapeCasts S1x1x256
  hamt_15 : (15#32 : BitVec 32).msb = false
  inb_S16_S1_1 : ∀ a, (![1] : Fin 1 → Nat) a + S1.size a ≤ S16.size a
  squeezes_S1_S_ : S1.Squeezes S_
  squeezes_S1x1x256_S1x256 : S1x1x256.Squeezes S1x256
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S16x1x256_S16x1x256_0_0_0 : ∀ a, (![0, 0, 0] : Fin 3 → Nat) a + S16x1x256.size a ≤ S16x1x256.size a
  h_S16x1x256 : 0 < S16x1x256.numel
  reduces_S16x1x256_S1x256 : S16x1x256.Reduces [0] S1x256
  hcc0_scratch2 : 2 + S16.numel ≤ 34
  hcc0_scratch3 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x1x256.size a ≤ S16x1x256.size a
  k0_off2_inb : ∀ d0 : Dev nD, ∀ a, (k0_off2 d0) a + S1.size a ≤ S16.size a
  k0_off3_inb : ∀ d0 : Dev nD, ∀ a, (k0_off3 d0) a + S1x1x256.size a ≤ S16x1x256.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off4_inb : ∀ d0 : Dev nD, ∀ (r : Fin 15), ∀ a, (k0_off4 d0 (BitVec.ofNat 32 (1 + r.val))) a + S1.size a ≤ S16.size a
  k0_off5_inb : ∀ d0 : Dev nD, ∀ (r : Fin 15), ∀ a, (k0_off5 d0 (BitVec.ofNat 32 (1 + r.val))) a + S1x1x256.size a ≤ S16x1x256.size a
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  hstage0_0 : ∀ j, (stage0_0 j).IsWhole
  hstage0_1 : ∀ j, (stage0_1 j).IsWhole

variable [Facts₀]

abbrev cc0_scratch2 : DmaSems sig S16 := SemArray.consecutive 2 S16 hcc0_scratch2
abbrev cc0_scratch3 : DmaSems sig S16 := SemArray.consecutive 18 S16 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S_, .f32⟩
  | .hbm, ⟨2, _⟩ => ⟨S256, .f32⟩
  | .hbm, ⟨3, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S8192x256_S256_d0 : S8192x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Proto.lean ====
/-
  The all-gather-then-sum kernel on sixteen devices: the protocol's vocabulary.

  Device c sums its block of x over the rows into one row of 256 (its partial sum), keeps it in
  its send buffer and in slot c of its gather buffer, tells every other device through the barrier
  semaphore that it is inside the kernel, waits for the fifteen others to have said the same, copies
  its send buffer into slot c of every other device's gather buffer, waits for the fifteen copies
  addressed to it, sums the sixteen slots, waits for its own copies to have left, and signals the
  barrier semaphores once more. Here: the peers, the semaphore cells, the buffers' pieces (one slot
  of a gather buffer, one share of the send buffer), what the buffers hold, the schedule of the
  cells' rounds, what a device owes at launch and the levels.
-/
import proofs.«901090_g7700000000001091_dist_sum_ax0_shard0_i_m512_n256_v7x_i16_f32_1_alg».proof.Proof.Gen.KernelIdeal
import proofs.«901090_g7700000000001091_dist_sum_ax0_shard0_i_m512_n256_v7x_i16_f32_1_alg».proof.Proof.Gen.KernelIdeal.Skeleton
import proofs.«901090_g7700000000001091_dist_sum_ax0_shard0_i_m512_n256_v7x_i16_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the protocol's (duties named by a device) -/

abbrev UB : Type := URounds (GSem nD τ sig) (Fin 16)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

/-- The device `k` places after `c` around the mesh axis. -/
def peer (c : Dev nD) (k : Fin 16) : Dev nD := c + k

theorem peer_val (c : Dev nD) (k : Fin 16) : (peer c k).val = (c.val + k.val) % 16 := Fin.val_add c k
theorem mk_eq_peer {n : ℕ} {h : n < nD} (c : Dev nD) (k : Fin 16) (e : n = (c.val + k.val) % 16) : (⟨n, h⟩ : Dev nD) = peer c k :=
  Fin.ext (e.trans (peer_val c k).symm)
theorem peer_zero (c : Dev nD) : peer c 0 = c := by revert c; decide
/-- `c` is the device `-k` places after its `k`-th peer. -/
theorem peer_peer_neg (c : Dev nD) (k : Fin 16) : peer (peer c k) (-k) = c := by revert c k; decide
theorem peer_neg_peer (c : Dev nD) (k : Fin 16) : peer (peer c (-k)) k = c := by revert c k; decide
theorem peer_ne (c : Dev nD) (k : Fin 16) (hk : k ≠ 0) : peer c k ≠ c := by revert c k; decide
theorem peer_inj (c : Dev nD) (k k' : Fin 16) (h : peer c k = peer c k') : k = k' := by revert c k k'; decide

/-! ## The memrefs and the cells -/

abbrev xM : Memref sig .tc .vmem S512x256 .f32 := Memref.whole cc0_stg0_0
abbrev oM : Memref sig .tc .vmem S1x256 .f32 := Memref.whole cc0_stg1_0
/-- the send buffer: a device's partial sum -/
abbrev sM : Memref sig .tc .vmem S1x256 .f32 := Memref.whole cc0_scratch0
/-- the gather buffer: sixteen slots, one per device -/
abbrev gM : Memref sig .tc .vmem S16x1x256 .f32 := Memref.whole cc0_scratch1

/-- Slot `j` of a gather buffer as the kernel addresses it: the slice at row `j`, its unit axis squeezed. -/
abbrev slotM (j : Dev nD) : Memref sig .tc .vmem S1x256 .f32 :=
  ((gM : Memref sig .tc .vmem S16x1x256 .f32).slice (Rect.unit (s := S16x1x256) (k0_off3 j) S1x1x256.size (k0_off3_inb j)) (fun _ => rfl)).squeeze S1x256 squeezes_S1x1x256_S1x256

/-- The runtime's barrier semaphore of collective id 0 (unscoped); the sixteen send and sixteen receive DMA semaphores (scoped scratch). -/
abbrev barS : Sem sig := (SemArray.scalar (sig.barrier 0 rfl) : Sems sig S_).sem
def sendS (d : Fin 16) : DmaSem sig := ⟨2 + d.val, by have := d.isLt; show 2 + d.val < 34; omega⟩
def recvS (j : Fin 16) : DmaSem sig := ⟨18 + j.val, by have := j.isLt; show 18 + j.val < 34; omega⟩

abbrev barCell (c : Dev nD) : GSem nD τ sig := ((c : Thread nD τ), .reg barS)
abbrev sendCell (c : Dev nD) (d : Fin 16) : GSem nD τ sig := ((c : Thread nD τ), .dma (sendS d))
abbrev recvCell (c : Dev nD) (j : Fin 16) : GSem nD τ sig := ((c : Thread nD τ), .dma (recvS j))

/-- Which send semaphore a semaphore location is, if any; which receive semaphore. -/
def sendIdx : SemLoc sig → Option (Fin 16)
  | .dma q => if h : 2 ≤ q.val ∧ q.val < 18 then some ⟨q.val - 2, by omega⟩ else none
  | .reg _ => none
def recvIdx : SemLoc sig → Option (Fin 16)
  | .dma q => if h : 18 ≤ q.val then some ⟨q.val - 18, by have := q.isLt; have : q.val < 34 := this; omega⟩ else none
  | .reg _ => none

theorem sendIdx_send (d : Fin 16) : sendIdx (.dma (sendS d) : SemLoc sig) = some d := by revert d; decide
theorem recvIdx_send (d : Fin 16) : recvIdx (.dma (sendS d) : SemLoc sig) = none := by revert d; decide
theorem sendIdx_recv (j : Fin 16) : sendIdx (.dma (recvS j) : SemLoc sig) = none := by revert j; decide
theorem recvIdx_recv (j : Fin 16) : recvIdx (.dma (recvS j) : SemLoc sig) = some j := by revert j; decide

/-- The kernel's own (scoped) semaphores, as the launch theorem indexes them: the sends, then the receives; -/
abbrev osem : Fin 16 ⊕ Fin 16 → SemLoc sig := fun | .inl d => .dma (sendS d) | .inr j => .dma (recvS j)
/-- all thirty-three of the protocol's: the barrier first. -/
abbrev csem : Option (Fin 16 ⊕ Fin 16) → SemLoc sig := fun | none => .reg barS | some k => osem k
abbrev kcell (ck : Dev nD × Option (Fin 16 ⊕ Fin 16)) : GSem nD τ sig := ((ck.1 : Thread nD τ), csem ck.2)

/-- The credit of one copy of a row of 256. -/
abbrev N : ℕ := (sM : Memref sig .tc .vmem S1x256 .f32).view.dmaCredit
theorem N_pos : 0 < N := View.dmaCredit_pos _ (by decide)

/-! ## Shares of the send buffer: one per copy in flight -/

/-- What is left of the full share after `k` pieces have been cut off; the `k`-th piece. -/
def restShare : ℕ → PosShare TreeShare
  | 0 => fullShare
  | k + 1 => (restShare k).right
def pieceShare (k : ℕ) : PosShare TreeShare := (restShare k).left

/-! ## Contents -/

/-- Device `c`'s block of x as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s partial sum, as its send buffer holds it. -/
def part (c : Dev nD) : (cc0_scratch0 : Ref sig .tc).ty.Contents (Elt F) := k0_pay2 (xstg m ρ c)

/-- What every gather buffer ends holding: slot `j` is device `j`'s partial sum. -/
def gath : (cc0_scratch1 : Ref sig .tc).ty.Contents (Elt F) :=
  fun i => part m ρ (show Fin 16 from i 0) (ValueIdx.ix2 (0 : Fin 1) (show Fin 256 from i 2))

/-- The kernel's result, the same on every device: the sum of the sixteen slots. -/
def outAt : (cc0_stg1_0 : Ref sig .tc).ty.Contents (Elt F) := k0_pay4 (gath m ρ)

end Cert.KernelIdealProof

end
-- ==== Proof.Sched.lean ====
/-
  The schedule of the semaphore cells' rounds.

  A device's barrier cell has two rounds of fifteen duties of one unit, one duty per other device:
  round 0 is the entry handshake (device d's unit hands the owner the right to write the owner's
  slot of d's gather buffer), round 1 the exit signals (nothing handed over, never waited for).
  Send cell k (k = 1..15) has one duty, the departure of the copy to the k-th peer, which hands
  back share k of the send buffer. Receive cell j (j another device) has one duty, the arrival
  of device j's copy: slot j of the owner's gather buffer at j's partial sum, and that j has
  finished round 0 of its own barrier cell (which is what a later signal to it must present).
-/
import proofs.«901090_g7700000000001091_dist_sum_ax0_shard0_i_m512_n256_v7x_i16_f32_1_alg».proof.Proof.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The buffers' pieces as assertions -/

/-- Slot `j` of device `c'`'s gather buffer, whole share, at contents `f`. -/
def slotPts (c' j : Dev nD) (f : Buf (Elt F) ((slotM j).view.loc (c' : Thread nD τ))) : sProp 𝕄 :=
  (slotM j).view.loc (c' : Thread nD τ) ↦[(slotM j).view.set]{fullShare} f
/-- Share `q` of device `c`'s send buffer, holding its partial sum. -/
def sbufPts (c : Dev nD) (q : PosShare TreeShare) : sProp 𝕄 :=
  (sM : Memref sig .tc .vmem S1x256 .f32).view.loc (c : Thread nD τ) ↦[(sM : Memref sig .tc .vmem S1x256 .f32).view.set]{q} part m ρ c

omit [FloatOps F] in
instance slotPts_storable (c' j : Dev nD) (f) : BI.Storable (upEmb : UEmb _ 𝕄) (slotPts (F := F) c' j f) := by unfold slotPts; infer_instance
instance sbufPts_storable (c : Dev nD) (q) : BI.Storable (upEmb : UEmb _ 𝕄) (sbufPts (F := F) m ρ c q) := by unfold sbufPts; infer_instance

/-! ## The schedule -/

def dutiesOf (c : Dev nD) (sm : SemLoc sig) (r : ℕ) : Finset (Fin 16) :=
  if sm = .reg barS then (if r ≤ 1 then Finset.univ.erase c else ∅)
  else if r ≠ 0 then ∅
  else match sendIdx sm, recvIdx sm with
    | some d, _ => if d = 0 then ∅ else {0}
    | none, some j => if j = c then ∅ else {j}
    | none, none => ∅

def payloadOf (c : Dev nD) (sm : SemLoc sig) (r : ℕ) (d : Fin 16) : sProp 𝕄 :=
  if sm = .reg barS then (if r = 0 then iprop(∃ f, slotPts d c f) else iprop(emp))
  else match sendIdx sm, recvIdx sm with
    | some k, _ => sbufPts m ρ c (pieceShare k.val)
    | none, some j => iprop(slotPts c j (gath m ρ) ∗ reached ER (barCell j) 1)
    | none, none => iprop(emp)

def rd : Rounds.Schedule (GSem nD τ sig) (Fin 16) 𝕄 where
  duties g r := if g.1.2 = .tc then dutiesOf g.1.1 g.2 r else ∅
  unitless _ := False
  amount g _ _ := if g.2 = .reg barS then 1 else N
  payload g r d := payloadOf m ρ g.1.1 g.2 r d
  amount_pos g _ _ _ := by
    by_cases h : g.2 = .reg barS
    · rw [if_pos h]; exact Nat.one_pos
    · rw [if_neg h]; exact N_pos

instance rd_payload_storable (g : GSem nD τ sig) (r : ℕ) (d : Fin 16) :
    BI.Storable (upEmb : UEmb _ 𝕄) ((rd (F := F) m ρ).payload g r d) := by
  show BI.Storable upEmb (payloadOf m ρ g.1.1 g.2 r d)
  unfold payloadOf
  (repeat' split) <;> infer_instance

section Tables
variable (c : Dev nD)

omit [FloatOps F] in
theorem send_ne_bar (d : Fin 16) : (SemLoc.dma (sendS d) : SemLoc sig) ≠ .reg barS := fun h => by cases h
omit [FloatOps F] in
theorem recv_ne_bar (j : Fin 16) : (SemLoc.dma (recvS j) : SemLoc sig) ≠ .reg barS := fun h => by cases h

theorem duties_bar (r : ℕ) (hr : r ≤ 1) : (rd (F := F) m ρ).duties (barCell c) r = Finset.univ.erase c := by
  show (if (Proc.tc : Proc τ) = .tc then dutiesOf c (.reg barS) r else ∅) = _
  rw [if_pos rfl]; unfold dutiesOf; rw [if_pos rfl, if_pos hr]
theorem duties_bar_later (r : ℕ) (hr : 2 ≤ r) : (rd (F := F) m ρ).duties (barCell c) r = ∅ := by
  show (if (Proc.tc : Proc τ) = .tc then dutiesOf c (.reg barS) r else ∅) = _
  rw [if_pos rfl]; unfold dutiesOf; rw [if_pos rfl, if_neg (by omega)]
theorem duties_send (d : Fin 16) (hd : d ≠ 0) : (rd (F := F) m ρ).duties (sendCell c d) 0 = {0} := by
  show (if (Proc.tc : Proc τ) = .tc then dutiesOf c (.dma (sendS d)) 0 else ∅) = _
  rw [if_pos rfl]; unfold dutiesOf; rw [if_neg (send_ne_bar d), if_neg (by simp), sendIdx_send]; exact if_neg hd
theorem duties_send_zero (r : ℕ) : (rd (F := F) m ρ).duties (sendCell c 0) r = ∅ := by
  show (if (Proc.tc : Proc τ) = .tc then dutiesOf c (.dma (sendS 0)) r else ∅) = _
  rw [if_pos rfl]; unfold dutiesOf; rw [if_neg (send_ne_bar 0)]
  by_cases hr : r ≠ 0
  · rw [if_pos hr]
  · rw [if_neg hr, sendIdx_send]; exact if_pos rfl
theorem duties_recv (j : Fin 16) (hj : j ≠ c) : (rd (F := F) m ρ).duties (recvCell c j) 0 = {j} := by
  show (if (Proc.tc : Proc τ) = .tc then dutiesOf c (.dma (recvS j)) 0 else ∅) = _
  rw [if_pos rfl]; unfold dutiesOf; rw [if_neg (recv_ne_bar j), if_neg (by simp), sendIdx_recv, recvIdx_recv]; exact if_neg hj
theorem duties_recv_self (r : ℕ) : (rd (F := F) m ρ).duties (recvCell c c) r = ∅ := by
  show (if (Proc.tc : Proc τ) = .tc then dutiesOf c (.dma (recvS c)) r else ∅) = _
  rw [if_pos rfl]; unfold dutiesOf; rw [if_neg (recv_ne_bar c)]
  by_cases hr : r ≠ 0
  · rw [if_pos hr]
  · rw [if_neg hr, sendIdx_recv, recvIdx_recv]; exact if_pos rfl
theorem duties_dma_later (q : DmaSem sig) (r : ℕ) (hr : 1 ≤ r) : (rd (F := F) m ρ).duties ((c : Thread nD τ), .dma q) r = ∅ := by
  show (if (Proc.tc : Proc τ) = .tc then dutiesOf c (.dma q) r else ∅) = _
  rw [if_pos rfl]; unfold dutiesOf; rw [if_neg (fun h => by cases h), if_pos (by omega)]

theorem amount_bar (r : ℕ) (d : Fin 16) : (rd (F := F) m ρ).amount (barCell c) r d = 1 := by dsimp only [rd]; exact if_pos rfl
theorem amount_send (k : Fin 16) (r : ℕ) (d : Fin 16) : (rd (F := F) m ρ).amount (sendCell c k) r d = N := by dsimp only [rd]; exact if_neg (send_ne_bar k)
theorem amount_recv (j : Fin 16) (r : ℕ) (d : Fin 16) : (rd (F := F) m ρ).amount (recvCell c j) r d = N := by dsimp only [rd]; exact if_neg (recv_ne_bar j)

theorem expect_bar (r : ℕ) (hr : r ≤ 1) : (rd (F := F) m ρ).expect (barCell c) r = 15 := by
  unfold Schedule.expect Schedule.amountOf
  rw [duties_bar m ρ c r hr, Finset.sum_congr rfl fun d _ => amount_bar m ρ c r d, Finset.sum_const, Finset.card_erase_of_mem (Finset.mem_univ _),
    Finset.card_univ, Fintype.card_fin, smul_eq_mul]
theorem expect_send (k : Fin 16) (hk : k ≠ 0) : (rd (F := F) m ρ).expect (sendCell c k) 0 = N := by
  unfold Schedule.expect Schedule.amountOf; rw [duties_send m ρ c k hk, Finset.sum_singleton, amount_send]
theorem expect_recv (j : Fin 16) (hj : j ≠ c) : (rd (F := F) m ρ).expect (recvCell c j) 0 = N := by
  unfold Schedule.expect Schedule.amountOf; rw [duties_recv m ρ c j hj, Finset.sum_singleton, amount_recv]

theorem payload_bar0 (d : Fin 16) : (rd (F := F) m ρ).payload (barCell c) 0 d = iprop(∃ f, slotPts d c f) := by
  show payloadOf m ρ c (.reg barS) 0 d = _; unfold payloadOf; rw [if_pos rfl, if_pos rfl]
theorem payload_bar1 (d : Fin 16) : (rd (F := F) m ρ).payload (barCell c) 1 d = iprop(emp) := by
  show payloadOf m ρ c (.reg barS) 1 d = _; unfold payloadOf; rw [if_pos rfl, if_neg (by decide)]
theorem payload_send (k : Fin 16) (r : ℕ) (d : Fin 16) : (rd (F := F) m ρ).payload (sendCell c k) r d = sbufPts m ρ c (pieceShare k.val) := by
  show payloadOf m ρ c (.dma (sendS k)) r d = _; unfold payloadOf; rw [if_neg (send_ne_bar k), sendIdx_send]
theorem payload_recv (j : Fin 16) (r : ℕ) (d : Fin 16) :
    (rd (F := F) m ρ).payload (recvCell c j) r d = iprop(slotPts c j (gath m ρ) ∗ reached ER (barCell j) 1) := by
  show payloadOf m ρ c (.dma (recvS j)) r d = _; unfold payloadOf; rw [if_neg (recv_ne_bar j), sendIdx_recv, recvIdx_recv]

end Tables

/-! ## What each core owes at launch, in the order it pays; the levels -/

/-- One unit on the `k`-th peer's barrier cell for its entry round (index 0), the copy's credit on that peer's receive
    cell for `c` (index 0), one unit on its barrier cell for its exit round (index 1). -/
def owedE (c : Dev nD) (k : Fin 16) : CellTallies nD τ sig ℕ := tallyAt (barCell (peer c k)) 0 1
def owedS (c : Dev nD) (k : Fin 16) : CellTallies nD τ sig ℕ := tallyAt (recvCell (peer c k) c) 0 N
def owedX (c : Dev nD) (k : Fin 16) : CellTallies nD τ sig ℕ := tallyAt (barCell (peer c k)) 1 1

/-- The peers in the order the kernel addresses them. -/
def ks : List (Fin 16) := [1, 2, 3, 4, 5, 6, 7, 8, 9, 10, 11, 12, 13, 14, 15]

/-- Everything a device pays, in program order: fifteen entry signals, fifteen copies, fifteen exit signals. -/
def dues (c : Dev nD) : List (CellTallies nD τ sig ℕ) := ks.map (owedE c) ++ ks.map (owedS c) ++ ks.map (owedX c)

/-- What is still owed after the first `n` payments. -/
def owedAfter (c : Dev nD) (n : ℕ) : CellTallies nD τ sig ℕ := ((dues c).drop n).sum

def O₀ (c : Dev nD) : CellTallies nD τ sig ℕ := owedAfter c 0

theorem owedAfter_step (c : Dev nD) (n : ℕ) (h : n < 45) : owedAfter c n = owedAfter c (n + 1) + (dues c)[n]'(by simp [dues, ks]; omega) := by
  unfold owedAfter
  rw [List.drop_eq_getElem_cons (by simp [dues, ks]; omega), List.sum_cons, add_comm]
theorem owedAfter_done (c : Dev nD) : owedAfter c 45 = 0 := by
  unfold owedAfter; rw [List.drop_of_length_le (by simp [dues, ks])]; rfl

def L (g : GSem nD τ sig) : Finset ℕ := if g.1.2 = .tc then {0, 1} else ∅
/-- Staging and send cells at 0, a barrier cell's entry round at 1, receive cells at 2, a barrier cell's exit round at 3. -/
def lv (g : GSem nD τ sig) (i : ℕ) : ℕ := if g.2 = .reg barS then (if i = 0 then 1 else 3) else if (recvIdx g.2).isSome then 2 else 0

theorem L_of_ne (g : GSem nD τ sig) (h : g.1.2 ≠ .tc) : L g = ∅ := if_neg h
theorem L_tc (c : Dev nD) (sm : SemLoc sig) : L ((c : Thread nD τ), sm) = {0, 1} := if_pos rfl

end Cert.KernelIdealProof

end
-- ==== Proof.Data.lean ====
/-
  The proof data of the one pallas_call: what a device's body starts from and ends with.

  At the start a device holds: every cell's invariant and that round 0 of every cell is reached
  (persistent); its position at round 0 of its own thirty-three cells; the duty tokens it pays with
  (per peer: the peer's barrier duties of both rounds named by this device, the peer's receive duty
  named by this device, its own send duty); the credit its waits consume (fifteen units on its
  barrier cell, a copy's credit on each receive cell another device pays); its two scratch buffers.
  At the end: the two scratch buffers and its thirty-two own semaphores at zero.
-/
import proofs.«901090_g7700000000001091_dist_sum_ax0_shard0_i_m512_n256_v7x_i16_f32_1_alg».proof.Proof.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev CellIx : Type := Option (Fin 16 ⊕ Fin 16)

/-- Every cell's invariant, under the names `K` the launch allocated them at, and that round 0 of each is reached. -/
def records (K : Dev nD × CellIx → ℕ) : sProp 𝕄 :=
  iprop((bigSep Finset.univ fun ck : Dev nD × CellIx => cellInv ER (rd m ρ) (K ck) (kcell ck))
    ∗ bigSep Finset.univ fun ck : Dev nD × CellIx => reached ER (kcell ck) 0)

instance records_persistent (K : Dev nD × CellIx → ℕ) : BI.Persistent (records m ρ K) := by unfold records; infer_instance

/-- What device `c` holds for its `k`-th peer: the three tokens of the duties it pays on that peer's cells, the token of its own
    `k`-th send cell's duty, and its positions on its `k`-th send cell and on the receive cell that peer pays.
    (At `k = 0` the peer is the device itself: no duty, the positions are of two cells nobody pays.) -/
def perPeer (c : Dev nD) (k : Fin 16) : sProp 𝕄 :=
  iprop(dutyTok ER (barCell (peer c k)) 0 c ∗ dutyTok ER (recvCell (peer c k) c) 0 c ∗ dutyTok ER (barCell (peer c k)) 1 c
    ∗ dutyTok ER (sendCell c k) 0 0
    ∗ atPos ER (sendCell c k) 0 ∅ 0 ∗ atPos ER (recvCell c (peer c k)) 0 ∅ 0)

/-- The credit of device `c`'s waits: fifteen units on its barrier cell, a copy's credit on each receive cell a peer pays. -/
def credits (c : Dev nD) : sProp 𝕄 :=
  iprop(cred (tallyAt (barCell c) 0 15) ∗ bigSep (Finset.univ.erase (0 : Fin 16)) fun k => cred (tallyAt (recvCell c (peer c k)) 0 N))

/-- The protocol's ghost state device `c` starts from. -/
def ghost (K : Dev nD × CellIx → ℕ) (c : Dev nD) : sProp 𝕄 :=
  iprop(records m ρ K ∗ atPos ER (barCell c) 0 ∅ 0 ∗ bigSep Finset.univ (perPeer c))

/-- What device `c`'s body starts from, its scratch buffers apart. -/
def start (c : Dev nD) : sProp 𝕄 :=
  iprop((∃ K, ghost m ρ K c) ∗ credits c ∗ levAts L lv)

/-- Its two scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers and the thirty-two own semaphores at zero (the barrier semaphore is the runtime's). -/
def Φ₁ (c : Dev nD) : sProp 𝕄 := iprop(scratch c ∗ bigSep Finset.univ fun k : Fin 16 ⊕ Fin 16 => semVal ((c : Thread nD τ), osem k) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from, the ghost state's names fixed. -/
def bodyPre (K : Dev nD × CellIx → ℕ) (c : Dev nD) : sProp 𝕄 :=
  iprop((ghost m ρ K c ∗ credits c ∗ levAts L lv ∗ scratch c)
    ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt 0 t₀.succ ∗ stg c cc0_stg0_0 (xstg m ρ c) ∗ stg c cc0_stg1_0 (outAt m ρ))

end Cert.KernelIdealProof

end
-- ==== Proof.Landing.lean ====
/-
  The gather buffer by slots and the send buffer by shares.

  A gather buffer's sixteen slots partition its elements, so the whole buffer is its slots side by
  side; the full share of the send buffer is sixteen pieces and a rest, one piece per copy in
  flight. A device's own store into its slot, and a peer's copy landing in the slot of that peer,
  both leave the slot holding what the final gather buffer holds there.
-/
import proofs.«901090_g7700000000001091_dist_sum_ax0_shard0_i_m512_n256_v7x_i16_f32_1_alg».proof.Proof.Sched
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The rectangle of slot `c` as the device's own load and store address it. -/
abbrev ownRect (c : Dev nD) : Rect S16x1x256 := Rect.unit (s := S16x1x256) (k0_off1 c) S1x1x256.size (k0_off1_inb c)

/-- The rectangle of slot `j` as the slot's memref addresses it. -/
abbrev slotRect (j : Dev nD) : Rect S16x1x256 := Rect.unit (s := S16x1x256) (k0_off3 j) S1x1x256.size (k0_off3_inb j)

omit [FloatOps F] in
/-- Unit rectangles of equal offsets and sizes are equal. -/
theorem unit_congr {s : Shape} {off off' size : Fin s.rank → Nat} (h : off = off') (inb : ∀ a, off a + size a ≤ s.size a)
    (inb' : ∀ a, off' a + size a ≤ s.size a) : Rect.unit off size inb = Rect.unit off' size inb' := by
  subst h; rfl

omit [FloatOps F] in
/-- Both spellings of slot `c`'s offsets are `(c, 0, 0)`. -/
theorem ownRect_eq (c : Dev nD) : ownRect c = slotRect c :=
  unit_congr ((k0_off1_eq c).trans (k0_off3_eq c).symm) _ _

omit [FloatOps F] in
/-- A slot's elements are its rectangle's, placed in the gather buffer. -/
theorem slot_set (j : Dev nD) : (slotM j).view.set = (slotRect j).set.map (gM : Memref sig .tc .vmem S16x1x256 .f32).view.emb := by
  show (((gM : Memref sig .tc .vmem S16x1x256 .f32).view.slice (slotRect j)).reshape S1x256 _).set = _
  rw [View.set_reshape, View.set_slice]

/-- The elements the own store writes are the slot's. -/
theorem own_store_set (c : Dev nD) :
    ((gM : Memref sig .tc .vmem S16x1x256 .f32).access (ownRect c)).setOn Finset.univ = (slotM c).view.set := by
  rw [slot_set, ← ownRect_eq, View.setOn_univ, View.set_slice]
/-- The elements the own load reads are the slot's. -/
theorem own_load_set (c : Dev nD) :
    (gM : Memref sig .tc .vmem S16x1x256 .f32).view.setOn (ownRect c).toLoadRect.set = (slotM c).view.set := by
  rw [slot_set, ← ownRect_eq]; rfl

omit [FloatOps F] in
theorem own_emb_val (c : Dev nD) (x : S1x1x256.Idx) (a : Fin 3) :
    ((((gM : Memref sig .tc .vmem S16x1x256 .f32).access (ownRect c)).emb x : S16x1x256.Idx) a : ℕ)
      = (![c.val, 0, 0] : Fin 3 → ℕ) a + (x a : ℕ) := by
  show k0_off1 c a + 1 * _ = _
  rw [congrFun (k0_off1_eq c) a, Nat.one_mul]

omit [FloatOps F] in
theorem own_emb0 (c : Dev nD) (x : S1x1x256.Idx) :
    ((((gM : Memref sig .tc .vmem S16x1x256 .f32).access (ownRect c)).emb x : S16x1x256.Idx) 0 : ℕ) = c.val := by
  rw [own_emb_val]
  have h : ((x 0 : Fin 1) : ℕ) < 1 := Fin.isLt _
  show c.val + ((x 0 : Fin 1) : ℕ) = c.val
  omega

omit [FloatOps F] in
theorem own_emb2 (c : Dev nD) (x : S1x1x256.Idx) :
    ((((gM : Memref sig .tc .vmem S16x1x256 .f32).access (ownRect c)).emb x : S16x1x256.Idx) 2 : ℕ) = ((x 2 : Fin 256) : ℕ) := by
  rw [own_emb_val]
  show 0 + ((x 2 : Fin 256) : ℕ) = ((x 2 : Fin 256) : ℕ)
  omega

/-- The partial sum reshaped to one slot reads as the partial sum itself. -/
theorem pay3_eq (v : Vec F S512x256 .f32) (x : S1x1x256.Idx) :
    k0_pay3 v x = k0_pay2 v (ValueIdx.ix2 (0 : Fin 1) (show Fin 256 from x 2)) := by
  show shapeCast S1x1x256 (k0_pay1 v) shapeCasts_S1x256_S1x1x256 x = shapeCast S1x256 (k0_pay1 v) shapeCasts_S1x256_S1x256 _
  rw [shapeCast_self, shapeCast_addUnit_apply]
  congr 1
  funext a
  match a with
  | ⟨0, _⟩ => exact Fin.ext (by have h : ((x 1 : Fin 1) : ℕ) < 1 := Fin.isLt _; show ((x 1 : Fin 1) : ℕ) = 0; omega)
  | ⟨1, _⟩ => rfl

/-- A device's own store of its partial sum leaves its slot as the final gather buffer has it. -/
theorem stored_eq (c : Dev nD) (f : Buf (Elt F) ((c : Thread nD τ).loc cc0_scratch1)) :
    ∀ i ∈ (slotM c).view.set,
      ((gM : Memref sig .tc .vmem S16x1x256 .f32).access (ownRect c)).write (Elt F) f (k0_pay3 (xstg m ρ c)) Finset.univ i = gath m ρ i := by
  intro i hi
  rw [← own_store_set, View.setOn_univ] at hi
  obtain ⟨x, rfl⟩ := View.exists_emb_of_mem_set _ hi
  rw [View.write_emb_of_mem _ _ (Finset.mem_univ x)]
  have h0 : (show Fin 16 from (((gM : Memref sig .tc .vmem S16x1x256 .f32).access (ownRect c)).emb x : S16x1x256.Idx) 0) = c :=
    Fin.ext (own_emb0 c x)
  have h2 : (show Fin 256 from (((gM : Memref sig .tc .vmem S16x1x256 .f32).access (ownRect c)).emb x : S16x1x256.Idx) 2) = (show Fin 256 from x 2) :=
    Fin.ext (own_emb2 c x)
  unfold gath part
  rw [h0, h2, ← pay3_eq]
  rfl

omit [FloatOps F] in
theorem slot_emb_val (j : Dev nD) (y : S1x256.Idx) (a : Fin 3) :
    (((slotM j).view.emb y : S16x1x256.Idx) a : ℕ)
      = (![j.val, 0, 0] : Fin 3 → ℕ) a + ((Shape.reshapeEquiv (s := S1x1x256) (s' := S1x256) squeezes_S1x1x256_S1x256.numel_eq y) a : ℕ) := by
  show k0_off3 j a + 1 * _ = _
  rw [congrFun (k0_off3_eq j) a, Nat.one_mul]
  rfl

omit [FloatOps F] in
theorem slot_emb0 (j : Dev nD) (y : S1x256.Idx) : (((slotM j).view.emb y : S16x1x256.Idx) 0 : ℕ) = j.val := by
  rw [slot_emb_val]
  have h : ((Shape.reshapeEquiv (s := S1x1x256) (s' := S1x256) squeezes_S1x1x256_S1x256.numel_eq y) 0 : ℕ) < 1 := Fin.isLt _
  show j.val + _ = j.val
  omega

omit [FloatOps F] in
theorem slot_emb2 (j : Dev nD) (y : S1x256.Idx) : (((slotM j).view.emb y : S16x1x256.Idx) 2 : ℕ) = (y 1).val := by
  rw [slot_emb_val, Shape.reshapeEquiv_cons_one]
  show 0 + (y 1).val = (y 1).val
  omega

theorem gath_slot (j : Dev nD) (y : S1x256.Idx) : gath m ρ ((slotM j).view.emb y) = part m ρ j y := by
  have h0 : (show Fin 16 from ((slotM j).view.emb y : S16x1x256.Idx) 0) = j := Fin.ext (slot_emb0 j y)
  have h2 : ValueIdx.ix2 (0 : Fin 1) (show Fin 256 from ((slotM j).view.emb y : S16x1x256.Idx) 2) = y := by
    funext a
    match a with
    | ⟨0, _⟩ => exact Fin.ext (by have h : ((y 0 : Fin 1) : ℕ) < 1 := Fin.isLt _; show 0 = ((y 0 : Fin 1) : ℕ); omega)
    | ⟨1, _⟩ => exact Fin.ext (slot_emb2 j y)
  unfold gath
  rw [h0, h2]

/-- Device `j`'s copy of its send buffer, landed in slot `j` of device `c'`'s gather buffer, leaves that slot as the final gather buffer has it. -/
theorem landed_eq (c' j : Dev nD) (fd : Buf (Elt F) ((slotM j).view.loc (c' : Thread nD τ))) :
    ∀ i ∈ (slotM j).view.set,
      (slotM j).view.write (Elt F) fd ((sM : Memref sig .tc .vmem S1x256 .f32).view.read (Elt F) (part m ρ j)) Finset.univ i = gath m ρ i := by
  intro i hi
  obtain ⟨y, rfl⟩ := View.exists_emb_of_mem_set _ hi
  rw [View.write_emb_of_mem _ _ (Finset.mem_univ y), gath_slot]
  rfl

omit [FloatOps F] in
theorem mem_slot_set (j : Dev nD) (i : S16x1x256.Idx) : i ∈ (slotM j).view.set ↔ (i 0 : ℕ) = j.val := by
  rw [slot_set]
  show i ∈ (slotRect j).set.map (Function.Embedding.refl _) ↔ _
  rw [Finset.map_refl, Rect.mem_set_unit]
  have h1 : (i 1 : ℕ) < 1 := (i 1).isLt
  have h2 : (i 2 : ℕ) < 256 := (i 2).isLt
  have e0 := congrFun (k0_off3_eq j) 0
  have e1 := congrFun (k0_off3_eq j) 1
  have e2 := congrFun (k0_off3_eq j) 2
  constructor
  · intro h
    have h0 := h 0
    rw [e0] at h0
    have h0' : j.val ≤ (i 0 : ℕ) ∧ (i 0 : ℕ) < j.val + 1 := h0
    omega
  · intro h a
    match a with
    | ⟨0, _⟩ =>
      show k0_off3 j 0 ≤ (i 0 : ℕ) ∧ (i 0 : ℕ) < k0_off3 j 0 + 1
      rw [e0]; show j.val ≤ (i 0 : ℕ) ∧ (i 0 : ℕ) < j.val + 1; omega
    | ⟨1, _⟩ =>
      show k0_off3 j 1 ≤ (i 1 : ℕ) ∧ (i 1 : ℕ) < k0_off3 j 1 + 1
      rw [e1]; show 0 ≤ (i 1 : ℕ) ∧ (i 1 : ℕ) < 0 + 1; omega
    | ⟨2, _⟩ =>
      show k0_off3 j 2 ≤ (i 2 : ℕ) ∧ (i 2 : ℕ) < k0_off3 j 2 + 256
      rw [e2]; show 0 ≤ (i 2 : ℕ) ∧ (i 2 : ℕ) < 0 + 256; omega

/-- The sixteen offsets from a device are the sixteen devices. -/
def peerEquivL (c : Dev nD) : Fin 16 ≃ Dev nD where
  toFun := peer c
  invFun j := (show Fin 16 from j) - (show Fin 16 from c)
  left_inv := by revert c; decide
  right_inv := by revert c; decide

/-- The whole gather buffer is its sixteen slots, listed from the device's own by offset. -/
theorem gbuf_split (c : Dev nD) (f : Buf (Elt F) ((c : Thread nD τ).loc cc0_scratch1)) :
    ((((c : Thread nD τ).loc cc0_scratch1) ↦{fullShare} f : sProp 𝕄)) = bigSep Finset.univ fun k : Fin 16 => slotPts c (peer c k) f := by
  have hcov : (Finset.univ : Finset (Idx ((c : Thread nD τ).loc cc0_scratch1)))
      = (Finset.univ : Finset (Dev nD)).biUnion fun j => (slotM j).view.set := by
    ext i
    simp only [Finset.mem_univ, Finset.mem_biUnion, true_and, true_iff]
    exact ⟨(show Fin 16 from (show S16x1x256.Idx from i) 0), (mem_slot_set _ _).mpr rfl⟩
  have hdisj : ∀ j ∈ (Finset.univ : Finset (Dev nD)), ∀ j' ∈ (Finset.univ : Finset (Dev nD)), j ≠ j' →
      Disjoint (slotM j).view.set (slotM j').view.set := by
    intro j _ j' _ hne
    rw [Finset.disjoint_left]
    intro i hi hi'
    exact hne (Fin.ext (((mem_slot_set j i).mp hi).symm.trans ((mem_slot_set j' i).mp hi')))
  rw [hcov, pointsTo_biUnion _ _ hdisj, bigSep_univ_equiv (peerEquivL c)]
  rfl

/-- A full share of any elements is its first n pieces and the rest. -/
theorem share_pieces {ℓ : Loc nD τ sig} (I : Finset (Idx ℓ)) (f : Buf (Elt F) ℓ) (n : ℕ) :
    (ℓ ↦[I]{fullShare} f : sProp 𝕄)
      = iprop((bigSep (Finset.range n) fun k => (ℓ ↦[I]{pieceShare k} f : sProp 𝕄)) ∗ ℓ ↦[I]{restShare n} f) := by
  induction n with
  | zero =>
    rw [Finset.range_zero, bigSep_empty]
    exact (BI.equiv_iff.mp (BI.emp_sep (P := (ℓ ↦[I]{restShare 0} f : sProp 𝕄)))).symm
  | succ n ih =>
    have h : (ℓ ↦[I]{restShare n} f : sProp 𝕄) ⊣⊢ iprop((ℓ ↦[I]{(restShare n).left} f) ∗ ℓ ↦[I]{(restShare n).right} f) :=
      pointsTo_share (PosShare.mem_left_op_right (restShare n))
    have hs : (ℓ ↦[I]{restShare n} f : sProp 𝕄) = iprop((ℓ ↦[I]{pieceShare n} f) ∗ ℓ ↦[I]{restShare (n + 1)} f) :=
      BI.equiv_iff.mp ⟨h.1, h.2⟩
    rw [Finset.range_add_one, bigSep_insert Finset.notMem_range_self, ih, hs]
    have h' := (sep_left_comm (P := bigSep (Finset.range n) fun k => (ℓ ↦[I]{pieceShare k} f : sProp 𝕄))
      (Q := (ℓ ↦[I]{pieceShare n} f : sProp 𝕄)) (R := (ℓ ↦[I]{restShare (n + 1)} f : sProp 𝕄))).trans sep_assoc.symm
    exact BI.equiv_iff.mp ⟨h'.1, h'.2⟩

omit [FloatOps F] in
/-- The numbers below n are the values of `Fin n`. -/
theorem range_eq_map_val (n : ℕ) : Finset.range n = (Finset.univ : Finset (Fin n)).map Fin.valEmbedding := by
  ext x
  rw [Finset.mem_range, Finset.mem_map]
  exact ⟨fun h => ⟨⟨x, h⟩, Finset.mem_univ _, rfl⟩, fun ⟨a, _, h⟩ => h ▸ a.isLt⟩

/-- The whole send buffer at the device's partial sum is its sixteen pieces and the rest. -/
theorem sbuf_split (c : Dev nD) :
    ((((c : Thread nD τ).loc cc0_scratch0) ↦{fullShare} part m ρ c : sProp 𝕄))
      ⊣⊢ iprop((bigSep Finset.univ fun k : Fin 16 => sbufPts m ρ c (pieceShare k.val)) ∗ sbufPts m ρ c (restShare 16)) := by
  have heq : ((((c : Thread nD τ).loc cc0_scratch0) ↦{fullShare} part m ρ c : sProp 𝕄))
      = iprop((bigSep Finset.univ fun k : Fin 16 => sbufPts m ρ c (pieceShare k.val)) ∗ sbufPts m ρ c (restShare 16)) := by
    rw [share_pieces (F := F) (ℓ := (c : Thread nD τ).loc cc0_scratch0) Finset.univ (part m ρ c) 16, range_eq_map_val, bigSep_map]
    unfold sbufPts
    rw [View.set_whole]
    rfl
  rw [heq]

end Cert.KernelIdealProof

end
-- ==== Proof.Rules.lean ====
/-
  The protocol's five remote steps and the barrier wait, each as one rule at the schedule's cells.

  Payments are numbered in program order: 0..14 the entry signals to peers 1..15, 15..29 the copies,
  30..44 the exit signals; `owedAfter c a` is what device c still owes after its first a payments.
-/
import proofs.«901090_g7700000000001091_dist_sum_ax0_shard0_i_m512_n256_v7x_i16_f32_1_alg».proof.Proof.Data
import proofs.«901090_g7700000000001091_dist_sum_ax0_shard0_i_m512_n256_v7x_i16_f32_1_alg».proof.Proof.Landing

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

section Rules
variable (K : Dev nD × CellIx → ℕ) (c : Dev nD)

/-! The payments by position: the `a`-th is the entry signal, the copy, the exit signal to the peer at the matching offset. -/

omit [FloatOps F] in
theorem dues_lt (a : ℕ) (h : a < 45) : a < (dues c).length := by simp [dues, ks]; omega

omit [FloatOps F] in
theorem dues_entry (k : Fin 16) (a : ℕ) (hk : k.val = a + 1) : (dues c)[a]'(dues_lt c a (by omega)) = owedE c k := by
  obtain ⟨kv, hkv⟩ := k
  simp only at hk
  subst hk
  have ha : a < 15 := by omega
  interval_cases a <;> rfl

omit [FloatOps F] in
theorem dues_copy (k : Fin 16) (a : ℕ) (hk : 15 + k.val = a + 1) (hk0 : k ≠ 0) : (dues c)[a]'(dues_lt c a (by omega)) = owedS c k := by
  obtain ⟨kv, hkv⟩ := k
  have h0 : kv ≠ 0 := fun h => hk0 (Fin.ext h)
  simp only at hk
  obtain ⟨b, rfl⟩ : ∃ b, kv = b + 1 := ⟨kv - 1, by omega⟩
  have ha : a = 15 + b := by omega
  subst ha
  have hb : b < 15 := by omega
  interval_cases b <;> rfl

omit [FloatOps F] in
theorem dues_exit (k : Fin 16) (a : ℕ) (hk : 30 + k.val = a + 1) (hk0 : k ≠ 0) : (dues c)[a]'(dues_lt c a (by omega)) = owedX c k := by
  obtain ⟨kv, hkv⟩ := k
  have h0 : kv ≠ 0 := fun h => hk0 (Fin.ext h)
  simp only at hk
  obtain ⟨b, rfl⟩ : ∃ b, kv = b + 1 := ⟨kv - 1, by omega⟩
  have ha : a = 30 + b := by omega
  subst ha
  have hb : b < 15 := by omega
  interval_cases b <;> rfl

/-- The entry signal to the `k`-th peer: payment `a`, one unit on that peer's barrier cell for its entry round, handing the
    peer the right to write its slot of this device's gather buffer. -/
theorem wp_entry (k : Fin 16) (a a' : ℕ) (ha : a' = a + 1) (hk : k.val = a') (p : Dev nD) (hp : p = peer c k) (n : ℕ) (hn : n = 1)
    {α : Type} {Q : α → sProp 𝕄} {kk : PUnit → Prog (TpuEff nD τ sig (Elt F) Λ₀ .tc) α} (W : Waits sig ℕ) :
    iprop(cellInv ER (rd m ρ) (K (peer c k, none)) (barCell (peer c k))
        ∗ owes (c : Thread nD τ) (owedAfter c a) W
        ∗ dutyTok ER (barCell (peer c k)) 0 c
        ∗ (∃ f, slotPts c (peer c k) f)
        ∗ reached ER (barCell (peer c k)) 0)
      ⊢ iprop((owes (c : Thread nD τ) (owedAfter c a') W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (p : Thread nD τ) barS n) kk) Q) := by
  subst hp hn ha
  have hk0 : k ≠ 0 := fun h => by rw [h] at hk; exact absurd hk (by simp)
  have hO : owedAfter c a = owedAfter c (a + 1) + tallyAt (barCell (peer c k)) 0 1 := by
    rw [owedAfter_step c a (by omega), dues_entry c k a hk]; rfl
  rw [← payload_bar0 m ρ (peer c k) c]
  exact Rounds.wp_signal 𝒱₀ ER (rd m ρ) (c : Thread nD τ) none (dst := (peer c k : Thread nD τ)) (sem := barS) (κ := K (peer c k, none))
    (r := 0) (d := c) (by rw [duties_bar m ρ (peer c k) 0 (by omega)]; exact Finset.mem_erase.mpr ⟨(peer_ne c k hk0).symm, Finset.mem_univ _⟩)
    (amount_bar m ρ (peer c k) 0 c) 0 (owedAfter c (a + 1)) hO (W := W)

/-! What is still owed from the copies on, cell by cell, and the levels. -/

omit [FloatOps F] in
theorem list_sum_pos {l : List (CellTallies nD τ sig ℕ)} {g : GSem nD τ sig} {i : ℕ} (h : 0 < l.sum g i) : ∃ t ∈ l, 0 < t g i := by
  induction l with
  | nil => simp at h
  | cons t l ih =>
    rw [List.sum_cons] at h
    rcases Pipeline.add_pos_cases h with h | h
    · exact ⟨t, List.mem_cons_self, h⟩
    · obtain ⟨t', ht', h'⟩ := ih h; exact ⟨t', List.mem_cons_of_mem _ ht', h'⟩

omit [FloatOps F] in
/-- After the thirty first payments only exit signals are owed: units on peers' barrier cells at index 1. -/
theorem owed30_pos (g : GSem nD τ sig) (i : ℕ) (h : 0 < owedAfter c 30 g i) : ∃ k : Fin 16, g = barCell (peer c k) ∧ i = 1 := by
  unfold owedAfter at h
  rw [show (dues c).drop 30 = ks.map (owedX c) from rfl] at h
  obtain ⟨t, ht, hpos⟩ := list_sum_pos h
  obtain ⟨k, -, rfl⟩ := List.mem_map.mp ht
  exact ⟨k, Pipeline.tallyAt_pos hpos⟩

omit [FloatOps F] in
/-- After the fifteen entry signals: copies' credits on peers' receive cells at index 0, and the exit signals. -/
theorem owed15_pos (g : GSem nD τ sig) (i : ℕ) (h : 0 < owedAfter c 15 g i) :
    (∃ k : Fin 16, g = recvCell (peer c k) c ∧ i = 0) ∨ ∃ k : Fin 16, g = barCell (peer c k) ∧ i = 1 := by
  unfold owedAfter at h
  rw [show (dues c).drop 15 = ks.map (owedS c) ++ ks.map (owedX c) from rfl] at h
  obtain ⟨t, ht, hpos⟩ := list_sum_pos h
  rcases List.mem_append.mp ht with ht | ht
  · obtain ⟨k, -, rfl⟩ := List.mem_map.mp ht
    exact Or.inl ⟨k, Pipeline.tallyAt_pos hpos⟩
  · obtain ⟨k, -, rfl⟩ := List.mem_map.mp ht
    exact Or.inr ⟨k, Pipeline.tallyAt_pos hpos⟩

omit [FloatOps F] in
theorem lv_bar (d : Dev nD) (i : ℕ) : lv (barCell d) i = if i = 0 then 1 else 3 := by
  show (if (SemLoc.reg barS : SemLoc sig) = .reg barS then (if i = 0 then 1 else 3) else _) = _
  rw [if_pos rfl]
omit [FloatOps F] in
theorem lv_recv (d : Dev nD) (j : Fin 16) (i : ℕ) : lv (recvCell d j) i = 2 := by
  show (if (SemLoc.dma (recvS j) : SemLoc sig) = .reg barS then _ else if (recvIdx (SemLoc.dma (recvS j) : SemLoc sig)).isSome then 2 else 0) = 2
  rw [if_neg (recv_ne_bar j), recvIdx_recv]; rfl
omit [FloatOps F] in
theorem lv_send (d : Dev nD) (k : Fin 16) (i : ℕ) : lv (sendCell d k) i = 0 := by
  show (if (SemLoc.dma (sendS k) : SemLoc sig) = .reg barS then _ else if (recvIdx (SemLoc.dma (sendS k) : SemLoc sig)).isSome then 2 else 0) = 0
  rw [if_neg (send_ne_bar k), recvIdx_send]; rfl

omit [FloatOps F] in
theorem mem_L (d : Dev nD) (sm : SemLoc sig) (i : ℕ) (hi : i = 0 ∨ i = 1) : i ∈ L ((d : Thread nD τ), sm) := by
  rw [L_tc]; rcases hi with rfl | rfl <;> simp

/-- The barrier wait's cell at index 0 (level 1) is below the copies' receive cells (2) and the exit units (3). -/
theorem mayWait_bar : (levAts L lv : sProp 𝕄) ⊢ MayWait (c : Thread nD τ) (.reg barS) 0 (owedAfter c 15) :=
  Pipeline.mayWait_of_levAts (mem_L c _ 0 (Or.inl rfl)) fun g i h => by
    rcases owed15_pos c g i h with ⟨k, rfl, rfl⟩ | ⟨k, rfl, rfl⟩
    · exact ⟨mem_L _ _ 0 (Or.inl rfl), by rw [lv_bar, lv_recv]; decide⟩
    · exact ⟨mem_L _ _ 1 (Or.inr rfl), by rw [lv_bar, lv_bar]; decide⟩
/-- A receive cell (level 2) and a send cell (level 0) are below the exit units (3). -/
theorem mayWait_recv (j : Fin 16) : (levAts L lv : sProp 𝕄) ⊢ MayWait (c : Thread nD τ) (.dma (recvS j)) 0 (owedAfter c 30) :=
  Pipeline.mayWait_of_levAts (mem_L c _ 0 (Or.inl rfl)) fun g i h => by
    obtain ⟨k, rfl, rfl⟩ := owed30_pos c g i h
    exact ⟨mem_L _ _ 1 (Or.inr rfl), by rw [lv_recv, lv_bar]; decide⟩
theorem mayWait_send (k : Fin 16) : (levAts L lv : sProp 𝕄) ⊢ MayWait (c : Thread nD τ) (.dma (sendS k)) 0 (owedAfter c 30) :=
  Pipeline.mayWait_of_levAts (mem_L c _ 0 (Or.inl rfl)) fun g i h => by
    obtain ⟨k', rfl, rfl⟩ := owed30_pos c g i h
    exact ⟨mem_L _ _ 1 (Or.inr rfl), by rw [lv_send, lv_bar]; decide⟩

/-! The rest of a round as the wait returns it. -/

theorem rest_send (k : Fin 16) (hk0 : k ≠ 0) :
    (bigSep ((rd (F := F) m ρ).duties (sendCell c k) 0 \ ∅) fun d => (rd m ρ).payload (sendCell c k) 0 d) = sbufPts m ρ c (pieceShare k.val) := by
  rw [Finset.sdiff_empty, duties_send m ρ c k hk0, bigSep_singleton, payload_send]
theorem rest_recv (j : Fin 16) (hj : j ≠ c) :
    (bigSep ((rd (F := F) m ρ).duties (recvCell c j) 0 \ ∅) fun d => (rd m ρ).payload (recvCell c j) 0 d)
      = iprop(slotPts c j (gath m ρ) ∗ reached ER (barCell j) 1) := by
  rw [Finset.sdiff_empty, duties_recv m ρ c j hj, bigSep_singleton, payload_recv]

omit [FloatOps F] in
theorem exists_peer (d : Dev nD) : ∃ k : Fin 16, peer c k = d := by revert c d; decide
omit [FloatOps F] in
/-- The other devices are the peers at the non-zero offsets. -/
theorem peers_erase : (Finset.univ.erase (0 : Fin 16)).map ⟨fun k => peer c k, fun k k' h => peer_inj c k k' h⟩ = Finset.univ.erase c := by
  ext d
  simp only [Finset.mem_map, Finset.mem_erase, Finset.mem_univ, and_true, Function.Embedding.coeFn_mk]
  constructor
  · rintro ⟨k, hk, rfl⟩; exact peer_ne c k hk
  · intro hd
    obtain ⟨k, rfl⟩ := exists_peer c d
    exact ⟨k, fun h => hd (by rw [h, peer_zero]), rfl⟩
theorem rest_bar :
    (bigSep ((rd (F := F) m ρ).duties (barCell c) 0 \ ∅) fun d => (rd m ρ).payload (barCell c) 0 d)
      = bigSep (Finset.univ.erase (0 : Fin 16)) fun k => iprop(∃ f, slotPts (peer c k) c f) := by
  rw [Finset.sdiff_empty, duties_bar m ρ c 0 (by omega), bigSep_congr fun d _ => payload_bar0 m ρ c d, ← peers_erase c, bigSep_map]
  rfl

/-- The wait for the fifteen entry units, owing the copies and the exit signals: every peer's slot for this device comes with it. -/
theorem wp_bar_wait (n : ℕ) (hn : n = 15)
    {α : Type} {Q : α → sProp 𝕄} {kk : PUnit → Prog (TpuEff nD τ sig (Elt F) Λ₀ .tc) α} (W : Waits sig ℕ) :
    iprop(cellInv ER (rd m ρ) (K (c, none)) (barCell c) ∗ cred (tallyAt (barCell c) 0 15) ∗ owes (c : Thread nD τ) (owedAfter c 15) W
        ∗ levAts L lv ∗ atPos ER (barCell c) 0 ∅ 0)
      ⊢ iprop(((owes (c : Thread nD τ) (owedAfter c 15) (insert (SemLoc.reg barS, 0) W) ∗ atPos ER (barCell c) 1 ∅ 0 ∗ reached ER (barCell c) 1
              ∗ bigSep (Finset.univ.erase (0 : Fin 16)) fun k => iprop(∃ f, slotPts (peer c k) c f))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS n) kk) Q) := by
  subst hn
  rw [← rest_bar m ρ c]
  refine (sep_mono_right (sep_mono_right (sep_mono_right (sep_mono_left (mayWait_bar c))))).trans ?_
  exact Rounds.wp_wait_rest_token 𝒱₀ ER (rd m ρ) (c : Thread nD τ) none (κ := K (c, none))
    (wpE_semWait_eq 𝒱₀ (c : Thread nD τ) none Set.univ) (Set.mem_univ _) 0 (O := owedAfter c 15) (W := W) (R := 0) (m := 0) (T := ∅)
    (by rw [expect_bar m ρ c 0 (by omega)])

/-- The copy to the `k`-th peer: payment `a`, share `k` of the send buffer lent until the departure, the peer's slot for this device
    rewritten to this device's partial sum at the arrival, with the fact that this device has finished its barrier cell's entry round. -/
theorem wp_copy (k : Fin 16) (hk0 : k ≠ 0) (a a' : ℕ) (ha : a' = a + 1) (hk : 15 + k.val = a') (p : Dev nD) (hp : p = peer c k)
    (qs qr : DmaSem sig) (hqs : qs = sendS k) (hqr : qr = recvS c)
    {hsc : (slotM c : Memref sig (Dev.tc p : Thread nD τ).2.kind .vmem S1x256 .f32).view.ref.isScScratch = false}
    {hsrc : (sM : Memref sig .tc .vmem S1x256 .f32).view.WordExact} {hdst : (slotM c : Memref sig .tc .vmem S1x256 .f32).view.WordExact}
    {hsem : DmaTarget.Typed .vmem (.dma qr) (.remote (Dev.tc p : Thread nD τ) (slotM c : Memref sig .tc .vmem S1x256 .f32) (.dma qs) hsc)}
    {α : Type} {Q : α → sProp 𝕄} {kk : PUnit → Prog (TpuEff nD τ sig (Elt F) Λ₀ .tc) α}
    (fd : Buf (Elt F) ((slotM c).view.loc (peer c k : Thread nD τ))) (W : Waits sig ℕ) :
    iprop(cellInv ER (rd m ρ) (K (c, some (.inl k))) (sendCell c k) ∗ cellInv ER (rd m ρ) (K (peer c k, some (.inr c))) (recvCell (peer c k) c)
        ∗ sbufPts m ρ c (pieceShare k.val) ∗ slotPts (peer c k) c fd
        ∗ owes (c : Thread nD τ) (owedAfter c a) W
        ∗ dutyTok ER (sendCell c k) 0 0 ∗ reached ER (sendCell c k) 0
        ∗ dutyTok ER (recvCell (peer c k) c) 0 c ∗ reached ER (recvCell (peer c k) c) 0
        ∗ reached ER (barCell c) 1)
      ⊢ iprop(((cred (tallyAt (sendCell c k) 0 N) ∗ owes (c : Thread nD τ) (owedAfter c a') W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sM (.remote (Dev.tc p : Thread nD τ) (slotM c) (.dma qs) hsc) (.dma qr) hsrc hdst hsem) kk) Q) := by
  subst hp hqs hqr ha
  have hO : owedAfter c a = owedAfter c (a + 1) + tallyAt (recvCell (peer c k) c) 0 N := by
    rw [owedAfter_step c a (by omega), dues_copy c k a hk hk0]; rfl
  have hd₁ : (0 : Fin 16) ∈ (rd (F := F) m ρ).duties (sendCell c k) 0 := by
    rw [duties_send m ρ c k hk0]; exact Finset.mem_singleton_self _
  have hd₂ : c ∈ (rd (F := F) m ρ).duties (recvCell (peer c k) c) 0 := by
    rw [duties_recv m ρ (peer c k) c (peer_ne c k hk0).symm]; exact Finset.mem_singleton_self _
  have hpay₁ : ((sM : Memref sig .tc .vmem S1x256 .f32).view.loc (c : Thread nD τ) ↦[(sM : Memref sig .tc .vmem S1x256 .f32).view.set]{pieceShare k.val} part m ρ c : sProp 𝕄)
      ⊢ (rd m ρ).payload (sendCell c k) 0 0 := by
    rw [payload_send]; unfold sbufPts; exact BI.Entails.refl _
  have hpay₂ : iprop(((slotM c).view.loc (peer c k : Thread nD τ) ↦[(slotM c).view.set]{fullShare}
        ((slotM c).view.write (Elt F) fd ((sM : Memref sig .tc .vmem S1x256 .f32).view.read (Elt F) (part m ρ c)) Finset.univ) : sProp 𝕄)
        ∗ reached ER (barCell c) 1)
      ⊢ (rd m ρ).payload (recvCell (peer c k) c) 0 c := by
    rw [payload_recv]; unfold slotPts
    rw [pointsTo_congr (landed_eq m ρ (peer c k) c fd)]
  unfold sbufPts slotPts
  iintro ⟨Hg1, Hg2, Hs, Hd, HO, Ht1, Hr1, Ht2, Hr2, HF⟩
  iapply (Rounds.wp_send_pointsTo_with 𝒱₀ ER (rd m ρ) (c : Thread nD τ) none (c' := (peer c k : Thread nD τ))
      (src := (sM : Memref sig .tc .vmem S1x256 .f32)) (dst := (slotM c : Memref sig .tc .vmem S1x256 .f32)) (q := pieceShare k.val) (fs := part m ρ c) (fd := fd)
      (F := reached ER (barCell c) 1) (sS := .dma (sendS k)) (sem := .dma (recvS c))
      (κ₁ := K (c, some (.inl k))) (κ₂ := K (peer c k, some (.inr c))) (r₁ := 0) (r₂ := 0) (d₁ := 0) (d₂ := c)
      hd₁ hd₂ 0 0 N rfl (amount_send m ρ c k 0 0) (amount_recv m ρ (peer c k) c 0 c) (owedAfter c (a + 1)) hO (W := W) hpay₁ hpay₂)
  isplitl [Hg1]; · iexact Hg1
  isplitl [Hg2]; · iexact Hg2
  isplitl [Hs]; · iexact Hs
  isplitl [Hd HF]
  · isplitl [Hd]; · iexact Hd
    iexact HF
  isplitl [HO]; · iexact HO
  isplitl [Ht1]; · iexact Ht1
  isplitl [Hr1]; · iexact Hr1
  isplitl [Ht2]; · iexact Ht2
  iexact Hr2

/-- The wait for the `k`-th peer's copy, owing the exit signals: this device's slot of that peer at the peer's partial sum, and that
    the peer has finished its barrier cell's entry round. -/
theorem wp_recv_wait (k : Fin 16) (hk0 : k ≠ 0) (q : DmaSem sig) (hq : q = recvS (peer c k))
    {sp' : Space} {s' : Shape} {e' : EltTy} {src : Memref sig .tc sp' s' e'} {dst : Memref sig .tc .vmem S1x256 .f32}
    {hsrc : src.view.WordExact} {hdst : dst.view.WordExact} (hcr : dst.view.dmaCredit = N)
    {α : Type} {Q : α → sProp 𝕄} {kk : PUnit → Prog (TpuEff nD τ sig (Elt F) Λ₀ .tc) α} (W : Waits sig ℕ) :
    iprop(cellInv ER (rd m ρ) (K (c, some (.inr (peer c k)))) (recvCell c (peer c k)) ∗ cred (tallyAt (recvCell c (peer c k)) 0 N)
        ∗ owes (c : Thread nD τ) (owedAfter c 30) W ∗ levAts L lv ∗ atPos ER (recvCell c (peer c k)) 0 ∅ 0)
      ⊢ iprop(((owes (c : Thread nD τ) (owedAfter c 30) (insert (SemLoc.dma (recvS (peer c k)), 0) W) ∗ atPos ER (recvCell c (peer c k)) 1 ∅ 0
              ∗ slotPts c (peer c k) (gath m ρ) ∗ reached ER (barCell (peer c k)) 1)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  have hw : ∀ K' : PUnit → sProp 𝕄, wpE (defs₀ (F := F)) 𝒱₀ (c : Thread nD τ) none Set.univ (.waitDma2 (recvS (peer c k)) src dst hsrc hdst) K'
      = waitSpec (c : Thread nD τ) Set.univ (.dma (recvS (peer c k))) N K' := fun K' => by
    rw [wpE_waitDma2_eq, hcr]
  iintro ⟨Hg, Hc, HO, Hlev, Hat⟩ Hk
  iapply (Rounds.wp_wait_rest_token 𝒱₀ ER (rd m ρ) (c : Thread nD τ) none (κ := K (c, some (.inr (peer c k)))) hw (Set.mem_univ _) 0
      (O := owedAfter c 30) (W := W) (R := 0) (m := 0) (T := ∅) (by rw [expect_recv m ρ c (peer c k) (peer_ne c k hk0), zero_add])) $$ [Hg Hc HO Hlev Hat]
  · isplitl [Hg]; · iexact Hg
    isplitl [Hc]; · iexact Hc
    isplitl [HO]; · iexact HO
    isplitl [Hlev]; · iapply (mayWait_recv c (peer c k)); iexact Hlev
    iexact Hat
  iintro ⟨HO, Hat, -, Hpay⟩
  ihave Hp := (Entails.of_eq (rest_recv m ρ c (peer c k) (peer_ne c k hk0))) $$ Hpay
  iapply Hk
  isplitl [HO]; · iexact HO
  isplitl [Hat]; · iexact Hat
  iexact Hp

/-- The wait for the departure of the copy to the `k`-th peer: share `k` of the send buffer back. -/
theorem wp_send_wait (k : Fin 16) (hk0 : k ≠ 0) (q : DmaSem sig) (hq : q = sendS k)
    {sp' : Space} {s' : Shape} {e' : EltTy} {src : Memref sig .tc sp' s' e'} {dst : Memref sig .tc .vmem S1x256 .f32}
    {hsrc : src.view.WordExact} {hdst : dst.view.WordExact} (hcr : dst.view.dmaCredit = N)
    {α : Type} {Q : α → sProp 𝕄} {kk : PUnit → Prog (TpuEff nD τ sig (Elt F) Λ₀ .tc) α} (W : Waits sig ℕ) :
    iprop(cellInv ER (rd m ρ) (K (c, some (.inl k))) (sendCell c k) ∗ cred (tallyAt (sendCell c k) 0 N)
        ∗ owes (c : Thread nD τ) (owedAfter c 30) W ∗ levAts L lv ∗ atPos ER (sendCell c k) 0 ∅ 0)
      ⊢ iprop(((owes (c : Thread nD τ) (owedAfter c 30) (insert (SemLoc.dma (sendS k), 0) W) ∗ atPos ER (sendCell c k) 1 ∅ 0
              ∗ sbufPts m ρ c (pieceShare k.val))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  have hw : ∀ K' : PUnit → sProp 𝕄, wpE (defs₀ (F := F)) 𝒱₀ (c : Thread nD τ) none Set.univ (.waitDma2 (sendS k) src dst hsrc hdst) K'
      = waitSpec (c : Thread nD τ) Set.univ (.dma (sendS k)) N K' := fun K' => by
    rw [wpE_waitDma2_eq, hcr]
  iintro ⟨Hg, Hc, HO, Hlev, Hat⟩ Hk
  iapply (Rounds.wp_wait_rest_token 𝒱₀ ER (rd m ρ) (c : Thread nD τ) none (κ := K (c, some (.inl k))) hw (Set.mem_univ _) 0
      (O := owedAfter c 30) (W := W) (R := 0) (m := 0) (T := ∅) (by rw [expect_send m ρ c k hk0, zero_add])) $$ [Hg Hc HO Hlev Hat]
  · isplitl [Hg]; · iexact Hg
    isplitl [Hc]; · iexact Hc
    isplitl [HO]; · iexact HO
    isplitl [Hlev]; · iapply (mayWait_send c k); iexact Hlev
    iexact Hat
  iintro ⟨HO, Hat, -, Hpay⟩
  ihave Hp := (Entails.of_eq (rest_send m ρ c k hk0)) $$ Hpay
  iapply Hk
  isplitl [HO]; · iexact HO
  isplitl [Hat]; · iexact Hat
  iexact Hp

/-- The exit signal to the `k`-th peer: payment `a`, one unit on that peer's barrier cell for its exit round; the peer is known to have
    finished its entry round. -/
theorem wp_exit (k : Fin 16) (hk0 : k ≠ 0) (a a' : ℕ) (ha : a' = a + 1) (hk : 30 + k.val = a') (p : Dev nD) (hp : p = peer c k) (n : ℕ) (hn : n = 1)
    {α : Type} {Q : α → sProp 𝕄} {kk : PUnit → Prog (TpuEff nD τ sig (Elt F) Λ₀ .tc) α} (W : Waits sig ℕ) :
    iprop(cellInv ER (rd m ρ) (K (peer c k, none)) (barCell (peer c k))
        ∗ owes (c : Thread nD τ) (owedAfter c a) W
        ∗ dutyTok ER (barCell (peer c k)) 1 c
        ∗ reached ER (barCell (peer c k)) 1)
      ⊢ iprop((owes (c : Thread nD τ) (owedAfter c a') W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (p : Thread nD τ) barS n) kk) Q) := by
  subst hp hn ha
  have hO : owedAfter c a = owedAfter c (a + 1) + tallyAt (barCell (peer c k)) 1 1 := by
    rw [owedAfter_step c a (by omega), dues_exit c k a hk hk0]; rfl
  iintro ⟨Hg, HO, Htok, Hr⟩
  iapply (Rounds.wp_signal 𝒱₀ ER (rd m ρ) (c : Thread nD τ) none (dst := (peer c k : Thread nD τ)) (sem := barS) (κ := K (peer c k, none))
    (r := 1) (d := c) (by rw [duties_bar m ρ (peer c k) 1 (by omega)]; exact Finset.mem_erase.mpr ⟨(peer_ne c k hk0).symm, Finset.mem_univ _⟩)
    (amount_bar m ρ (peer c k) 1 c) 1 (owedAfter c (a + 1)) hO (W := W))
  isplitl [Hg]; · iexact Hg
  isplitl [HO]; · iexact HO
  isplitl [Htok]; · iexact Htok
  isplitr; · rw [payload_bar1]; iempintro
  iexact Hr

/-- An own DMA cell at a round from which it has no duty closes: its counter, at zero, is the core's again. -/
theorem close_send (k : Fin 16) (r : ℕ) (hr : k = 0 ∨ 1 ≤ r) :
    iprop(cellInv ER (rd m ρ) (K (c, some (.inl k))) (sendCell c k) ∗ atPos ER (sendCell c k) r ∅ 0) ⊢ (|={Set.univ}=> semVal (sendCell c k) 0 : sProp 𝕄) :=
  Rounds.cell_close ER (rd m ρ) (Set.mem_univ _) (fun h => h) fun r' hr' => by
    rcases hr with rfl | hr
    · exact duties_send_zero m ρ c r'
    · exact duties_dma_later m ρ c (sendS k) r' (by omega)
theorem close_recv (j : Fin 16) (r : ℕ) (hr : j = c ∨ 1 ≤ r) :
    iprop(cellInv ER (rd m ρ) (K (c, some (.inr j))) (recvCell c j) ∗ atPos ER (recvCell c j) r ∅ 0) ⊢ (|={Set.univ}=> semVal (recvCell c j) 0 : sProp 𝕄) :=
  Rounds.cell_close ER (rd m ρ) (Set.mem_univ _) (fun h => h) fun r' hr' => by
    rcases hr with rfl | hr
    · exact duties_recv_self m ρ j r'
    · exact duties_dma_later m ρ c (recvS j) r' (by omega)

end Rules

end Cert.KernelIdealProof

end
-- ==== Proof.DevEqs.lean ====
/-
  The printed device chains are the peers; the printed slices of the two semaphore arrays are the send and
  receive semaphores by number; the printed slot views of the receive waits are the peers' slots.
-/
import proofs.«901090_g7700000000001091_dist_sum_ax0_shard0_i_m512_n256_v7x_i16_f32_1_alg».proof.Proof.Proto

noncomputable section

namespace Cert.KernelIdealProof

open Cert.KernelIdeal Cert.KernelIdeal.Gen
open Idealize.ShloMosaic Idealize.ShloMosaic.TcCoe

theorem dev1_eq (c : Dev nD) : (⟨k0_dev1 c, k0_dev1_lt c⟩ : Dev nD) = peer c 1 := mk_eq_peer c 1 (k0_dev1_eq c)
theorem dev2_eq (c : Dev nD) : (⟨k0_dev2 c, k0_dev2_lt c⟩ : Dev nD) = peer c 2 := mk_eq_peer c 2 (k0_dev2_eq c)
theorem dev3_eq (c : Dev nD) : (⟨k0_dev3 c, k0_dev3_lt c⟩ : Dev nD) = peer c 3 := mk_eq_peer c 3 (k0_dev3_eq c)
theorem dev4_eq (c : Dev nD) : (⟨k0_dev4 c, k0_dev4_lt c⟩ : Dev nD) = peer c 4 := mk_eq_peer c 4 (k0_dev4_eq c)
theorem dev5_eq (c : Dev nD) : (⟨k0_dev5 c, k0_dev5_lt c⟩ : Dev nD) = peer c 5 := mk_eq_peer c 5 (k0_dev5_eq c)
theorem dev6_eq (c : Dev nD) : (⟨k0_dev6 c, k0_dev6_lt c⟩ : Dev nD) = peer c 6 := mk_eq_peer c 6 (k0_dev6_eq c)
theorem dev7_eq (c : Dev nD) : (⟨k0_dev7 c, k0_dev7_lt c⟩ : Dev nD) = peer c 7 := mk_eq_peer c 7 (k0_dev7_eq c)
theorem dev8_eq (c : Dev nD) : (⟨k0_dev8 c, k0_dev8_lt c⟩ : Dev nD) = peer c 8 := mk_eq_peer c 8 (k0_dev8_eq c)
theorem dev9_eq (c : Dev nD) : (⟨k0_dev9 c, k0_dev9_lt c⟩ : Dev nD) = peer c 9 := mk_eq_peer c 9 (k0_dev9_eq c)
theorem dev10_eq (c : Dev nD) : (⟨k0_dev10 c, k0_dev10_lt c⟩ : Dev nD) = peer c 10 := mk_eq_peer c 10 (k0_dev10_eq c)
theorem dev11_eq (c : Dev nD) : (⟨k0_dev11 c, k0_dev11_lt c⟩ : Dev nD) = peer c 11 := mk_eq_peer c 11 (k0_dev11_eq c)
theorem dev12_eq (c : Dev nD) : (⟨k0_dev12 c, k0_dev12_lt c⟩ : Dev nD) = peer c 12 := mk_eq_peer c 12 (k0_dev12_eq c)
theorem dev13_eq (c : Dev nD) : (⟨k0_dev13 c, k0_dev13_lt c⟩ : Dev nD) = peer c 13 := mk_eq_peer c 13 (k0_dev13_eq c)
theorem dev14_eq (c : Dev nD) : (⟨k0_dev14 c, k0_dev14_lt c⟩ : Dev nD) = peer c 14 := mk_eq_peer c 14 (k0_dev14_eq c)
theorem dev15_eq (c : Dev nD) : (⟨k0_dev15 c, k0_dev15_lt c⟩ : Dev nD) = peer c 15 := mk_eq_peer c 15 (k0_dev15_eq c)
theorem dev16_eq (c : Dev nD) : (⟨k0_dev16 c, k0_dev16_lt c⟩ : Dev nD) = peer c 1 := mk_eq_peer c 1 (k0_dev16_eq c)
theorem dev17_eq (c : Dev nD) : (⟨k0_dev17 c, k0_dev17_lt c⟩ : Dev nD) = peer c 2 := mk_eq_peer c 2 (k0_dev17_eq c)
theorem dev18_eq (c : Dev nD) : (⟨k0_dev18 c, k0_dev18_lt c⟩ : Dev nD) = peer c 3 := mk_eq_peer c 3 (k0_dev18_eq c)
theorem dev19_eq (c : Dev nD) : (⟨k0_dev19 c, k0_dev19_lt c⟩ : Dev nD) = peer c 4 := mk_eq_peer c 4 (k0_dev19_eq c)
theorem dev20_eq (c : Dev nD) : (⟨k0_dev20 c, k0_dev20_lt c⟩ : Dev nD) = peer c 5 := mk_eq_peer c 5 (k0_dev20_eq c)
theorem dev21_eq (c : Dev nD) : (⟨k0_dev21 c, k0_dev21_lt c⟩ : Dev nD) = peer c 6 := mk_eq_peer c 6 (k0_dev21_eq c)
theorem dev22_eq (c : Dev nD) : (⟨k0_dev22 c, k0_dev22_lt c⟩ : Dev nD) = peer c 7 := mk_eq_peer c 7 (k0_dev22_eq c)
theorem dev23_eq (c : Dev nD) : (⟨k0_dev23 c, k0_dev23_lt c⟩ : Dev nD) = peer c 8 := mk_eq_peer c 8 (k0_dev23_eq c)
theorem dev24_eq (c : Dev nD) : (⟨k0_dev24 c, k0_dev24_lt c⟩ : Dev nD) = peer c 9 := mk_eq_peer c 9 (k0_dev24_eq c)
theorem dev25_eq (c : Dev nD) : (⟨k0_dev25 c, k0_dev25_lt c⟩ : Dev nD) = peer c 10 := mk_eq_peer c 10 (k0_dev25_eq c)
theorem dev26_eq (c : Dev nD) : (⟨k0_dev26 c, k0_dev26_lt c⟩ : Dev nD) = peer c 11 := mk_eq_peer c 11 (k0_dev26_eq c)
theorem dev27_eq (c : Dev nD) : (⟨k0_dev27 c, k0_dev27_lt c⟩ : Dev nD) = peer c 12 := mk_eq_peer c 12 (k0_dev27_eq c)
theorem dev28_eq (c : Dev nD) : (⟨k0_dev28 c, k0_dev28_lt c⟩ : Dev nD) = peer c 13 := mk_eq_peer c 13 (k0_dev28_eq c)
theorem dev29_eq (c : Dev nD) : (⟨k0_dev29 c, k0_dev29_lt c⟩ : Dev nD) = peer c 14 := mk_eq_peer c 14 (k0_dev29_eq c)
theorem dev30_eq (c : Dev nD) : (⟨k0_dev30 c, k0_dev30_lt c⟩ : Dev nD) = peer c 15 := mk_eq_peer c 15 (k0_dev30_eq c)
theorem dev31_eq (c : Dev nD) : (⟨k0_dev31 c, k0_dev31_lt c⟩ : Dev nD) = peer c 1 := mk_eq_peer c 1 (k0_dev31_eq c)
theorem dev32_eq (c : Dev nD) : (⟨k0_dev32 c, k0_dev32_lt c⟩ : Dev nD) = peer c 2 := mk_eq_peer c 2 (k0_dev32_eq c)
theorem dev33_eq (c : Dev nD) : (⟨k0_dev33 c, k0_dev33_lt c⟩ : Dev nD) = peer c 3 := mk_eq_peer c 3 (k0_dev33_eq c)
theorem dev34_eq (c : Dev nD) : (⟨k0_dev34 c, k0_dev34_lt c⟩ : Dev nD) = peer c 4 := mk_eq_peer c 4 (k0_dev34_eq c)
theorem dev35_eq (c : Dev nD) : (⟨k0_dev35 c, k0_dev35_lt c⟩ : Dev nD) = peer c 5 := mk_eq_peer c 5 (k0_dev35_eq c)
theorem dev36_eq (c : Dev nD) : (⟨k0_dev36 c, k0_dev36_lt c⟩ : Dev nD) = peer c 6 := mk_eq_peer c 6 (k0_dev36_eq c)
theorem dev37_eq (c : Dev nD) : (⟨k0_dev37 c, k0_dev37_lt c⟩ : Dev nD) = peer c 7 := mk_eq_peer c 7 (k0_dev37_eq c)
theorem dev38_eq (c : Dev nD) : (⟨k0_dev38 c, k0_dev38_lt c⟩ : Dev nD) = peer c 8 := mk_eq_peer c 8 (k0_dev38_eq c)
theorem dev39_eq (c : Dev nD) : (⟨k0_dev39 c, k0_dev39_lt c⟩ : Dev nD) = peer c 9 := mk_eq_peer c 9 (k0_dev39_eq c)
theorem dev40_eq (c : Dev nD) : (⟨k0_dev40 c, k0_dev40_lt c⟩ : Dev nD) = peer c 10 := mk_eq_peer c 10 (k0_dev40_eq c)
theorem dev41_eq (c : Dev nD) : (⟨k0_dev41 c, k0_dev41_lt c⟩ : Dev nD) = peer c 11 := mk_eq_peer c 11 (k0_dev41_eq c)
theorem dev42_eq (c : Dev nD) : (⟨k0_dev42 c, k0_dev42_lt c⟩ : Dev nD) = peer c 12 := mk_eq_peer c 12 (k0_dev42_eq c)
theorem dev43_eq (c : Dev nD) : (⟨k0_dev43 c, k0_dev43_lt c⟩ : Dev nD) = peer c 13 := mk_eq_peer c 13 (k0_dev43_eq c)
theorem dev44_eq (c : Dev nD) : (⟨k0_dev44 c, k0_dev44_lt c⟩ : Dev nD) = peer c 14 := mk_eq_peer c 14 (k0_dev44_eq c)
theorem dev45_eq (c : Dev nD) : (⟨k0_dev45 c, k0_dev45_lt c⟩ : Dev nD) = peer c 15 := mk_eq_peer c 15 (k0_dev45_eq c)

theorem sendSem1_eq : ((cc0_scratch2.slice (Rect.unit (s := S16) ![1] S1.size inb_S16_S1_1)).squeeze S_ squeezes_S1_S_).sem = sendS 1 := by decide
theorem sendSem2_eq : ((cc0_scratch2.slice (Rect.unit (s := S16) ![2] S1.size inb_S16_S1_2)).squeeze S_ squeezes_S1_S_).sem = sendS 2 := by decide
theorem sendSem3_eq : ((cc0_scratch2.slice (Rect.unit (s := S16) ![3] S1.size inb_S16_S1_3)).squeeze S_ squeezes_S1_S_).sem = sendS 3 := by decide
theorem sendSem4_eq : ((cc0_scratch2.slice (Rect.unit (s := S16) ![4] S1.size inb_S16_S1_4)).squeeze S_ squeezes_S1_S_).sem = sendS 4 := by decide
theorem sendSem5_eq : ((cc0_scratch2.slice (Rect.unit (s := S16) ![5] S1.size inb_S16_S1_5)).squeeze S_ squeezes_S1_S_).sem = sendS 5 := by decide
theorem sendSem6_eq : ((cc0_scratch2.slice (Rect.unit (s := S16) ![6] S1.size inb_S16_S1_6)).squeeze S_ squeezes_S1_S_).sem = sendS 6 := by decide
theorem sendSem7_eq : ((cc0_scratch2.slice (Rect.unit (s := S16) ![7] S1.size inb_S16_S1_7)).squeeze S_ squeezes_S1_S_).sem = sendS 7 := by decide
theorem sendSem8_eq : ((cc0_scratch2.slice (Rect.unit (s := S16) ![8] S1.size inb_S16_S1_8)).squeeze S_ squeezes_S1_S_).sem = sendS 8 := by decide
theorem sendSem9_eq : ((cc0_scratch2.slice (Rect.unit (s := S16) ![9] S1.size inb_S16_S1_9)).squeeze S_ squeezes_S1_S_).sem = sendS 9 := by decide
theorem sendSem10_eq : ((cc0_scratch2.slice (Rect.unit (s := S16) ![10] S1.size inb_S16_S1_10)).squeeze S_ squeezes_S1_S_).sem = sendS 10 := by decide
theorem sendSem11_eq : ((cc0_scratch2.slice (Rect.unit (s := S16) ![11] S1.size inb_S16_S1_11)).squeeze S_ squeezes_S1_S_).sem = sendS 11 := by decide
theorem sendSem12_eq : ((cc0_scratch2.slice (Rect.unit (s := S16) ![12] S1.size inb_S16_S1_12)).squeeze S_ squeezes_S1_S_).sem = sendS 12 := by decide
theorem sendSem13_eq : ((cc0_scratch2.slice (Rect.unit (s := S16) ![13] S1.size inb_S16_S1_13)).squeeze S_ squeezes_S1_S_).sem = sendS 13 := by decide
theorem sendSem14_eq : ((cc0_scratch2.slice (Rect.unit (s := S16) ![14] S1.size inb_S16_S1_14)).squeeze S_ squeezes_S1_S_).sem = sendS 14 := by decide
theorem sendSem15_eq : ((cc0_scratch2.slice (Rect.unit (s := S16) ![15] S1.size inb_S16_S1_15)).squeeze S_ squeezes_S1_S_).sem = sendS 15 := by decide

theorem recvSemOwn_eq : ∀ c : Dev nD, ((cc0_scratch3.slice (Rect.unit (s := S16) (k0_off2 c) S1.size (k0_off2_inb c))).squeeze S_ squeezes_S1_S_).sem = recvS c := by decide

theorem recvSem1_eq : ∀ c : Dev nD, ((cc0_scratch3.slice (Rect.unit (s := S16) (k0_off4 c 1#32) S1.size (k0_off4_inb c 0))).squeeze S_ squeezes_S1_S_).sem = recvS (peer c 1) := by decide
theorem recvSem2_eq : ∀ c : Dev nD, ((cc0_scratch3.slice (Rect.unit (s := S16) (k0_off4 c 2#32) S1.size (k0_off4_inb c 1))).squeeze S_ squeezes_S1_S_).sem = recvS (peer c 2) := by decide
theorem recvSem3_eq : ∀ c : Dev nD, ((cc0_scratch3.slice (Rect.unit (s := S16) (k0_off4 c 3#32) S1.size (k0_off4_inb c 2))).squeeze S_ squeezes_S1_S_).sem = recvS (peer c 3) := by decide
theorem recvSem4_eq : ∀ c : Dev nD, ((cc0_scratch3.slice (Rect.unit (s := S16) (k0_off4 c 4#32) S1.size (k0_off4_inb c 3))).squeeze S_ squeezes_S1_S_).sem = recvS (peer c 4) := by decide
theorem recvSem5_eq : ∀ c : Dev nD, ((cc0_scratch3.slice (Rect.unit (s := S16) (k0_off4 c 5#32) S1.size (k0_off4_inb c 4))).squeeze S_ squeezes_S1_S_).sem = recvS (peer c 5) := by decide
theorem recvSem6_eq : ∀ c : Dev nD, ((cc0_scratch3.slice (Rect.unit (s := S16) (k0_off4 c 6#32) S1.size (k0_off4_inb c 5))).squeeze S_ squeezes_S1_S_).sem = recvS (peer c 6) := by decide
theorem recvSem7_eq : ∀ c : Dev nD, ((cc0_scratch3.slice (Rect.unit (s := S16) (k0_off4 c 7#32) S1.size (k0_off4_inb c 6))).squeeze S_ squeezes_S1_S_).sem = recvS (peer c 7) := by decide
theorem recvSem8_eq : ∀ c : Dev nD, ((cc0_scratch3.slice (Rect.unit (s := S16) (k0_off4 c 8#32) S1.size (k0_off4_inb c 7))).squeeze S_ squeezes_S1_S_).sem = recvS (peer c 8) := by decide
theorem recvSem9_eq : ∀ c : Dev nD, ((cc0_scratch3.slice (Rect.unit (s := S16) (k0_off4 c 9#32) S1.size (k0_off4_inb c 8))).squeeze S_ squeezes_S1_S_).sem = recvS (peer c 9) := by decide
theorem recvSem10_eq : ∀ c : Dev nD, ((cc0_scratch3.slice (Rect.unit (s := S16) (k0_off4 c 10#32) S1.size (k0_off4_inb c 9))).squeeze S_ squeezes_S1_S_).sem = recvS (peer c 10) := by decide
theorem recvSem11_eq : ∀ c : Dev nD, ((cc0_scratch3.slice (Rect.unit (s := S16) (k0_off4 c 11#32) S1.size (k0_off4_inb c 10))).squeeze S_ squeezes_S1_S_).sem = recvS (peer c 11) := by decide
theorem recvSem12_eq : ∀ c : Dev nD, ((cc0_scratch3.slice (Rect.unit (s := S16) (k0_off4 c 12#32) S1.size (k0_off4_inb c 11))).squeeze S_ squeezes_S1_S_).sem = recvS (peer c 12) := by decide
theorem recvSem13_eq : ∀ c : Dev nD, ((cc0_scratch3.slice (Rect.unit (s := S16) (k0_off4 c 13#32) S1.size (k0_off4_inb c 12))).squeeze S_ squeezes_S1_S_).sem = recvS (peer c 13) := by decide
theorem recvSem14_eq : ∀ c : Dev nD, ((cc0_scratch3.slice (Rect.unit (s := S16) (k0_off4 c 14#32) S1.size (k0_off4_inb c 13))).squeeze S_ squeezes_S1_S_).sem = recvS (peer c 14) := by decide
theorem recvSem15_eq : ∀ c : Dev nD, ((cc0_scratch3.slice (Rect.unit (s := S16) (k0_off4 c 15#32) S1.size (k0_off4_inb c 14))).squeeze S_ squeezes_S1_S_).sem = recvS (peer c 15) := by decide

end Cert.KernelIdealProof

end
-- ==== Proof.Fund.lean ====
/-
  The launch's ghost state: every cell funded at round 0, the duty tokens dealt to the devices that pay them.
-/
import proofs.«901090_g7700000000001091_dist_sum_ax0_shard0_i_m512_n256_v7x_i16_f32_1_alg».proof.Proof.Data

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The thirty-three semaphores of the protocol are distinct. -/
theorem csem_injective : Function.Injective (csem : CellIx → SemLoc sig) := by
  intro k k' h
  rcases k with _ | (d | j) <;> rcases k' with _ | (d' | j')
  · rfl
  · exact absurd h (fun h => by cases h)
  · exact absurd h (fun h => by cases h)
  · exact absurd h (fun h => by cases h)
  · have := congrArg sendIdx h; rw [sendIdx_send, sendIdx_send] at this; rw [Option.some.inj this]
  · have := congrArg sendIdx h; rw [sendIdx_send, sendIdx_recv] at this; exact absurd this (fun h => by cases h)
  · exact absurd h (fun h => by cases h)
  · have := congrArg sendIdx h; rw [sendIdx_send, sendIdx_recv] at this; exact absurd this (fun h => by cases h)
  · have := congrArg recvIdx h; rw [recvIdx_recv, recvIdx_recv] at this; rw [Option.some.inj this]

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens minted: for every cell, rounds 0 and 1, every name (more than the schedule's duties: a token of no duty pays nothing). -/
abbrev tokOf (x : (Dev nD × CellIx) × Fin 2 × Fin 16) : GSem nD τ sig × ℕ × Fin 16 := (kcell x.1, x.2.1.val, x.2.2)
theorem tokOf_injective : Function.Injective tokOf := by
  rintro ⟨ck, r, n⟩ ⟨ck', r', n'⟩ h
  have h1 : kcell ck = kcell ck' := congrArg Prod.fst h
  have h2 : r.val = r'.val := congrArg (fun x : GSem nD τ sig × ℕ × Fin 16 => x.2.1) h
  have h3 : n = n' := congrArg (fun x : GSem nD τ sig × ℕ × Fin 16 => x.2.2) h
  rw [kcell_injective h1, Fin.ext h2, h3]
def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun x : CellIx × Fin 2 × Fin 16 => dutyTok ER (kcell (c, x.1)) x.2.1.val x.2.2

/-- What the launch element deals device `c` (the launch theorem's `G`). -/
def G (c : Dev nD) : sProp 𝕄 :=
  iprop((bigSep Finset.univ fun k : CellIx => roundState ER (rd m ρ) (kcell (c, k)) 0)
    ∗ (bigSep Finset.univ fun k : CellIx => iprop(atPos ER (kcell (c, k)) 0 ∅ 0 ∗ reached ER (kcell (c, k)) 0)) ∗ toks c)

/-- What the global step makes of it (`G'`): the device's ghost state and its thirty-two own cells' positions... all under some names. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks
    rw [bigSep_map, bigSep_univ_equiv (Equiv.prodAssoc (Dev nD) CellIx (Fin 2 × Fin 16)).symm, bigSep_univ_prod]
    rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- A family over an optional index: the summand at `none`, then the family over the indices proper. -/
theorem bigSep_univ_option {α : Type} [Fintype α] (Φ : Option α → sProp 𝕄) :
    bigSep Finset.univ Φ = iprop(Φ none ∗ bigSep Finset.univ fun a => Φ (some a)) := by
  classical
  have h : (Finset.univ : Finset (Option α)) = insert none (Finset.univ.map Function.Embedding.some) := by
    ext x; cases x <;> simp
  rw [h, bigSep_insert (by simp), bigSep_map]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CellIx => semVal (kcell (c, k)) 0 : sProp 𝕄) := by
  rw [unscopedSems0_eq, bigSep_univ_option]
  unfold Pipeline.ownSems0
  iintro ⟨HS, HB⟩
  isplitl [HB]; · iexact HB
  iexact HS

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (rd m ρ) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (rd m ρ) (kcell (c, k)) 0)
      ⊢ (|={Set.univ}=> bigSep Finset.univ fun k : CellIx => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens and the positions -/

theorem sub_peer (c : Dev nD) (k : Fin 16) : (peer c k - c : Fin 16) = k := by revert c k; decide
theorem peer_sub (p j : Fin 16) : peer j (p - j) = p := by revert p j; decide

/-- Offset `k` of device `c` is the device `peer c k` naming `c`: a bijection of the pairs. -/
def around : Dev nD × Fin 16 ≃ Dev nD × Fin 16 where
  toFun ck := (peer ck.1 ck.2, ck.1)
  invFun pj := (pj.2, (pj.1 - pj.2 : Fin 16))
  left_inv ck := Prod.ext rfl (sub_peer ck.1 ck.2)
  right_inv pj := Prod.ext (peer_sub pj.1 pj.2) rfl

/-- For a fixed device the offsets enumerate the devices. -/
def peerEquiv (c : Dev nD) : Fin 16 ≃ Dev nD where
  toFun k := peer c k
  invFun p := (p - c : Fin 16)
  left_inv k := sub_peer c k
  right_inv p := peer_sub p c

theorem bigSep_around (Φ : Dev nD → Fin 16 → sProp 𝕄) :
    (bigSep Finset.univ fun p : Dev nD => bigSep Finset.univ fun j : Fin 16 => Φ p j)
      = bigSep Finset.univ fun c : Dev nD => bigSep Finset.univ fun k : Fin 16 => Φ (peer c k) c :=
  (bigSep_univ_prod (fun pj : Dev nD × Fin 16 => Φ pj.1 pj.2)).symm.trans
    ((bigSep_univ_equiv around (fun pj : Dev nD × Fin 16 => Φ pj.1 pj.2)).trans
      (bigSep_univ_prod (fun ck : Dev nD × Fin 16 => Φ (peer ck.1 ck.2) ck.1)))

/-- A family over a sum of two index types is the `∗` of the families over the summands. -/
theorem bigSep_univ_sum' {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

/-- The tokens of a device's own cells that some device pays with: its barrier cell's of both rounds, one per name; each
    receive cell's of round 0 under the cell's own index; each send cell's of round 0 under the name 0. -/
def dealt (c : Dev nD) : sProp 𝕄 :=
  iprop((bigSep Finset.univ fun j : Fin 16 => dutyTok ER (barCell c) 0 j)
    ∗ (bigSep Finset.univ fun j : Fin 16 => dutyTok ER (recvCell c j) 0 j)
    ∗ (bigSep Finset.univ fun j : Fin 16 => dutyTok ER (barCell c) 1 j)
    ∗ (bigSep Finset.univ fun k : Fin 16 => dutyTok ER (sendCell c k) 0 0))

/-- The others are let go. -/
theorem toks_dealt (c : Dev nD) : (toks c : sProp 𝕄) ⊢ dealt c := by
  have e : (toks c : sProp 𝕄) = bigSep Finset.univ fun cell : CellIx => bigSep Finset.univ fun r : Fin 2 => bigSep Finset.univ fun n : Fin 16 =>
      dutyTok ER (kcell (c, cell)) r.val n :=
    (bigSep_univ_prod (fun x : CellIx × Fin 2 × Fin 16 => (dutyTok ER (kcell (c, x.1)) x.2.1.val x.2.2 : sProp 𝕄))).trans
      (bigSep_congr fun cell _ => bigSep_univ_prod (fun rn : Fin 2 × Fin 16 => (dutyTok ER (kcell (c, cell)) rn.1.val rn.2 : sProp 𝕄)))
  have hS : (bigSep Finset.univ fun d : Fin 16 => bigSep Finset.univ fun r : Fin 2 => bigSep Finset.univ fun n : Fin 16 =>
        (dutyTok ER (kcell (c, some (.inl d))) r.val n : sProp 𝕄))
      ⊢ bigSep Finset.univ fun k : Fin 16 => dutyTok ER (sendCell c k) 0 0 :=
    bigSep_mono fun k _ => (bigSep_elim (Finset.mem_univ (0 : Fin 2))).trans (bigSep_elim (Finset.mem_univ (0 : Fin 16)))
  have hV : (bigSep Finset.univ fun j : Fin 16 => bigSep Finset.univ fun r : Fin 2 => bigSep Finset.univ fun n : Fin 16 =>
        (dutyTok ER (kcell (c, some (.inr j))) r.val n : sProp 𝕄))
      ⊢ bigSep Finset.univ fun j : Fin 16 => dutyTok ER (recvCell c j) 0 j :=
    bigSep_mono fun j _ => (bigSep_elim (Finset.mem_univ (0 : Fin 2))).trans (bigSep_elim (Finset.mem_univ j))
  have hB : (bigSep Finset.univ fun r : Fin 2 => bigSep Finset.univ fun n : Fin 16 => (dutyTok ER (kcell (c, none)) r.val n : sProp 𝕄))
      = iprop((bigSep Finset.univ fun j : Fin 16 => dutyTok ER (barCell c) 0 j) ∗ bigSep Finset.univ fun j : Fin 16 => dutyTok ER (barCell c) 1 j) :=
    bigSep_univ_two _
  rw [e, bigSep_univ_option, bigSep_univ_sum', hB]
  unfold dealt
  iintro ⟨⟨HB0, HB1⟩, HS, HV⟩
  isplitl [HB0]; · iexact HB0
  isplitl [HV]; · iapply hV; iexact HV
  isplitl [HB1]; · iexact HB1
  iapply hS; iexact HS

/-- What device `c` pays with for its `k`-th peer. -/
def payTok (c : Dev nD) (k : Fin 16) : sProp 𝕄 :=
  iprop(dutyTok ER (barCell (peer c k)) 0 c ∗ dutyTok ER (recvCell (peer c k) c) 0 c ∗ dutyTok ER (barCell (peer c k)) 1 c
    ∗ dutyTok ER (sendCell c k) 0 0)

/-- The tokens dealt around: the token of a duty on device `p`'s cell named `j` goes to device `j`, as that of its offset `p - j`. -/
theorem dealt_around : (bigSep Finset.univ fun c : Dev nD => (dealt c : sProp 𝕄)) ⊢ bigSep Finset.univ fun c : Dev nD => bigSep Finset.univ (payTok c) := by
  unfold dealt payTok
  simp only [bigSep_sep']
  rw [bigSep_around (fun p j => (dutyTok ER (barCell p) 0 j : sProp 𝕄)), bigSep_around (fun p j => (dutyTok ER (recvCell p j) 0 j : sProp 𝕄)),
    bigSep_around (fun p j => (dutyTok ER (barCell p) 1 j : sProp 𝕄))]

theorem toks_around : (bigSep Finset.univ fun c : Dev nD => (toks c : sProp 𝕄)) ⊢ bigSep Finset.univ fun c : Dev nD => bigSep Finset.univ (payTok c) :=
  (bigSep_mono fun c _ => toks_dealt c).trans dealt_around

/-- A device's positions on its thirty-three cells: the barrier cell's, and per offset the send cell's and the receive
    cell's that the peer at that offset pays. -/
theorem pos_split (c : Dev nD) :
    (bigSep Finset.univ fun k : CellIx => (atPos ER (kcell (c, k)) 0 ∅ 0 : sProp 𝕄))
      = iprop(atPos ER (barCell c) 0 ∅ 0
          ∗ bigSep Finset.univ fun k : Fin 16 => iprop(atPos ER (sendCell c k) 0 ∅ 0 ∗ atPos ER (recvCell c (peer c k)) 0 ∅ 0)) := by
  rw [bigSep_univ_option, bigSep_univ_sum',
    bigSep_univ_equiv (peerEquiv c) (fun j : Dev nD => (atPos ER (kcell (c, some (.inr j))) 0 ∅ 0 : sProp 𝕄)), bigSep_sep']
  rfl

theorem perPeer_intro (c : Dev nD) (k : Fin 16) :
    iprop(payTok c k ∗ atPos ER (sendCell c k) 0 ∅ 0 ∗ atPos ER (recvCell c (peer c k)) 0 ∅ 0) ⊢ (perPeer c k : sProp 𝕄) := by
  unfold payTok perPeer
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6

/-- What stays with device `c`: its positions, and the tokens of the duties it pays. -/
def linear (c : Dev nD) : sProp 𝕄 := iprop(atPos ER (barCell c) 0 ∅ 0 ∗ bigSep Finset.univ (perPeer c))

theorem linear_intro (c : Dev nD) :
    iprop((bigSep Finset.univ fun k : CellIx => atPos ER (kcell (c, k)) 0 ∅ 0) ∗ bigSep Finset.univ (payTok c)) ⊢ (linear c : sProp 𝕄) := by
  rw [pos_split]; unfold linear
  iintro ⟨⟨HB, HA⟩, HT⟩
  isplitl [HB]; · iexact HB
  iapply (show iprop(bigSep Finset.univ (payTok c) ∗ bigSep Finset.univ fun k : Fin 16 => iprop(atPos ER (sendCell c k) 0 ∅ 0 ∗ atPos ER (recvCell c (peer c k)) 0 ∅ 0))
      ⊢ (bigSep Finset.univ (perPeer c) : sProp 𝕄) from by
    rw [← bigSep_sep']; exact bigSep_mono fun k _ => perPeer_intro c k)
  isplitl [HT]; · iexact HT
  iexact HA

theorem ghost_intro (K : Dev nD × CellIx → ℕ) (c : Dev nD) : iprop(records m ρ K ∗ linear c) ⊢ G' m ρ c := by
  unfold G' ghost linear
  iintro ⟨HR, HL⟩
  iexists K
  isplitl [HR]; · iexact HR
  iexact HL

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER (rd m ρ) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (rd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄))
        (fun c : Dev nD => bigSep Finset.univ (payTok c))).symm).trans
      (bigSep_mono fun c _ => linear_intro c))
    isplitl [Hat]; · iexact Hat
    iexact Htk

/-- The global step: own AND unscoped semaphores of every device at once become the cells' invariants; the tokens go to their payers. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) := by
  exact ((bigSep_mono fun c _ => core_alloc m ρ c).trans (bigSep_fupd _ _)).trans (BI.fupd_mono (regroup m ρ))

end Cert.KernelIdealProof

end
-- ==== Proof.Closing.lean ====
/-
  The end of a device's body: its thirty-two own semaphores at zero regrouped as the launch indexes them, and that it owes nothing more.
-/
import proofs.«901090_g7700000000001091_dist_sum_ax0_shard0_i_m512_n256_v7x_i16_f32_1_alg».proof.Proof.Fund

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The send semaphores by offset and the receive semaphores by the peer at each offset are all thirty-two own semaphores:
    the offsets enumerate the devices, and the index type splits into its two summands. -/
theorem ownSems_intro (c : Dev nD) :
    iprop((bigSep Finset.univ fun k : Fin 16 => semVal (sendCell c k) 0) ∗ (bigSep Finset.univ fun k : Fin 16 => semVal (recvCell c (peer c k)) 0))
      ⊢ (bigSep Finset.univ fun x : Fin 16 ⊕ Fin 16 => semVal ((c : Thread nD τ), osem x) 0 : sProp 𝕄) := by
  rw [bigSep_univ_sum', bigSep_univ_equiv (peerEquiv c) (fun j : Dev nD => (semVal ((c : Thread nD τ), osem (.inr j)) 0 : sProp 𝕄))]
  iintro ⟨HS, HV⟩
  isplitl [HS]; · iexact HS
  iexact HV

/-- After the forty-five payments nothing is owed, which is what the point after the body asks. -/
theorem owes_done (c : Dev nD) (W : Waits sig ℕ) :
    owes (c : Thread nD τ) (owedAfter c 45) W ⊢ ((dats m ρ 0 c).owesAt 0 t₀.succ : sProp 𝕄) := by
  rw [owedAfter_done]
  unfold Dat.owesAt Pipeline.owesWithin
  rw [show (dats m ρ 0 c).owed t₀.succ = 0 from rfl]
  iintro HO
  iexists W
  isplitr; · ipureintro; exact fun _ _ => Or.inl trivial
  iexact HO

end Cert.KernelIdealProof

end
-- ==== Proof.Body.lean ====
/-
  One device's body, run from its invariant: the fifteen entry signals, the partial sum kept in the send
  buffer and in the device's own slot, the wait for the fifteen peers, the fifteen copies, the waits
  for the fifteen arrivals, the sum of the sixteen slots, the waits for the departures, the fifteen
  exit signals; then the thirty-two own cells closed.
-/
import proofs.«901090_g7700000000001091_dist_sum_ax0_shard0_i_m512_n256_v7x_i16_f32_1_alg».proof.Proof.Data
import proofs.«901090_g7700000000001091_dist_sum_ax0_shard0_i_m512_n256_v7x_i16_f32_1_alg».proof.Proof.Landing
import proofs.«901090_g7700000000001091_dist_sum_ax0_shard0_i_m512_n256_v7x_i16_f32_1_alg».proof.Proof.Rules
import proofs.«901090_g7700000000001091_dist_sum_ax0_shard0_i_m512_n256_v7x_i16_f32_1_alg».proof.Proof.DevEqs
import proofs.«901090_g7700000000001091_dist_sum_ax0_shard0_i_m512_n256_v7x_i16_f32_1_alg».proof.Proof.Closing

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin15 (Φ : Fin 16 → sProp 𝕄) :
    bigSep (Finset.univ.erase (0 : Fin 16)) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ

theorem inv_at (K : Dev nD × CellIx → ℕ) (ck : Dev nD × CellIx) :
    (bigSep Finset.univ fun ck : Dev nD × CellIx => (cellInv ER (rd m ρ) (K ck) (kcell ck) : sProp 𝕄)) ⊢ cellInv ER (rd m ρ) (K ck) (kcell ck) :=
  bigSep_elim (Finset.mem_univ ck)
omit [FloatOps F] in
theorem reached_at (ck : Dev nD × CellIx) :
    (bigSep Finset.univ fun ck : Dev nD × CellIx => (reached ER (kcell ck) 0 : sProp 𝕄)) ⊢ reached ER (kcell ck) 0 :=
  bigSep_elim (Finset.mem_univ ck)

theorem fetch_0 (t : Fin cfg0.N) : (cfg0.win (0 : Fin 2)).fetch t = true := by rw [fin_N t]; rfl

abbrev rX : Rect S512x256 := Rect.unit (s := S512x256) ![0, 0] S512x256.size inb_S512x256_S512x256_0_0
abbrev rS : Rect S1x256 := Rect.unit (s := S1x256) ![0, 0] S1x256.size inb_S1x256_S1x256_0_0
abbrev rG : Rect S16x1x256 := Rect.unit (s := S16x1x256) ![0, 0, 0] S16x1x256.size inb_S16x1x256_S16x1x256_0_0_0

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
omit [FloatOps F] in
theorem read_g (f : (cc0_scratch1 : Ref sig .tc).ty.Contents (Elt F)) : (gM : Memref sig .tc .vmem S16x1x256 .f32).view.readAt (Elt F) rG.toLoadRect f = f :=
  Memref.readAt_unit_zero (Elt F) cc0_scratch1 hz3 _ f
omit [FloatOps F] in
theorem write_s (f w : (cc0_scratch0 : Ref sig .tc).ty.Contents (Elt F)) :
    ((sM : Memref sig .tc .vmem S1x256 .f32).access rS : View sig .tc _ _ _).write (Elt F) f w Finset.univ = w :=
  Memref.write_access_unit_zero_univ (Elt F) cc0_scratch0 hz2 _ f w
omit [FloatOps F] in
theorem write_o (f w : (cc0_stg1_0 : Ref sig .tc).ty.Contents (Elt F)) :
    ((oM : Memref sig .tc .vmem S1x256 .f32).access rS : View sig .tc _ _ _).write (Elt F) f w Finset.univ = w :=
  Memref.write_access_unit_zero_univ (Elt F) cc0_stg1_0 hz2 _ f w

omit [FloatOps F] in
/-- A slot of the gather buffer, wherever it sits, has one row's credit. -/
theorem slot_credit {o : Fin 3 → ℕ} (h : ∀ a, o a + S1x1x256.size a ≤ S16x1x256.size a) :
    (((gM : Memref sig .tc .vmem S16x1x256 .f32).slice (Rect.unit (s := S16x1x256) o S1x1x256.size h) (fun _ => rfl)).squeeze S1x256 squeezes_S1x1x256_S1x256).view.dmaCredit = N := rfl

set_option hygiene false in
/-- The entry signal to peer `k` (payment `a`): the peer's barrier cell's invariant, the duty's token, the device's slot for that peer. -/
local macro "entry_step" k:num a:num a':num dv:ident T:ident S:ident : tactic => `(tactic| (
  iapply (wp_entry m ρ K c $k $a $a' rfl rfl _ ($dv c) _ rfl _) $$ [HO $T:ident $S:ident]
  · isplitr
    · iapply (inv_at m ρ K (peer c $k, none)); iexact HI
    isplitl [HO]
    · iexact HO
    isplitl [$T:ident]
    · iexact $T
    isplitl [$S:ident]
    · iexists _; iexact $S
    iapply (reached_at (F := F) (peer c $k, none)); iexact HR0
  iintro HO))

set_option hygiene false in
/-- The copy to peer `k` (payment `a`): the two cells' invariants, share `k` of the send buffer, the peer's slot for this device, the two tokens. -/
local macro "copy_step" k:num a:num a':num dv:ident sq:ident B:ident R:ident Ts:ident Tr:ident Cs:ident : tactic => `(tactic| (
  icases $R:ident with ⟨%fd, $R:ident⟩
  iapply (wp_copy m ρ K c $k (by decide) $a $a' rfl rfl _ ($dv c) _ _ $sq (recvSemOwn_eq c) fd _) $$ [HO $B:ident $R:ident $Ts:ident $Tr:ident]
  · isplitr
    · iapply (inv_at m ρ K (c, some (.inl $k))); iexact HI
    isplitr
    · iapply (inv_at m ρ K (peer c $k, some (.inr c))); iexact HI
    isplitl [$B:ident]
    · iexact $B
    isplitl [$R:ident]
    · iexact $R
    isplitl [HO]
    · iexact HO
    isplitl [$Ts:ident]
    · iexact $Ts
    isplitr
    · iapply (reached_at (F := F) (c, some (.inl $k))); iexact HR0
    isplitl [$Tr:ident]
    · iexact $Tr
    isplitr
    · iapply (reached_at (F := F) (peer c $k, some (.inr c))); iexact HR0
    iexact HrB
  iintro ⟨$Cs:ident, HO⟩))

set_option hygiene false in
/-- The wait for peer `k`'s copy. -/
local macro "recv_step" k:num rq:ident C:ident A:ident G:ident Rb:ident : tactic => `(tactic| (
  iapply (wp_recv_wait m ρ K c $k (by decide) _ ($rq c) (slot_credit _) _) $$ [$C:ident HO $A:ident]
  · isplitr
    · iapply (inv_at m ρ K (c, some (.inr (peer c $k)))); iexact HI
    isplitl [$C:ident]
    · iexact $C
    isplitl [HO]
    · iexact HO
    isplitr
    · iexact Hlev
    iexact $A
  iintro ⟨HO, $A:ident, $G:ident, #$Rb:ident⟩))

set_option hygiene false in
/-- The wait for the departure of the copy to peer `k`. -/
local macro "sendw_step" k:num sq:ident C:ident A:ident B:ident : tactic => `(tactic| (
  iapply (wp_send_wait m ρ K c $k (by decide) _ $sq rfl _) $$ [$C:ident HO $A:ident]
  · isplitr
    · iapply (inv_at m ρ K (c, some (.inl $k))); iexact HI
    isplitl [$C:ident]
    · iexact $C
    isplitl [HO]
    · iexact HO
    isplitr
    · iexact Hlev
    iexact $A
  iintro ⟨HO, $A:ident, $B:ident⟩))

set_option hygiene false in
/-- The exit signal to peer `k` (payment `a`). -/
local macro "exit_step" k:num a:num a':num dv:ident T:ident Rb:ident : tactic => `(tactic| (
  iapply (wp_exit m ρ K c $k (by decide) $a $a' rfl rfl _ ($dv c) _ rfl _) $$ [HO $T:ident]
  · isplitr
    · iapply (inv_at m ρ K (peer c $k, none)); iexact HI
    isplitl [HO]
    · iexact HO
    isplitl [$T:ident]
    · iexact $T
    iexact $Rb
  iintro HO))

set_option maxHeartbeats 4000000 in
set_option maxRecDepth 65536 in
/-- The body from `bodyPre` to `bodyPost`. -/
theorem sound_body (K : Dev nD × CellIx → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  unfold bodyPre ghost records credits scratch
  rw [bigSep_fin16, bigSep_fin15]
  unfold perPeer
  iintro ⟨⟨⟨⟨⟨#HI, #HR0⟩, HatB, ⟨Te0, Tr0, Tx0, Ts0, As0, Ar0⟩, ⟨Te1, Tr1, Tx1, Ts1, As1, Ar1⟩, ⟨Te2, Tr2, Tx2, Ts2, As2, Ar2⟩, ⟨Te3, Tr3, Tx3, Ts3, As3, Ar3⟩, ⟨Te4, Tr4, Tx4, Ts4, As4, Ar4⟩, ⟨Te5, Tr5, Tx5, Ts5, As5, Ar5⟩, ⟨Te6, Tr6, Tx6, Ts6, As6, Ar6⟩, ⟨Te7, Tr7, Tx7, Ts7, As7, Ar7⟩, ⟨Te8, Tr8, Tx8, Ts8, As8, Ar8⟩, ⟨Te9, Tr9, Tx9, Ts9, As9, Ar9⟩, ⟨Te10, Tr10, Tx10, Ts10, As10, Ar10⟩, ⟨Te11, Tr11, Tx11, Ts11, As11, Ar11⟩, ⟨Te12, Tr12, Tx12, Ts12, As12, Ar12⟩, ⟨Te13, Tr13, Tx13, Ts13, As13, Ar13⟩, ⟨Te14, Tr14, Tx14, Ts14, As14, Ar14⟩, ⟨Te15, Tr15, Tx15, Ts15, As15, Ar15⟩⟩, ⟨HcB, C1, C2, C3, C4, C5, C6, C7, C8, C9, C10, C11, C12, C13, C14, C15⟩, #Hlev, ⟨%fs, Hs⟩, ⟨%fg, Hg⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedAfter c 0 from rfl]
  -- the gather buffer by slots
  ihave Hg' := (Entails.of_eq ((gbuf_split c fg).trans (bigSep_fin16 _))) $$ Hg
  icases Hg' with ⟨S0, S1, S2, S3, S4, S5, S6, S7, S8, S9, S10, S11, S12, S13, S14, S15⟩
  -- the fifteen entry signals
  entry_step 1 0 1 dev1_eq Te1 S1
  entry_step 2 1 2 dev2_eq Te2 S2
  entry_step 3 2 3 dev3_eq Te3 S3
  entry_step 4 3 4 dev4_eq Te4 S4
  entry_step 5 4 5 dev5_eq Te5 S5
  entry_step 6 5 6 dev6_eq Te6 S6
  entry_step 7 6 7 dev7_eq Te7 S7
  entry_step 8 7 8 dev8_eq Te8 S8
  entry_step 9 8 9 dev9_eq Te9 S9
  entry_step 10 9 10 dev10_eq Te10 S10
  entry_step 11 10 11 dev11_eq Te11 S11
  entry_step 12 11 12 dev12_eq Te12 S12
  entry_step 13 12 13 dev13_eq Te13 S13
  entry_step 14 13 14 dev14_eq Te14 S14
  entry_step 15 14 15 dev15_eq Te15 S15

  -- the block of x, summed over its rows; the partial sum kept in the send buffer
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := rS) (Mk := Finset.univ) (Finset.subset_univ _)) $$ Hs; iintro Hs
  rw [write_s]
  -- and in the device's own slot
  ihave S0' := (Entails.of_eq (show slotPts c (peer c 0) fg
      = (((gM : Memref sig .tc .vmem S16x1x256 .f32).view.loc (c : Thread nD τ)) ↦[(slotM c).view.set]{fullShare} fg : sProp 𝕄) from by rw [peer_zero]; rfl)) $$ S0
  iapply (wp_load 𝒱₀ (c : Thread nD τ) none Set.univ (m := gM) (S := (slotM c).view.set) (le_of_eq (own_load_set c))) $$ S0'; iintro S0'
  iapply (wp_store 𝒱₀ (c : Thread nD τ) none Set.univ (m := gM) (r := ownRect c) (Mk := Finset.univ) (S := (slotM c).view.set) (le_of_eq (own_store_set c))) $$ S0'; iintro S0'
  ihave S0 := (Entails.of_eq (show _ = slotPts c (peer c 0) (gath m ρ) from by rw [peer_zero]; exact pointsTo_congr (stored_eq m ρ c fg))) $$ S0'
  -- the wait for the fifteen peers: each one's slot for this device
  iapply (wp_bar_wait m ρ K c _ rfl _) $$ [HcB HO HatB]
  · isplitr; · iapply (inv_at m ρ K (c, none)); iexact HI
    isplitl [HcB]; · iexact HcB
    isplitl [HO]; · iexact HO
    isplitr; · iexact Hlev
    iexact HatB
  iintro ⟨HO, HatB, #HrB, Hpay⟩
  ihave Hpay' := (Entails.of_eq (bigSep_fin15 _)) $$ Hpay
  icases Hpay' with ⟨R1, R2, R3, R4, R5, R6, R7, R8, R9, R10, R11, R12, R13, R14, R15⟩
  -- the send buffer by shares, one per copy
  ihave Hs := (Entails.of_eq (show ((View.loc (c : Thread nD τ) ((sM : Memref sig .tc .vmem S1x256 .f32).access rS) ↦{fullShare} k0_pay2 (xstg m ρ c)) : sProp 𝕄)
      = (((c : Thread nD τ).loc cc0_scratch0) ↦{fullShare} part m ρ c) from rfl)) $$ Hs
  ihave Hs' := (sbuf_split m ρ c).1 $$ Hs
  icases Hs' with ⟨Hb, Hbr⟩
  ihave Hb' := (Entails.of_eq (bigSep_fin16 _)) $$ Hb
  icases Hb' with ⟨B0, B1, B2, B3, B4, B5, B6, B7, B8, B9, B10, B11, B12, B13, B14, B15⟩
  -- the fifteen copies
  copy_step 1 15 16 dev16_eq sendSem1_eq B1 R1 Ts1 Tr1 Cs1
  copy_step 2 16 17 dev17_eq sendSem2_eq B2 R2 Ts2 Tr2 Cs2
  copy_step 3 17 18 dev18_eq sendSem3_eq B3 R3 Ts3 Tr3 Cs3
  copy_step 4 18 19 dev19_eq sendSem4_eq B4 R4 Ts4 Tr4 Cs4
  copy_step 5 19 20 dev20_eq sendSem5_eq B5 R5 Ts5 Tr5 Cs5
  copy_step 6 20 21 dev21_eq sendSem6_eq B6 R6 Ts6 Tr6 Cs6
  copy_step 7 21 22 dev22_eq sendSem7_eq B7 R7 Ts7 Tr7 Cs7
  copy_step 8 22 23 dev23_eq sendSem8_eq B8 R8 Ts8 Tr8 Cs8
  copy_step 9 23 24 dev24_eq sendSem9_eq B9 R9 Ts9 Tr9 Cs9
  copy_step 10 24 25 dev25_eq sendSem10_eq B10 R10 Ts10 Tr10 Cs10
  copy_step 11 25 26 dev26_eq sendSem11_eq B11 R11 Ts11 Tr11 Cs11
  copy_step 12 26 27 dev27_eq sendSem12_eq B12 R12 Ts12 Tr12 Cs12
  copy_step 13 27 28 dev28_eq sendSem13_eq B13 R13 Ts13 Tr13 Cs13
  copy_step 14 28 29 dev29_eq sendSem14_eq B14 R14 Ts14 Tr14 Cs14
  copy_step 15 29 30 dev30_eq sendSem15_eq B15 R15 Ts15 Tr15 Cs15
  -- the waits for the fifteen arrivals
  recv_step 1 recvSem1_eq C1 Ar1 G1 Rb1
  recv_step 2 recvSem2_eq C2 Ar2 G2 Rb2
  recv_step 3 recvSem3_eq C3 Ar3 G3 Rb3
  recv_step 4 recvSem4_eq C4 Ar4 G4 Rb4
  recv_step 5 recvSem5_eq C5 Ar5 G5 Rb5
  recv_step 6 recvSem6_eq C6 Ar6 G6 Rb6
  recv_step 7 recvSem7_eq C7 Ar7 G7 Rb7
  recv_step 8 recvSem8_eq C8 Ar8 G8 Rb8
  recv_step 9 recvSem9_eq C9 Ar9 G9 Rb9
  recv_step 10 recvSem10_eq C10 Ar10 G10 Rb10
  recv_step 11 recvSem11_eq C11 Ar11 G11 Rb11
  recv_step 12 recvSem12_eq C12 Ar12 G12 Rb12
  recv_step 13 recvSem13_eq C13 Ar13 G13 Rb13
  recv_step 14 recvSem14_eq C14 Ar14 G14 Rb14
  recv_step 15 recvSem15_eq C15 Ar15 G15 Rb15
  -- the gather buffer whole again, every slot at its device's partial sum; the sum of the slots stored
  ihave Hg := (Entails.of_eq ((gbuf_split c (gath m ρ)).trans (bigSep_fin16 _)).symm) $$ [S0 G1 G2 G3 G4 G5 G6 G7 G8 G9 G10 G11 G12 G13 G14 G15]
  · isplitl [S0]; · iexact S0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    iexact G15
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := rS) (Mk := Finset.univ) (Finset.subset_univ _)) $$ Hout; iintro Hout
  rw [write_o]
  -- the waits for the fifteen departures: the send buffer's shares back
  sendw_step 1 sendSem1_eq Cs1 As1 B1
  sendw_step 2 sendSem2_eq Cs2 As2 B2
  sendw_step 3 sendSem3_eq Cs3 As3 B3
  sendw_step 4 sendSem4_eq Cs4 As4 B4
  sendw_step 5 sendSem5_eq Cs5 As5 B5
  sendw_step 6 sendSem6_eq Cs6 As6 B6
  sendw_step 7 sendSem7_eq Cs7 As7 B7
  sendw_step 8 sendSem8_eq Cs8 As8 B8
  sendw_step 9 sendSem9_eq Cs9 As9 B9
  sendw_step 10 sendSem10_eq Cs10 As10 B10
  sendw_step 11 sendSem11_eq Cs11 As11 B11
  sendw_step 12 sendSem12_eq Cs12 As12 B12
  sendw_step 13 sendSem13_eq Cs13 As13 B13
  sendw_step 14 sendSem14_eq Cs14 As14 B14
  sendw_step 15 sendSem15_eq Cs15 As15 B15
  ihave Hs := (sbuf_split m ρ c).2 $$ [B0 B1 B2 B3 B4 B5 B6 B7 B8 B9 B10 B11 B12 B13 B14 B15 Hbr]
  · isplitr [Hbr]
    · iapply (Entails.of_eq (bigSep_fin16 _).symm)
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      iexact B15
    · iexact Hbr
  -- the fifteen exit signals
  exit_step 1 30 31 dev31_eq Tx1 Rb1
  exit_step 2 31 32 dev32_eq Tx2 Rb2
  exit_step 3 32 33 dev33_eq Tx3 Rb3
  exit_step 4 33 34 dev34_eq Tx4 Rb4
  exit_step 5 34 35 dev35_eq Tx5 Rb5
  exit_step 6 35 36 dev36_eq Tx6 Rb6
  exit_step 7 36 37 dev37_eq Tx7 Rb7
  exit_step 8 37 38 dev38_eq Tx8 Rb8
  exit_step 9 38 39 dev39_eq Tx9 Rb9
  exit_step 10 39 40 dev40_eq Tx10 Rb10
  exit_step 11 40 41 dev41_eq Tx11 Rb11
  exit_step 12 41 42 dev42_eq Tx12 Rb12
  exit_step 13 42 43 dev43_eq Tx13 Rb13
  exit_step 14 43 44 dev44_eq Tx14 Rb14
  exit_step 15 44 45 dev45_eq Tx15 Rb15
  -- the thirty-two own cells close
  rw [wp_ret]
  imod (close_send m ρ K c 0 0 (Or.inl rfl)) $$ [As0] with Zs0
  · isplitr; · iapply (inv_at m ρ K (c, some (.inl 0))); iexact HI
    iexact As0
  imod (close_send m ρ K c 1 1 (Or.inr le_rfl)) $$ [As1] with Zs1
  · isplitr; · iapply (inv_at m ρ K (c, some (.inl 1))); iexact HI
    iexact As1
  imod (close_send m ρ K c 2 1 (Or.inr le_rfl)) $$ [As2] with Zs2
  · isplitr; · iapply (inv_at m ρ K (c, some (.inl 2))); iexact HI
    iexact As2
  imod (close_send m ρ K c 3 1 (Or.inr le_rfl)) $$ [As3] with Zs3
  · isplitr; · iapply (inv_at m ρ K (c, some (.inl 3))); iexact HI
    iexact As3
  imod (close_send m ρ K c 4 1 (Or.inr le_rfl)) $$ [As4] with Zs4
  · isplitr; · iapply (inv_at m ρ K (c, some (.inl 4))); iexact HI
    iexact As4
  imod (close_send m ρ K c 5 1 (Or.inr le_rfl)) $$ [As5] with Zs5
  · isplitr; · iapply (inv_at m ρ K (c, some (.inl 5))); iexact HI
    iexact As5
  imod (close_send m ρ K c 6 1 (Or.inr le_rfl)) $$ [As6] with Zs6
  · isplitr; · iapply (inv_at m ρ K (c, some (.inl 6))); iexact HI
    iexact As6
  imod (close_send m ρ K c 7 1 (Or.inr le_rfl)) $$ [As7] with Zs7
  · isplitr; · iapply (inv_at m ρ K (c, some (.inl 7))); iexact HI
    iexact As7
  imod (close_send m ρ K c 8 1 (Or.inr le_rfl)) $$ [As8] with Zs8
  · isplitr; · iapply (inv_at m ρ K (c, some (.inl 8))); iexact HI
    iexact As8
  imod (close_send m ρ K c 9 1 (Or.inr le_rfl)) $$ [As9] with Zs9
  · isplitr; · iapply (inv_at m ρ K (c, some (.inl 9))); iexact HI
    iexact As9
  imod (close_send m ρ K c 10 1 (Or.inr le_rfl)) $$ [As10] with Zs10
  · isplitr; · iapply (inv_at m ρ K (c, some (.inl 10))); iexact HI
    iexact As10
  imod (close_send m ρ K c 11 1 (Or.inr le_rfl)) $$ [As11] with Zs11
  · isplitr; · iapply (inv_at m ρ K (c, some (.inl 11))); iexact HI
    iexact As11
  imod (close_send m ρ K c 12 1 (Or.inr le_rfl)) $$ [As12] with Zs12
  · isplitr; · iapply (inv_at m ρ K (c, some (.inl 12))); iexact HI
    iexact As12
  imod (close_send m ρ K c 13 1 (Or.inr le_rfl)) $$ [As13] with Zs13
  · isplitr; · iapply (inv_at m ρ K (c, some (.inl 13))); iexact HI
    iexact As13
  imod (close_send m ρ K c 14 1 (Or.inr le_rfl)) $$ [As14] with Zs14
  · isplitr; · iapply (inv_at m ρ K (c, some (.inl 14))); iexact HI
    iexact As14
  imod (close_send m ρ K c 15 1 (Or.inr le_rfl)) $$ [As15] with Zs15
  · isplitr; · iapply (inv_at m ρ K (c, some (.inl 15))); iexact HI
    iexact As15
  imod (close_recv m ρ K c (peer c 0) 0 (Or.inl (peer_zero c))) $$ [Ar0] with Zr0
  · isplitr; · iapply (inv_at m ρ K (c, some (.inr (peer c 0)))); iexact HI
    iexact Ar0
  imod (close_recv m ρ K c (peer c 1) 1 (Or.inr le_rfl)) $$ [Ar1] with Zr1
  · isplitr; · iapply (inv_at m ρ K (c, some (.inr (peer c 1)))); iexact HI
    iexact Ar1
  imod (close_recv m ρ K c (peer c 2) 1 (Or.inr le_rfl)) $$ [Ar2] with Zr2
  · isplitr; · iapply (inv_at m ρ K (c, some (.inr (peer c 2)))); iexact HI
    iexact Ar2
  imod (close_recv m ρ K c (peer c 3) 1 (Or.inr le_rfl)) $$ [Ar3] with Zr3
  · isplitr; · iapply (inv_at m ρ K (c, some (.inr (peer c 3)))); iexact HI
    iexact Ar3
  imod (close_recv m ρ K c (peer c 4) 1 (Or.inr le_rfl)) $$ [Ar4] with Zr4
  · isplitr; · iapply (inv_at m ρ K (c, some (.inr (peer c 4)))); iexact HI
    iexact Ar4
  imod (close_recv m ρ K c (peer c 5) 1 (Or.inr le_rfl)) $$ [Ar5] with Zr5
  · isplitr; · iapply (inv_at m ρ K (c, some (.inr (peer c 5)))); iexact HI
    iexact Ar5
  imod (close_recv m ρ K c (peer c 6) 1 (Or.inr le_rfl)) $$ [Ar6] with Zr6
  · isplitr; · iapply (inv_at m ρ K (c, some (.inr (peer c 6)))); iexact HI
    iexact Ar6
  imod (close_recv m ρ K c (peer c 7) 1 (Or.inr le_rfl)) $$ [Ar7] with Zr7
  · isplitr; · iapply (inv_at m ρ K (c, some (.inr (peer c 7)))); iexact HI
    iexact Ar7
  imod (close_recv m ρ K c (peer c 8) 1 (Or.inr le_rfl)) $$ [Ar8] with Zr8
  · isplitr; · iapply (inv_at m ρ K (c, some (.inr (peer c 8)))); iexact HI
    iexact Ar8
  imod (close_recv m ρ K c (peer c 9) 1 (Or.inr le_rfl)) $$ [Ar9] with Zr9
  · isplitr; · iapply (inv_at m ρ K (c, some (.inr (peer c 9)))); iexact HI
    iexact Ar9
  imod (close_recv m ρ K c (peer c 10) 1 (Or.inr le_rfl)) $$ [Ar10] with Zr10
  · isplitr; · iapply (inv_at m ρ K (c, some (.inr (peer c 10)))); iexact HI
    iexact Ar10
  imod (close_recv m ρ K c (peer c 11) 1 (Or.inr le_rfl)) $$ [Ar11] with Zr11
  · isplitr; · iapply (inv_at m ρ K (c, some (.inr (peer c 11)))); iexact HI
    iexact Ar11
  imod (close_recv m ρ K c (peer c 12) 1 (Or.inr le_rfl)) $$ [Ar12] with Zr12
  · isplitr; · iapply (inv_at m ρ K (c, some (.inr (peer c 12)))); iexact HI
    iexact Ar12
  imod (close_recv m ρ K c (peer c 13) 1 (Or.inr le_rfl)) $$ [Ar13] with Zr13
  · isplitr; · iapply (inv_at m ρ K (c, some (.inr (peer c 13)))); iexact HI
    iexact Ar13
  imod (close_recv m ρ K c (peer c 14) 1 (Or.inr le_rfl)) $$ [Ar14] with Zr14
  · isplitr; · iapply (inv_at m ρ K (c, some (.inr (peer c 14)))); iexact HI
    iexact Ar14
  imod (close_recv m ρ K c (peer c 15) 1 (Or.inr le_rfl)) $$ [Ar15] with Zr15
  · isplitr; · iapply (inv_at m ρ K (c, some (.inr (peer c 15)))); iexact HI
    iexact Ar15
  imodintro
  iapply Hk
  unfold bodyPost Φ₁ scratch
  isplitl [Hs Hg Zs0 Zr0 Zs1 Zr1 Zs2 Zr2 Zs3 Zr3 Zs4 Zr4 Zs5 Zr5 Zs6 Zr6 Zs7 Zr7 Zs8 Zr8 Zs9 Zr9 Zs10 Zr10 Zs11 Zr11 Zs12 Zr12 Zs13 Zr13 Zs14 Zr14 Zs15 Zr15]
  · isplitl [Hs Hg]
    · isplitl [Hs]
      · iexists _; iexact Hs
      · iexists _; iexact Hg
    · iapply (ownSems_intro c)
      isplitl [Zs0 Zs1 Zs2 Zs3 Zs4 Zs5 Zs6 Zs7 Zs8 Zs9 Zs10 Zs11 Zs12 Zs13 Zs14 Zs15]
      · iapply (Entails.of_eq (bigSep_fin16 _).symm)
        isplitl [Zs0]; · iexact Zs0
        isplitl [Zs1]; · iexact Zs1
        isplitl [Zs2]; · iexact Zs2
        isplitl [Zs3]; · iexact Zs3
        isplitl [Zs4]; · iexact Zs4
        isplitl [Zs5]; · iexact Zs5
        isplitl [Zs6]; · iexact Zs6
        isplitl [Zs7]; · iexact Zs7
        isplitl [Zs8]; · iexact Zs8
        isplitl [Zs9]; · iexact Zs9
        isplitl [Zs10]; · iexact Zs10
        isplitl [Zs11]; · iexact Zs11
        isplitl [Zs12]; · iexact Zs12
        isplitl [Zs13]; · iexact Zs13
        isplitl [Zs14]; · iexact Zs14
        iexact Zs15
      · iapply (Entails.of_eq (bigSep_fin16 _).symm)
        isplitl [Zr0]; · iexact Zr0
        isplitl [Zr1]; · iexact Zr1
        isplitl [Zr2]; · iexact Zr2
        isplitl [Zr3]; · iexact Zr3
        isplitl [Zr4]; · iexact Zr4
        isplitl [Zr5]; · iexact Zr5
        isplitl [Zr6]; · iexact Zr6
        isplitl [Zr7]; · iexact Zr7
        isplitl [Zr8]; · iexact Zr8
        isplitl [Zr9]; · iexact Zr9
        isplitl [Zr10]; · iexact Zr10
        isplitl [Zr11]; · iexact Zr11
        isplitl [Zr12]; · iexact Zr12
        isplitl [Zr13]; · iexact Zr13
        isplitl [Zr14]; · iexact Zr14
        iexact Zr15
  isplitl [HO]
  · iapply (owes_done m ρ c _); iexact HO
  isplitl [Hx]
  · iexists _; isplitr; · (ipureintro; rfl)
    iexact Hx
  iexists _; isplitr; · (ipureintro; rfl)
  iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 32000 in
def bodyPre' (c : Dev nD) : sProp 𝕄 :=
  iprop(Φ₀ m ρ c ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 32000 in
/-- The library's body obligation on core `c`. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Cert.KernelIdealProof

end
-- ==== Proof.Launch.lean ====
/-
  The launch of the one pallas_call: what the launch deals each device (its credit, its levels), the
  launch theorem's side conditions, the run of @main and the final arrays.
-/
import proofs.«901090_g7700000000001091_dist_sum_ax0_shard0_i_m512_n256_v7x_i16_f32_1_alg».proof.Proof.Body
import proofs.«901090_g7700000000001091_dist_sum_ax0_shard0_i_m512_n256_v7x_i16_f32_1_alg».proof.Proof.Fund

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ### The launch credit -/

/-- The places of the fifteen other devices around the axis. -/
abbrev others : Finset (Fin 16) := Finset.univ.erase 0

omit [FloatOps F] in
theorem sum_ks {α : Type} [AddCommMonoid α] (f : Fin 16 → α) : (ks.map f).sum = ∑ k ∈ others, f k := by
  rw [← List.sum_toFinset f (by decide : ks.Nodup)]
  exact congrArg (fun s : Finset (Fin 16) => ∑ k ∈ s, f k) (by decide : ks.toFinset = others)

omit [FloatOps F] in
/-- What a device owes, as three sums over the other places; the copies' dues indexed by the place of the payer as the
    receiver sees it (the receiver is `-k` places after the payer when the payer is `k` places after the receiver). -/
theorem O₀_eq (d : Dev nD) :
    O₀ d = (∑ k ∈ others, owedE d k + ∑ k ∈ others, owedS d (-k)) + ∑ k ∈ others, owedX d k := by
  unfold O₀ owedAfter dues
  rw [List.drop_zero, List.sum_append, List.sum_append, sum_ks, sum_ks, sum_ks]
  have hS : ∑ k ∈ others, owedS d k = ∑ k ∈ others, owedS d (-k) :=
    (Finset.sum_equiv (s := others) (t := others) (f := fun k => owedS d (-k)) (g := owedS d) (Equiv.neg (Fin 16))
      (fun i => by revert i; decide) (fun i _ => rfl)).symm
  rw [hS]

omit [FloatOps F] in
theorem launchCred_O₀ (c : Dev nD) :
    (Pipeline.launchCred O₀ c : sProp 𝕄)
      = iprop(((bigSep others fun k => Pipeline.launchCred (fun d => owedE d k) c)
          ∗ (bigSep others fun k => Pipeline.launchCred (fun d => owedS d (-k)) c))
          ∗ (bigSep others fun k => Pipeline.launchCred (fun d => owedX d k) c)) := by
  rw [show (O₀ : Dev nD → CellTallies nD τ sig ℕ)
      = fun d => (∑ k ∈ others, owedE d k + ∑ k ∈ others, owedS d (-k)) + ∑ k ∈ others, owedX d k from funext O₀_eq,
    Pipeline.launchCred_add, Pipeline.launchCred_add, Pipeline.launchCred_sum, Pipeline.launchCred_sum, Pipeline.launchCred_sum]

omit [FloatOps F] in
/-- Every device signalling its `k`-th peer's barrier cell, each device's barrier cell is signalled by the device `k` places before it. -/
theorem cred_E (c : Dev nD) (k : Fin 16) (i : ℕ) :
    (Pipeline.launchCred (fun d => tallyAt (barCell (peer d k)) i 1) c : sProp 𝕄) ⊢ cred (tallyAt (barCell c) i 1) :=
  Pipeline.launchCred_tallyAt (.reg barS) (fun d => peer d k) (fun c => peer c (-k)) (fun c => peer_neg_peer c k) (fun d => peer_peer_neg d k) i 1 c

omit [FloatOps F] in
/-- The copy into device `c`'s slot of its `k`-th peer is that peer's: on `c`'s receive cell for that peer, the one payer is that peer. -/
theorem cred_S (c : Dev nD) (k : Fin 16) :
    (Pipeline.launchCred (fun d => owedS d (-k)) c : sProp 𝕄) ⊢ cred (tallyAt (recvCell c (peer c k)) 0 N) := by
  refine (Pipeline.launchCred_elim _ c (.dma (recvS (peer c k)))).trans (Entails.of_eq (congrArg cred ?_))
  rw [Pipeline.tallyOn_launchCredit_owing]
  unfold tallyAt
  refine congrArg _ ?_
  rw [Finset.sum_apply, Finset.sum_eq_single (peer c k) (fun d _ hd => ?_) (fun h => absurd (Finset.mem_univ _) h)]
  · unfold owedS tallyAt tallyOn
    rw [peer_peer_neg]; exact Pi.single_eq_same _ _
  · unfold owedS tallyAt tallyOn
    refine Pi.single_eq_of_ne (fun h => hd ?_) _
    have h2 := congrArg (fun g : GSem nD τ sig => recvIdx g.2) h
    simp only [recvIdx_recv] at h2
    exact (Option.some.inj h2).symm

omit [FloatOps F] in
theorem nsmul_tallyAt (g : GSem nD τ sig) (i : ℕ) (n : ℕ) : n • (tallyAt g i 1 : CellTallies nD τ sig ℕ) = tallyAt g i n := by
  induction n with
  | zero => rw [zero_nsmul, tallyAt_zero]
  | succ n ih => rw [succ_nsmul, ih, tallyAt_add]

omit [FloatOps F] in
/-- Fifteen units on one cell, one per other device, are its credit of fifteen. -/
theorem cred_fifteen (g : GSem nD τ sig) (i : ℕ) :
    (bigSep others fun _ : Fin 16 => (cred (tallyAt g i 1) : sProp 𝕄)) ⊢ cred (tallyAt g i 15) := by
  rw [← Pipeline.cred_finsetSum, Finset.sum_const, Finset.card_erase_of_mem (Finset.mem_univ _), Finset.card_univ, Fintype.card_fin,
    nsmul_tallyAt]

omit [FloatOps F] in
theorem creds (c : Dev nD) : (Pipeline.launchCred O₀ c : sProp 𝕄) ⊢ credits c := by
  rw [launchCred_O₀]
  unfold credits
  have hE : (bigSep others fun k => Pipeline.launchCred (fun d => owedE d k) c : sProp 𝕄) ⊢ cred (tallyAt (barCell c) 0 15) :=
    (bigSep_mono fun k _ => cred_E c k 0).trans (cred_fifteen (barCell c) 0)
  have hS : (bigSep others fun k => Pipeline.launchCred (fun d => owedS d (-k)) c : sProp 𝕄)
      ⊢ bigSep others fun k => cred (tallyAt (recvCell c (peer c k)) 0 N) :=
    bigSep_mono fun k _ => cred_S c k
  iintro ⟨⟨HE, HS⟩, -⟩
  isplitl [HE]
  · iapply hE; iexact HE
  · iapply hS; iexact HS

/-! ### The levels of the staging waits -/

omit [FloatOps F] in
/-- Whatever a device owes is owed to a barrier cell (entry or exit round) or to a receive cell (its one round). -/
theorem O₀_pos {c : Dev nD} {g : GSem nD τ sig} {i : ℕ} (h : 0 < O₀ c g i) :
    (∃ d : Dev nD, g = barCell d ∧ (i = 0 ∨ i = 1)) ∨ (∃ (d : Dev nD) (j : Fin 16), g = recvCell d j ∧ i = 0) := by
  rw [O₀_eq] at h
  rcases Pipeline.add_pos_cases h with h | h
  · rcases Pipeline.add_pos_cases h with h | h
    · obtain ⟨k, _, hk⟩ := Pipeline.sum_pos_exists h
      have hk' : 0 < tallyAt (barCell (peer c k)) 0 1 g i := hk
      obtain ⟨rfl, rfl⟩ := Pipeline.tallyAt_pos hk'
      exact Or.inl ⟨_, rfl, Or.inl rfl⟩
    · obtain ⟨k, _, hk⟩ := Pipeline.sum_pos_exists h
      have hk' : 0 < tallyAt (recvCell (peer c (-k)) c) 0 N g i := hk
      obtain ⟨rfl, rfl⟩ := Pipeline.tallyAt_pos hk'
      exact Or.inr ⟨_, _, rfl, rfl⟩
  · obtain ⟨k, _, hk⟩ := Pipeline.sum_pos_exists h
    have hk' : 0 < tallyAt (barCell (peer c k)) 1 1 g i := hk
    obtain ⟨rfl, rfl⟩ := Pipeline.tallyAt_pos hk'
    exact Or.inl ⟨_, rfl, Or.inr rfl⟩

omit [FloatOps F] in
/-- A wait on a DMA semaphore that is no receive semaphore (a staging semaphore) sits at level 0, below everything a device owes. -/
theorem mayWait_stage (c : Dev nD) (q : DmaSem sig) (hq : recvIdx (.dma q : SemLoc sig) = none) (O : CellTallies nD τ sig ℕ) (hO : O = O₀ c ∨ O = 0) :
    (levAts L lv : sProp 𝕄) ⊢ MayWait (c : Thread nD τ) (.dma q) 0 O := by
  rcases hO with rfl | rfl
  · have h0 : lv ((c : Thread nD τ), SemLoc.dma q) 0 = 0 := by
      dsimp only [lv]; rw [if_neg (fun h => by cases h), hq]; rfl
    refine Pipeline.mayWait_of_levAts (by rw [L_tc]; decide) fun g i hg => ?_
    rw [h0]
    rcases O₀_pos hg with ⟨d, rfl, hi⟩ | ⟨d, j, rfl, rfl⟩
    · refine ⟨by rw [L_tc]; rcases hi with rfl | rfl <;> decide, ?_⟩
      dsimp only [lv]; rw [if_pos rfl]; rcases hi with rfl | rfl <;> decide
    · refine ⟨by rw [L_tc]; decide, ?_⟩
      dsimp only [lv]; rw [if_neg (recv_ne_bar j), recvIdx_recv, Option.isSome_some, if_pos rfl]; decide
  · rw [MayWait_zero]; iintro -; iempintro

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait_stage c _ (by fin_cases w <;> fin_cases s <;> decide) _ (by
      rcases t with ⟨_ | _, ht⟩
      · exact Or.inl rfl
      · exact Or.inr rfl)

/-! ### The theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch Pipeline.ownSems0
  iintro ⟨Hr, Hz⟩
  isplitr; · iempintro
  isplitl [Hz]; · iexact Hz
  iexact Hr

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main (the sixteen kernels meeting on the runtime's barrier semaphore, then each copying its partial sum
    into every other device's gather buffer) terminates, and every final state has each device's result array at the
    computed contents and `x` unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the sum of the sixteen partial sums: the output window is written back whole at the one point. -/
theorem finalA_out (c : Dev nD) : finalA m ρ c (1 : Fin 2) = outAt m ρ := by
  unfold finalA
  rw [show cfg0.N = t₀.val + 1 from rfl, Dat.arrAt_succ, if_pos (by rfl)]
  exact Memref.write_access_unit_zero_univ (Elt F) main_v1 (by funext a; fin_cases a <;> rfl) _ _ _

/-- info: 'Cert.KernelIdealProof.run_main' depends on axioms: [propext, Classical.choice, Quot.sound] -/
#guard_msgs in #print axioms run_main

end Cert.KernelIdealProof

end
-- ==== Proof.RefSide.lean ====
/-
  The reference on one device: the sum of x over its 8192 rows, kept as one row of 256.
-/
import proofs.«901090_g7700000000001091_dist_sum_ax0_shard0_i_m512_n256_v7x_i16_f32_1_alg».proof.Defs
import proofs.«901090_g7700000000001091_dist_sum_ax0_shard0_i_m512_n256_v7x_i16_f32_1_alg».proof.Proof.Gen.ReferenceIdeal
import proofs.«901090_g7700000000001091_dist_sum_ax0_shard0_i_m512_n256_v7x_i16_f32_1_alg».proof.Proof.Gen.ReferenceIdeal.Run
import proofs.«901090_g7700000000001091_dist_sum_ax0_shard0_i_m512_n256_v7x_i16_f32_1_alg».proof.Proof.Gen.ReferenceIdeal.Read

noncomputable section

namespace Cert.RefSide

open Idealize.ShloMosaic Idealize.SL.Sem

end Cert.RefSide

end
-- ==== Proof.Algebra.lean ====
/-
  At the ideal values the kernel's result is the reference's: both are, at column q, the sum of x over all 8192 rows.
  Device j's partial sum at column q is the sum over the 512 rows of its block, the result the sum of the sixteen
  partial sums, and block j's row r is row 512 j + r of the whole array; the reference's is zero plus the sum over the
  8192 rows. The two are joined by counting the rows as sixteen runs of 512.
-/
import proofs.«901090_g7700000000001091_dist_sum_ax0_shard0_i_m512_n256_v7x_i16_f32_1_alg».proof.Proof.Proto
import proofs.«901090_g7700000000001091_dist_sum_ax0_shard0_i_m512_n256_v7x_i16_f32_1_alg».proof.Proof.RefSide
import Idealize.ShloMosaic.Lib.Layout
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdealProof

open Cert.KernelIdeal Cert.KernelIdeal.Gen
open Idealize.ShloMosaic Idealize.ShloMosaic.TcCoe Idealize.SL.Sem
open Idealize.ShloMosaic.ValueIdx
open scoped BigOperators

theorem xstg_apply (m : (ℓ : Loc nD τ sig) → Buf (Elt Ideal) ℓ) (ρ : Dev nD → PrngReg) (c : Dev nD) (r : Fin 512) (q : Fin 256) :
    xstg (F := Ideal) m ρ c (ix2 r q) = m ((c : Thread nD τ).loc main_arg0) (ix2 r q) := by
  unfold xstg
  rw [View.read_apply]
  have e : (win0_0.blk (0 : Fin 1)).view.emb (ix2 r q) = (ix2 r q : S512x256.Idx) := by
    funext a
    refine Fin.ext ?_
    match a with
    | ⟨0, _⟩ => show 0 * 512 + 1 * r.val = r.val; omega
    | ⟨1, _⟩ => show 0 * 256 + 1 * q.val = q.val; omega
  rw [e]
  rfl

/-- The sum over the rows of a 512 x 256 vector, at column `q`. -/
theorem rowsum_apply (v : FVec Ideal S512x256 .f32) (h : S512x256.Reduces [0] S256) (hφ : FKind.Formats .f32)
    (hacc : (0x00000000#32 : BitVec 32) = 0x00000000#32) (q : Fin 256) :
    multiReduction .add [0] S256 v 0x00000000#32 h hφ hacc (ix1 q) = ∑ r : Fin 512, v (ix2 r q) := by
  refine (Ideal.multiReduction_add_single v 0x00000000#32 h hφ hacc (ix1 q)).trans ?_
  refine Finset.sum_congr rfl fun r _ => congrArg v ?_
  funext a; match a with | ⟨0, _⟩ => rfl | ⟨1, _⟩ => rfl

theorem pay1_apply (v : Vec Ideal S512x256 .f32) (p : Fin 1) (q : Fin 256) :
    k0_pay1 (F := Ideal) v (ix2 p q) = ∑ r : Fin 512, v (ix2 r q) := by
  unfold k0_pay1
  rw [shapeCast_a_1a_apply, shapeCast_self]
  exact rowsum_apply v _ _ _ q

theorem pay2_apply (v : Vec Ideal S512x256 .f32) (p : Fin 1) (q : Fin 256) :
    k0_pay2 (F := Ideal) v (ix2 p q) = ∑ r : Fin 512, v (ix2 r q) := by
  unfold k0_pay2
  rw [shapeCast_self]
  exact pay1_apply v p q

/-- Device `j`'s argument buffer at `(r, q)`, as an extended real. -/
def xat (m : (ℓ : Loc nD τ sig) → Buf (Elt Ideal) ℓ) (j : Dev nD) (r : Fin 512) (q : Fin 256) : EReal :=
  m ((j : Thread nD τ).loc main_arg0) (ix2 r q)

/-- Device `j`'s partial sum at column `q`: the sum over the 512 rows of its block. -/
theorem part_apply (m : (ℓ : Loc nD τ sig) → Buf (Elt Ideal) ℓ) (ρ : Dev nD → PrngReg) (j : Dev nD) (p : Fin 1) (q : Fin 256) :
    part (F := Ideal) m ρ j (ix2 p q) = ∑ r : Fin 512, xat m j r q := by
  refine (pay2_apply (xstg (F := Ideal) m ρ j) p q).trans ?_
  exact Finset.sum_congr rfl fun r _ => xstg_apply m ρ j r q

/-- The sum over the sixteen slots of a 16 x 1 x 256 vector, at `(p, q)`. -/
theorem slotsum_apply (g : FVec Ideal S16x1x256 .f32) (h : S16x1x256.Reduces [0] S1x256) (hφ : FKind.Formats .f32)
    (hacc : (0x00000000#32 : BitVec 32) = 0x00000000#32) (p : Fin 1) (q : Fin 256) :
    multiReduction .add [0] S1x256 g 0x00000000#32 h hφ hacc (ix2 p q) = ∑ j : Fin 16, g (ix3 j p q) := by
  refine (Ideal.multiReduction_add_single g 0x00000000#32 h hφ hacc (ix2 p q)).trans ?_
  refine Finset.sum_congr rfl fun j _ => congrArg g ?_
  funext a; match a with | ⟨0, _⟩ => rfl | ⟨1, _⟩ => rfl | ⟨2, _⟩ => rfl

/-- The result at `(p, q)`: the sum of the sixteen partial sums at column `q`. -/
theorem outAt_apply (m : (ℓ : Loc nD τ sig) → Buf (Elt Ideal) ℓ) (ρ : Dev nD → PrngReg) (p : Fin 1) (q : Fin 256) :
    outAt (F := Ideal) m ρ (ix2 p q) = ∑ j : Fin 16, ∑ r : Fin 512, xat m j r q := by
  unfold outAt k0_pay4
  refine (slotsum_apply (gath (F := Ideal) m ρ) _ _ _ p q).trans ?_
  refine Finset.sum_congr rfl fun j _ => ?_
  show part (F := Ideal) m ρ j (ix2 (0 : Fin 1) q) = _
  exact part_apply m ρ j 0 q

/-- The reference's result at `(p, q)`: zero plus the sum over the 8192 rows at column `q`. -/
theorem ref_apply (X : (⟨Cert.ReferenceIdeal.S8192x256, .f32⟩ : BufTy).Contents (Elt Ideal)) (p : Fin 1) (q : Fin 256) :
    Cert.ReferenceIdeal.Read.val_main_v1 (F := Ideal) X (ix2 p q) = (0 : EReal) + ∑ R : Fin 8192, (X (ix2 R q) : EReal) := by
  rw [Cert.ReferenceIdeal.Read.val_main_v1_apply, Cert.ReferenceIdeal.Read.val_main_v0_apply,
    Cert.ReferenceIdeal.Read.val_main_cst_apply]
  refine congrArg₂ (· + ·) Ideal.ofBits_zero_f32 (Finset.sum_congr rfl fun R _ => congrArg X ?_)
  funext a; match a with | ⟨0, _⟩ => rfl | ⟨1, _⟩ => rfl

/-- The 8192 rows counted as sixteen runs of 512. -/
theorem sum_rows (f : Fin 8192 → EReal) :
    ∑ R : Fin 8192, f R = ∑ j : Fin 16, ∑ r : Fin 512, f ⟨j.val * 512 + r.val, by have := j.isLt; have := r.isLt; omega⟩ := by
  rw [← Equiv.sum_comp (finProdFinEquiv (m := 16) (n := 512)) f, Fintype.sum_prod_type]
  refine Finset.sum_congr rfl fun j _ => Finset.sum_congr rfl fun r _ => congrArg f (Fin.ext ?_)
  show r.val + 512 * j.val = j.val * 512 + r.val
  omega

/-- The kernel's result is the reference's: at every column, the sum of x over all 8192 rows. -/
theorem out_eq_ref (m : (ℓ : Loc nD τ sig) → Buf (Elt Ideal) ℓ) (ρ : Dev nD → PrngReg)
    (X : Buf (Elt Ideal) (((0 : Dev Cert.ReferenceIdeal.nD).tc : Thread Cert.ReferenceIdeal.nD Cert.ReferenceIdeal.τ).loc Cert.ReferenceIdeal.main_arg0))
    (hagree : ∀ c : Dev nD, m ((c.tc : Thread nD τ).loc main_arg0) = Layout.block ⟨2, ![512, 256]⟩ ⟨2, ![8192, 256]⟩ 0 16 c X) :
    outAt (F := Ideal) m ρ
      = broadcastInDim Cert.ReferenceIdeal.S1x256 ![1] Cert.ReferenceIdeal.Gen.bcast_S256_S1x256_1
          (Host.reduceAdd (F := Ideal) X (constant (F := Ideal) Cert.ReferenceIdeal.S_ .f32 0x00000000#32)
            Cert.ReferenceIdeal.Gen.reducesTo_S8192x256_S256_d0 Cert.ReferenceIdeal.Gen.h_S_) := by
  rw [Cert.ReferenceIdeal.Read.val_main_v1_eq]
  funext i
  obtain ⟨p, q, rfl⟩ : ∃ (p : Fin 1) (q : Fin 256), i = ix2 p q := ⟨i 0, i 1, eq_ix2 i⟩
  refine (outAt_apply m ρ p q).trans (Eq.symm ((ref_apply X p q).trans ?_))
  rw [zero_add, sum_rows]
  refine Finset.sum_congr rfl fun j _ => Finset.sum_congr rfl fun r _ => ?_
  unfold xat
  rw [hagree j]
  exact congrArg X (funext fun a => Fin.ext (by match a with | ⟨0, _⟩ => rfl | ⟨1, _⟩ => rfl))

/-- The same with the reference's argument array read off the reference's memory `m'`: the kernel's result is the
    term the reference's run ends holding. -/
theorem out_eq_ref_mem (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hagree : ∀ c : Dev nD, m ((c.tc : Thread nD τ).loc main_arg0) = Layout.block ⟨2, ![512, 256]⟩ ⟨2, ![8192, 256]⟩ 0 16 c
      (m' (((0 : Dev Cert.ReferenceIdeal.nD).tc : Thread Cert.ReferenceIdeal.nD Cert.ReferenceIdeal.τ).loc Cert.ReferenceIdeal.main_arg0))) :
    outAt (F := Ideal) m ρ
      = broadcastInDim Cert.ReferenceIdeal.S1x256 ![1] Cert.ReferenceIdeal.Gen.bcast_S256_S1x256_1
          (Host.reduceAdd (F := Ideal)
            (m' (((0 : Dev Cert.ReferenceIdeal.nD).tc : Thread Cert.ReferenceIdeal.nD Cert.ReferenceIdeal.τ).loc Cert.ReferenceIdeal.main_arg0))
            (constant (F := Ideal) Cert.ReferenceIdeal.S_ .f32 0x00000000#32)
            Cert.ReferenceIdeal.Gen.reducesTo_S8192x256_S256_d0 Cert.ReferenceIdeal.Gen.h_S_) :=
  out_eq_ref m ρ _ hagree

end Cert.KernelIdealProof

end
-- ==== Proof.Assembly.lean ====
/-
  The claim's conjuncts about the idealized kernel and the idealized reference, from the run of @main:
  the kernel's frame (its argument arrays end unchanged), the reference's frame, and the algebraic
  conjunct (every device's result array ends at the reference's result, the sum of x over all rows).
-/
import proofs.«901090_g7700000000001091_dist_sum_ax0_shard0_i_m512_n256_v7x_i16_f32_1_alg».proof.Defs
import proofs.«901090_g7700000000001091_dist_sum_ax0_shard0_i_m512_n256_v7x_i16_f32_1_alg».proof.Proof.Launch
import proofs.«901090_g7700000000001091_dist_sum_ax0_shard0_i_m512_n256_v7x_i16_f32_1_alg».proof.Proof.RefSide
import proofs.«901090_g7700000000001091_dist_sum_ax0_shard0_i_m512_n256_v7x_i16_f32_1_alg».proof.Proof.Algebra
import proofs.«901090_g7700000000001091_dist_sum_ax0_shard0_i_m512_n256_v7x_i16_f32_1_alg».proof.Proof.Gen.Pre_finite_inputs_Kernel
import proofs.«901090_g7700000000001091_dist_sum_ax0_shard0_i_m512_n256_v7x_i16_f32_1_alg».proof.Proof.Gen.Pre_finite_inputs_ReferenceIdeal

noncomputable section

namespace Cert.KernelIdealProof

open Idealize.ShloMosaic Idealize.ShloMosaic.TcCoe Idealize.SL.Sem

/-! ## The claims -/

/-- The reference's result as a term of its argument array, as its run states it: the sum over the rows, kept as one row. -/
abbrev refOut (X : Buf (Elt Ideal) (((0 : Dev Cert.ReferenceIdeal.nD).tc : Thread Cert.ReferenceIdeal.nD Cert.ReferenceIdeal.τ).loc Cert.ReferenceIdeal.main_arg0)) :
    Buf (Elt Ideal) (((0 : Dev Cert.ReferenceIdeal.nD).tc : Thread Cert.ReferenceIdeal.nD Cert.ReferenceIdeal.τ).loc Cert.ReferenceIdeal.main_v1) :=
  broadcastInDim Cert.ReferenceIdeal.S1x256 ![1] Cert.ReferenceIdeal.Gen.bcast_S256_S1x256_1
    (Host.reduceAdd (F := Ideal) X (constant (F := Ideal) Cert.ReferenceIdeal.S_ .f32 0x00000000#32)
      Cert.ReferenceIdeal.Gen.reducesTo_S8192x256_S256_d0 Cert.ReferenceIdeal.Gen.h_S_)

/-- The idealized kernel runs and every device's block of x ends as it began. -/
theorem frame_pi : Cert.frame_KernelIdeal := fun m ρ _ =>
  (θ_run Cert.KernelIdeal.defs _ _).mono (fun r h c => (h c (0 : Fin 2)).trans (finalA_x m ρ c)) (run_main (F := Ideal) m ρ)

/-- The idealized reference runs and x ends as it began: its generated run with the value dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals every device's result array ends at the reference's: the sum of x over all its rows, kept as one row. -/
theorem algebraic : Cert.algebraic_KernelIdeal_ReferenceIdeal := by
  intro m ρ m' ρ' _ hagree
  refine ⟨refOut (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨?_, ?_⟩) (run_main (F := Ideal) m ρ)
    · exact ((h c (1 : Fin 2)).trans (finalA_out m ρ c)).trans (out_eq_ref m ρ _ hagree)
    · exact (h c (0 : Fin 2)).trans (finalA_x m ρ c)
  · exact (θ_run Cert.ReferenceIdeal.defs _ _).mono (fun _ h => h 0) (Cert.ReferenceIdeal.Value.run (F := Ideal) m' ρ')

end Cert.KernelIdealProof

end
-- ==== Proof.W.Proto.lean ====
/-
  The all-gather-then-sum kernel on sixteen devices: the protocol's vocabulary.

  Device c sums its block of x over the rows into one row of 256 (its partial sum), keeps it in
  its send buffer and in slot c of its gather buffer, tells every other device through the barrier
  semaphore that it is inside the kernel, waits for the fifteen others to have said the same, copies
  its send buffer into slot c of every other device's gather buffer, waits for the fifteen copies
  addressed to it, sums the sixteen slots, waits for its own copies to have left, and signals the
  barrier semaphores once more. Here: the peers, the semaphore cells, the buffers' pieces (one slot
  of a gather buffer, one share of the send buffer), what the buffers hold, the schedule of the
  cells' rounds, what a device owes at launch and the levels.
-/
import proofs.«901090_g7700000000001091_dist_sum_ax0_shard0_i_m512_n256_v7x_i16_f32_1_alg».proof.Proof.Gen.Kernel
import proofs.«901090_g7700000000001091_dist_sum_ax0_shard0_i_m512_n256_v7x_i16_f32_1_alg».proof.Proof.Gen.Kernel.Skeleton
import proofs.«901090_g7700000000001091_dist_sum_ax0_shard0_i_m512_n256_v7x_i16_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the protocol's (duties named by a device) -/

abbrev UB : Type := URounds (GSem nD τ sig) (Fin 16)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

/-- The device `k` places after `c` around the mesh axis. -/
def peer (c : Dev nD) (k : Fin 16) : Dev nD := c + k

theorem peer_val (c : Dev nD) (k : Fin 16) : (peer c k).val = (c.val + k.val) % 16 := Fin.val_add c k
theorem mk_eq_peer {n : ℕ} {h : n < nD} (c : Dev nD) (k : Fin 16) (e : n = (c.val + k.val) % 16) : (⟨n, h⟩ : Dev nD) = peer c k :=
  Fin.ext (e.trans (peer_val c k).symm)
theorem peer_zero (c : Dev nD) : peer c 0 = c := by revert c; decide
/-- `c` is the device `-k` places after its `k`-th peer. -/
theorem peer_peer_neg (c : Dev nD) (k : Fin 16) : peer (peer c k) (-k) = c := by revert c k; decide
theorem peer_neg_peer (c : Dev nD) (k : Fin 16) : peer (peer c (-k)) k = c := by revert c k; decide
theorem peer_ne (c : Dev nD) (k : Fin 16) (hk : k ≠ 0) : peer c k ≠ c := by revert c k; decide
theorem peer_inj (c : Dev nD) (k k' : Fin 16) (h : peer c k = peer c k') : k = k' := by revert c k k'; decide

/-! ## The memrefs and the cells -/

abbrev xM : Memref sig .tc .vmem S512x256 .f32 := Memref.whole cc0_stg0_0
abbrev oM : Memref sig .tc .vmem S1x256 .f32 := Memref.whole cc0_stg1_0
/-- the send buffer: a device's partial sum -/
abbrev sM : Memref sig .tc .vmem S1x256 .f32 := Memref.whole cc0_scratch0
/-- the gather buffer: sixteen slots, one per device -/
abbrev gM : Memref sig .tc .vmem S16x1x256 .f32 := Memref.whole cc0_scratch1

/-- Slot `j` of a gather buffer as the kernel addresses it: the slice at row `j`, its unit axis squeezed. -/
abbrev slotM (j : Dev nD) : Memref sig .tc .vmem S1x256 .f32 :=
  ((gM : Memref sig .tc .vmem S16x1x256 .f32).slice (Rect.unit (s := S16x1x256) (k0_off3 j) S1x1x256.size (k0_off3_inb j)) (fun _ => rfl)).squeeze S1x256 squeezes_S1x1x256_S1x256

/-- The runtime's barrier semaphore of collective id 0 (unscoped); the sixteen send and sixteen receive DMA semaphores (scoped scratch). -/
abbrev barS : Sem sig := (SemArray.scalar (sig.barrier 0 rfl) : Sems sig S_).sem
def sendS (d : Fin 16) : DmaSem sig := ⟨2 + d.val, by have := d.isLt; show 2 + d.val < 34; omega⟩
def recvS (j : Fin 16) : DmaSem sig := ⟨18 + j.val, by have := j.isLt; show 18 + j.val < 34; omega⟩

abbrev barCell (c : Dev nD) : GSem nD τ sig := ((c : Thread nD τ), .reg barS)
abbrev sendCell (c : Dev nD) (d : Fin 16) : GSem nD τ sig := ((c : Thread nD τ), .dma (sendS d))
abbrev recvCell (c : Dev nD) (j : Fin 16) : GSem nD τ sig := ((c : Thread nD τ), .dma (recvS j))

/-- Which send semaphore a semaphore location is, if any; which receive semaphore. -/
def sendIdx : SemLoc sig → Option (Fin 16)
  | .dma q => if h : 2 ≤ q.val ∧ q.val < 18 then some ⟨q.val - 2, by omega⟩ else none
  | .reg _ => none
def recvIdx : SemLoc sig → Option (Fin 16)
  | .dma q => if h : 18 ≤ q.val then some ⟨q.val - 18, by have := q.isLt; have : q.val < 34 := this; omega⟩ else none
  | .reg _ => none

theorem sendIdx_send (d : Fin 16) : sendIdx (.dma (sendS d) : SemLoc sig) = some d := by revert d; decide
theorem recvIdx_send (d : Fin 16) : recvIdx (.dma (sendS d) : SemLoc sig) = none := by revert d; decide
theorem sendIdx_recv (j : Fin 16) : sendIdx (.dma (recvS j) : SemLoc sig) = none := by revert j; decide
theorem recvIdx_recv (j : Fin 16) : recvIdx (.dma (recvS j) : SemLoc sig) = some j := by revert j; decide

/-- The kernel's own (scoped) semaphores, as the launch theorem indexes them: the sends, then the receives; -/
abbrev osem : Fin 16 ⊕ Fin 16 → SemLoc sig := fun | .inl d => .dma (sendS d) | .inr j => .dma (recvS j)
/-- all thirty-three of the protocol's: the barrier first. -/
abbrev csem : Option (Fin 16 ⊕ Fin 16) → SemLoc sig := fun | none => .reg barS | some k => osem k
abbrev kcell (ck : Dev nD × Option (Fin 16 ⊕ Fin 16)) : GSem nD τ sig := ((ck.1 : Thread nD τ), csem ck.2)

/-- The credit of one copy of a row of 256. -/
abbrev N : ℕ := (sM : Memref sig .tc .vmem S1x256 .f32).view.dmaCredit
theorem N_pos : 0 < N := View.dmaCredit_pos _ (by decide)

/-! ## Shares of the send buffer: one per copy in flight -/

/-- What is left of the full share after `k` pieces have been cut off; the `k`-th piece. -/
def restShare : ℕ → PosShare TreeShare
  | 0 => fullShare
  | k + 1 => (restShare k).right
def pieceShare (k : ℕ) : PosShare TreeShare := (restShare k).left

/-! ## Contents -/

/-- Device `c`'s block of x as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s partial sum, as its send buffer holds it. -/
def part (c : Dev nD) : (cc0_scratch0 : Ref sig .tc).ty.Contents (Elt F) := k0_pay2 (xstg m ρ c)

/-- What every gather buffer ends holding: slot `j` is device `j`'s partial sum. -/
def gath : (cc0_scratch1 : Ref sig .tc).ty.Contents (Elt F) :=
  fun i => part m ρ (show Fin 16 from i 0) (ValueIdx.ix2 (0 : Fin 1) (show Fin 256 from i 2))

/-- The kernel's result, the same on every device: the sum of the sixteen slots. -/
def outAt : (cc0_stg1_0 : Ref sig .tc).ty.Contents (Elt F) := k0_pay4 (gath m ρ)

end Cert.KernelProof

end
-- ==== Proof.W.Sched.lean ====
/-
  The schedule of the semaphore cells' rounds.

  A device's barrier cell has two rounds of fifteen duties of one unit, one duty per other device:
  round 0 is the entry handshake (device d's unit hands the owner the right to write the owner's
  slot of d's gather buffer), round 1 the exit signals (nothing handed over, never waited for).
  Send cell k (k = 1..15) has one duty, the departure of the copy to the k-th peer, which hands
  back share k of the send buffer. Receive cell j (j another device) has one duty, the arrival
  of device j's copy: slot j of the owner's gather buffer at j's partial sum, and that j has
  finished round 0 of its own barrier cell (which is what a later signal to it must present).
-/
import proofs.«901090_g7700000000001091_dist_sum_ax0_shard0_i_m512_n256_v7x_i16_f32_1_alg».proof.Proof.W.Proto

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The buffers' pieces as assertions -/

/-- Slot `j` of device `c'`'s gather buffer, whole share, at contents `f`. -/
def slotPts (c' j : Dev nD) (f : Buf (Elt F) ((slotM j).view.loc (c' : Thread nD τ))) : sProp 𝕄 :=
  (slotM j).view.loc (c' : Thread nD τ) ↦[(slotM j).view.set]{fullShare} f
/-- Share `q` of device `c`'s send buffer, holding its partial sum. -/
def sbufPts (c : Dev nD) (q : PosShare TreeShare) : sProp 𝕄 :=
  (sM : Memref sig .tc .vmem S1x256 .f32).view.loc (c : Thread nD τ) ↦[(sM : Memref sig .tc .vmem S1x256 .f32).view.set]{q} part m ρ c

omit [FloatOps F] in
instance slotPts_storable (c' j : Dev nD) (f) : BI.Storable (upEmb : UEmb _ 𝕄) (slotPts (F := F) c' j f) := by unfold slotPts; infer_instance
instance sbufPts_storable (c : Dev nD) (q) : BI.Storable (upEmb : UEmb _ 𝕄) (sbufPts (F := F) m ρ c q) := by unfold sbufPts; infer_instance

/-! ## The schedule -/

def dutiesOf (c : Dev nD) (sm : SemLoc sig) (r : ℕ) : Finset (Fin 16) :=
  if sm = .reg barS then (if r ≤ 1 then Finset.univ.erase c else ∅)
  else if r ≠ 0 then ∅
  else match sendIdx sm, recvIdx sm with
    | some d, _ => if d = 0 then ∅ else {0}
    | none, some j => if j = c then ∅ else {j}
    | none, none => ∅

def payloadOf (c : Dev nD) (sm : SemLoc sig) (r : ℕ) (d : Fin 16) : sProp 𝕄 :=
  if sm = .reg barS then (if r = 0 then iprop(∃ f, slotPts d c f) else iprop(emp))
  else match sendIdx sm, recvIdx sm with
    | some k, _ => sbufPts m ρ c (pieceShare k.val)
    | none, some j => iprop(slotPts c j (gath m ρ) ∗ reached ER (barCell j) 1)
    | none, none => iprop(emp)

def rd : Rounds.Schedule (GSem nD τ sig) (Fin 16) 𝕄 where
  duties g r := if g.1.2 = .tc then dutiesOf g.1.1 g.2 r else ∅
  unitless _ := False
  amount g _ _ := if g.2 = .reg barS then 1 else N
  payload g r d := payloadOf m ρ g.1.1 g.2 r d
  amount_pos g _ _ _ := by
    by_cases h : g.2 = .reg barS
    · rw [if_pos h]; exact Nat.one_pos
    · rw [if_neg h]; exact N_pos

instance rd_payload_storable (g : GSem nD τ sig) (r : ℕ) (d : Fin 16) :
    BI.Storable (upEmb : UEmb _ 𝕄) ((rd (F := F) m ρ).payload g r d) := by
  show BI.Storable upEmb (payloadOf m ρ g.1.1 g.2 r d)
  unfold payloadOf
  (repeat' split) <;> infer_instance

section Tables
variable (c : Dev nD)

omit [FloatOps F] in
theorem send_ne_bar (d : Fin 16) : (SemLoc.dma (sendS d) : SemLoc sig) ≠ .reg barS := fun h => by cases h
omit [FloatOps F] in
theorem recv_ne_bar (j : Fin 16) : (SemLoc.dma (recvS j) : SemLoc sig) ≠ .reg barS := fun h => by cases h

theorem duties_bar (r : ℕ) (hr : r ≤ 1) : (rd (F := F) m ρ).duties (barCell c) r = Finset.univ.erase c := by
  show (if (Proc.tc : Proc τ) = .tc then dutiesOf c (.reg barS) r else ∅) = _
  rw [if_pos rfl]; unfold dutiesOf; rw [if_pos rfl, if_pos hr]
theorem duties_bar_later (r : ℕ) (hr : 2 ≤ r) : (rd (F := F) m ρ).duties (barCell c) r = ∅ := by
  show (if (Proc.tc : Proc τ) = .tc then dutiesOf c (.reg barS) r else ∅) = _
  rw [if_pos rfl]; unfold dutiesOf; rw [if_pos rfl, if_neg (by omega)]
theorem duties_send (d : Fin 16) (hd : d ≠ 0) : (rd (F := F) m ρ).duties (sendCell c d) 0 = {0} := by
  show (if (Proc.tc : Proc τ) = .tc then dutiesOf c (.dma (sendS d)) 0 else ∅) = _
  rw [if_pos rfl]; unfold dutiesOf; rw [if_neg (send_ne_bar d), if_neg (by simp), sendIdx_send]; exact if_neg hd
theorem duties_send_zero (r : ℕ) : (rd (F := F) m ρ).duties (sendCell c 0) r = ∅ := by
  show (if (Proc.tc : Proc τ) = .tc then dutiesOf c (.dma (sendS 0)) r else ∅) = _
  rw [if_pos rfl]; unfold dutiesOf; rw [if_neg (send_ne_bar 0)]
  by_cases hr : r ≠ 0
  · rw [if_pos hr]
  · rw [if_neg hr, sendIdx_send]; exact if_pos rfl
theorem duties_recv (j : Fin 16) (hj : j ≠ c) : (rd (F := F) m ρ).duties (recvCell c j) 0 = {j} := by
  show (if (Proc.tc : Proc τ) = .tc then dutiesOf c (.dma (recvS j)) 0 else ∅) = _
  rw [if_pos rfl]; unfold dutiesOf; rw [if_neg (recv_ne_bar j), if_neg (by simp), sendIdx_recv, recvIdx_recv]; exact if_neg hj
theorem duties_recv_self (r : ℕ) : (rd (F := F) m ρ).duties (recvCell c c) r = ∅ := by
  show (if (Proc.tc : Proc τ) = .tc then dutiesOf c (.dma (recvS c)) r else ∅) = _
  rw [if_pos rfl]; unfold dutiesOf; rw [if_neg (recv_ne_bar c)]
  by_cases hr : r ≠ 0
  · rw [if_pos hr]
  · rw [if_neg hr, sendIdx_recv, recvIdx_recv]; exact if_pos rfl
theorem duties_dma_later (q : DmaSem sig) (r : ℕ) (hr : 1 ≤ r) : (rd (F := F) m ρ).duties ((c : Thread nD τ), .dma q) r = ∅ := by
  show (if (Proc.tc : Proc τ) = .tc then dutiesOf c (.dma q) r else ∅) = _
  rw [if_pos rfl]; unfold dutiesOf; rw [if_neg (fun h => by cases h), if_pos (by omega)]

theorem amount_bar (r : ℕ) (d : Fin 16) : (rd (F := F) m ρ).amount (barCell c) r d = 1 := by dsimp only [rd]; exact if_pos rfl
theorem amount_send (k : Fin 16) (r : ℕ) (d : Fin 16) : (rd (F := F) m ρ).amount (sendCell c k) r d = N := by dsimp only [rd]; exact if_neg (send_ne_bar k)
theorem amount_recv (j : Fin 16) (r : ℕ) (d : Fin 16) : (rd (F := F) m ρ).amount (recvCell c j) r d = N := by dsimp only [rd]; exact if_neg (recv_ne_bar j)

theorem expect_bar (r : ℕ) (hr : r ≤ 1) : (rd (F := F) m ρ).expect (barCell c) r = 15 := by
  unfold Schedule.expect Schedule.amountOf
  rw [duties_bar m ρ c r hr, Finset.sum_congr rfl fun d _ => amount_bar m ρ c r d, Finset.sum_const, Finset.card_erase_of_mem (Finset.mem_univ _),
    Finset.card_univ, Fintype.card_fin, smul_eq_mul]
theorem expect_send (k : Fin 16) (hk : k ≠ 0) : (rd (F := F) m ρ).expect (sendCell c k) 0 = N := by
  unfold Schedule.expect Schedule.amountOf; rw [duties_send m ρ c k hk, Finset.sum_singleton, amount_send]
theorem expect_recv (j : Fin 16) (hj : j ≠ c) : (rd (F := F) m ρ).expect (recvCell c j) 0 = N := by
  unfold Schedule.expect Schedule.amountOf; rw [duties_recv m ρ c j hj, Finset.sum_singleton, amount_recv]

theorem payload_bar0 (d : Fin 16) : (rd (F := F) m ρ).payload (barCell c) 0 d = iprop(∃ f, slotPts d c f) := by
  show payloadOf m ρ c (.reg barS) 0 d = _; unfold payloadOf; rw [if_pos rfl, if_pos rfl]
theorem payload_bar1 (d : Fin 16) : (rd (F := F) m ρ).payload (barCell c) 1 d = iprop(emp) := by
  show payloadOf m ρ c (.reg barS) 1 d = _; unfold payloadOf; rw [if_pos rfl, if_neg (by decide)]
theorem payload_send (k : Fin 16) (r : ℕ) (d : Fin 16) : (rd (F := F) m ρ).payload (sendCell c k) r d = sbufPts m ρ c (pieceShare k.val) := by
  show payloadOf m ρ c (.dma (sendS k)) r d = _; unfold payloadOf; rw [if_neg (send_ne_bar k), sendIdx_send]
theorem payload_recv (j : Fin 16) (r : ℕ) (d : Fin 16) :
    (rd (F := F) m ρ).payload (recvCell c j) r d = iprop(slotPts c j (gath m ρ) ∗ reached ER (barCell j) 1) := by
  show payloadOf m ρ c (.dma (recvS j)) r d = _; unfold payloadOf; rw [if_neg (recv_ne_bar j), sendIdx_recv, recvIdx_recv]

end Tables

/-! ## What each core owes at launch, in the order it pays; the levels -/

/-- One unit on the `k`-th peer's barrier cell for its entry round (index 0), the copy's credit on that peer's receive
    cell for `c` (index 0), one unit on its barrier cell for its exit round (index 1). -/
def owedE (c : Dev nD) (k : Fin 16) : CellTallies nD τ sig ℕ := tallyAt (barCell (peer c k)) 0 1
def owedS (c : Dev nD) (k : Fin 16) : CellTallies nD τ sig ℕ := tallyAt (recvCell (peer c k) c) 0 N
def owedX (c : Dev nD) (k : Fin 16) : CellTallies nD τ sig ℕ := tallyAt (barCell (peer c k)) 1 1

/-- The peers in the order the kernel addresses them. -/
def ks : List (Fin 16) := [1, 2, 3, 4, 5, 6, 7, 8, 9, 10, 11, 12, 13, 14, 15]

/-- Everything a device pays, in program order: fifteen entry signals, fifteen copies, fifteen exit signals. -/
def dues (c : Dev nD) : List (CellTallies nD τ sig ℕ) := ks.map (owedE c) ++ ks.map (owedS c) ++ ks.map (owedX c)

/-- What is still owed after the first `n` payments. -/
def owedAfter (c : Dev nD) (n : ℕ) : CellTallies nD τ sig ℕ := ((dues c).drop n).sum

def O₀ (c : Dev nD) : CellTallies nD τ sig ℕ := owedAfter c 0

theorem owedAfter_step (c : Dev nD) (n : ℕ) (h : n < 45) : owedAfter c n = owedAfter c (n + 1) + (dues c)[n]'(by simp [dues, ks]; omega) := by
  unfold owedAfter
  rw [List.drop_eq_getElem_cons (by simp [dues, ks]; omega), List.sum_cons, add_comm]
theorem owedAfter_done (c : Dev nD) : owedAfter c 45 = 0 := by
  unfold owedAfter; rw [List.drop_of_length_le (by simp [dues, ks])]; rfl

def L (g : GSem nD τ sig) : Finset ℕ := if g.1.2 = .tc then {0, 1} else ∅
/-- Staging and send cells at 0, a barrier cell's entry round at 1, receive cells at 2, a barrier cell's exit round at 3. -/
def lv (g : GSem nD τ sig) (i : ℕ) : ℕ := if g.2 = .reg barS then (if i = 0 then 1 else 3) else if (recvIdx g.2).isSome then 2 else 0

theorem L_of_ne (g : GSem nD τ sig) (h : g.1.2 ≠ .tc) : L g = ∅ := if_neg h
theorem L_tc (c : Dev nD) (sm : SemLoc sig) : L ((c : Thread nD τ), sm) = {0, 1} := if_pos rfl

end Cert.KernelProof

end
-- ==== Proof.W.Data.lean ====
/-
  The proof data of the one pallas_call: what a device's body starts from and ends with.

  At the start a device holds: every cell's invariant and that round 0 of every cell is reached
  (persistent); its position at round 0 of its own thirty-three cells; the duty tokens it pays with
  (per peer: the peer's barrier duties of both rounds named by this device, the peer's receive duty
  named by this device, its own send duty); the credit its waits consume (fifteen units on its
  barrier cell, a copy's credit on each receive cell another device pays); its two scratch buffers.
  At the end: the two scratch buffers and its thirty-two own semaphores at zero.
-/
import proofs.«901090_g7700000000001091_dist_sum_ax0_shard0_i_m512_n256_v7x_i16_f32_1_alg».proof.Proof.W.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev CellIx : Type := Option (Fin 16 ⊕ Fin 16)

/-- Every cell's invariant, under the names `K` the launch allocated them at, and that round 0 of each is reached. -/
def records (K : Dev nD × CellIx → ℕ) : sProp 𝕄 :=
  iprop((bigSep Finset.univ fun ck : Dev nD × CellIx => cellInv ER (rd m ρ) (K ck) (kcell ck))
    ∗ bigSep Finset.univ fun ck : Dev nD × CellIx => reached ER (kcell ck) 0)

instance records_persistent (K : Dev nD × CellIx → ℕ) : BI.Persistent (records m ρ K) := by unfold records; infer_instance

/-- What device `c` holds for its `k`-th peer: the three tokens of the duties it pays on that peer's cells, the token of its own
    `k`-th send cell's duty, and its positions on its `k`-th send cell and on the receive cell that peer pays.
    (At `k = 0` the peer is the device itself: no duty, the positions are of two cells nobody pays.) -/
def perPeer (c : Dev nD) (k : Fin 16) : sProp 𝕄 :=
  iprop(dutyTok ER (barCell (peer c k)) 0 c ∗ dutyTok ER (recvCell (peer c k) c) 0 c ∗ dutyTok ER (barCell (peer c k)) 1 c
    ∗ dutyTok ER (sendCell c k) 0 0
    ∗ atPos ER (sendCell c k) 0 ∅ 0 ∗ atPos ER (recvCell c (peer c k)) 0 ∅ 0)

/-- The credit of device `c`'s waits: fifteen units on its barrier cell, a copy's credit on each receive cell a peer pays. -/
def credits (c : Dev nD) : sProp 𝕄 :=
  iprop(cred (tallyAt (barCell c) 0 15) ∗ bigSep (Finset.univ.erase (0 : Fin 16)) fun k => cred (tallyAt (recvCell c (peer c k)) 0 N))

/-- The protocol's ghost state device `c` starts from. -/
def ghost (K : Dev nD × CellIx → ℕ) (c : Dev nD) : sProp 𝕄 :=
  iprop(records m ρ K ∗ atPos ER (barCell c) 0 ∅ 0 ∗ bigSep Finset.univ (perPeer c))

/-- What device `c`'s body starts from, its scratch buffers apart. -/
def start (c : Dev nD) : sProp 𝕄 :=
  iprop((∃ K, ghost m ρ K c) ∗ credits c ∗ levAts L lv)

/-- Its two scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the point: the scratch buffers and the thirty-two own semaphores at zero (the barrier semaphore is the runtime's). -/
def Φ₁ (c : Dev nD) : sProp 𝕄 := iprop(scratch c ∗ bigSep Finset.univ fun k : Fin 16 ⊕ Fin 16 => semVal ((c : Thread nD τ), osem k) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from, the ghost state's names fixed. -/
def bodyPre (K : Dev nD × CellIx → ℕ) (c : Dev nD) : sProp 𝕄 :=
  iprop((ghost m ρ K c ∗ credits c ∗ levAts L lv ∗ scratch c)
    ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt 0 t₀.succ ∗ stg c cc0_stg0_0 (xstg m ρ c) ∗ stg c cc0_stg1_0 (outAt m ρ))

end Cert.KernelProof

end
-- ==== Proof.W.Landing.lean ====
/-
  The gather buffer by slots and the send buffer by shares.

  A gather buffer's sixteen slots partition its elements, so the whole buffer is its slots side by
  side; the full share of the send buffer is sixteen pieces and a rest, one piece per copy in
  flight. A device's own store into its slot, and a peer's copy landing in the slot of that peer,
  both leave the slot holding what the final gather buffer holds there.
-/
import proofs.«901090_g7700000000001091_dist_sum_ax0_shard0_i_m512_n256_v7x_i16_f32_1_alg».proof.Proof.W.Sched
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The rectangle of slot `c` as the device's own load and store address it. -/
abbrev ownRect (c : Dev nD) : Rect S16x1x256 := Rect.unit (s := S16x1x256) (k0_off1 c) S1x1x256.size (k0_off1_inb c)

/-- The rectangle of slot `j` as the slot's memref addresses it. -/
abbrev slotRect (j : Dev nD) : Rect S16x1x256 := Rect.unit (s := S16x1x256) (k0_off3 j) S1x1x256.size (k0_off3_inb j)

omit [FloatOps F] in
/-- Unit rectangles of equal offsets and sizes are equal. -/
theorem unit_congr {s : Shape} {off off' size : Fin s.rank → Nat} (h : off = off') (inb : ∀ a, off a + size a ≤ s.size a)
    (inb' : ∀ a, off' a + size a ≤ s.size a) : Rect.unit off size inb = Rect.unit off' size inb' := by
  subst h; rfl

omit [FloatOps F] in
/-- Both spellings of slot `c`'s offsets are `(c, 0, 0)`. -/
theorem ownRect_eq (c : Dev nD) : ownRect c = slotRect c :=
  unit_congr ((k0_off1_eq c).trans (k0_off3_eq c).symm) _ _

omit [FloatOps F] in
/-- A slot's elements are its rectangle's, placed in the gather buffer. -/
theorem slot_set (j : Dev nD) : (slotM j).view.set = (slotRect j).set.map (gM : Memref sig .tc .vmem S16x1x256 .f32).view.emb := by
  show (((gM : Memref sig .tc .vmem S16x1x256 .f32).view.slice (slotRect j)).reshape S1x256 _).set = _
  rw [View.set_reshape, View.set_slice]

/-- The elements the own store writes are the slot's. -/
theorem own_store_set (c : Dev nD) :
    ((gM : Memref sig .tc .vmem S16x1x256 .f32).access (ownRect c)).setOn Finset.univ = (slotM c).view.set := by
  rw [slot_set, ← ownRect_eq, View.setOn_univ, View.set_slice]
/-- The elements the own load reads are the slot's. -/
theorem own_load_set (c : Dev nD) :
    (gM : Memref sig .tc .vmem S16x1x256 .f32).view.setOn (ownRect c).toLoadRect.set = (slotM c).view.set := by
  rw [slot_set, ← ownRect_eq]; rfl

omit [FloatOps F] in
theorem own_emb_val (c : Dev nD) (x : S1x1x256.Idx) (a : Fin 3) :
    ((((gM : Memref sig .tc .vmem S16x1x256 .f32).access (ownRect c)).emb x : S16x1x256.Idx) a : ℕ)
      = (![c.val, 0, 0] : Fin 3 → ℕ) a + (x a : ℕ) := by
  show k0_off1 c a + 1 * _ = _
  rw [congrFun (k0_off1_eq c) a, Nat.one_mul]

omit [FloatOps F] in
theorem own_emb0 (c : Dev nD) (x : S1x1x256.Idx) :
    ((((gM : Memref sig .tc .vmem S16x1x256 .f32).access (ownRect c)).emb x : S16x1x256.Idx) 0 : ℕ) = c.val := by
  rw [own_emb_val]
  have h : ((x 0 : Fin 1) : ℕ) < 1 := Fin.isLt _
  show c.val + ((x 0 : Fin 1) : ℕ) = c.val
  omega

omit [FloatOps F] in
theorem own_emb2 (c : Dev nD) (x : S1x1x256.Idx) :
    ((((gM : Memref sig .tc .vmem S16x1x256 .f32).access (ownRect c)).emb x : S16x1x256.Idx) 2 : ℕ) = ((x 2 : Fin 256) : ℕ) := by
  rw [own_emb_val]
  show 0 + ((x 2 : Fin 256) : ℕ) = ((x 2 : Fin 256) : ℕ)
  omega

/-- The partial sum reshaped to one slot reads as the partial sum itself. -/
theorem pay3_eq (v : Vec F S512x256 .f32) (x : S1x1x256.Idx) :
    k0_pay3 v x = k0_pay2 v (ValueIdx.ix2 (0 : Fin 1) (show Fin 256 from x 2)) := by
  show shapeCast S1x1x256 (k0_pay1 v) shapeCasts_S1x256_S1x1x256 x = shapeCast S1x256 (k0_pay1 v) shapeCasts_S1x256_S1x256 _
  rw [shapeCast_self, shapeCast_addUnit_apply]
  congr 1
  funext a
  match a with
  | ⟨0, _⟩ => exact Fin.ext (by have h : ((x 1 : Fin 1) : ℕ) < 1 := Fin.isLt _; show ((x 1 : Fin 1) : ℕ) = 0; omega)
  | ⟨1, _⟩ => rfl

/-- A device's own store of its partial sum leaves its slot as the final gather buffer has it. -/
theorem stored_eq (c : Dev nD) (f : Buf (Elt F) ((c : Thread nD τ).loc cc0_scratch1)) :
    ∀ i ∈ (slotM c).view.set,
      ((gM : Memref sig .tc .vmem S16x1x256 .f32).access (ownRect c)).write (Elt F) f (k0_pay3 (xstg m ρ c)) Finset.univ i = gath m ρ i := by
  intro i hi
  rw [← own_store_set, View.setOn_univ] at hi
  obtain ⟨x, rfl⟩ := View.exists_emb_of_mem_set _ hi
  rw [View.write_emb_of_mem _ _ (Finset.mem_univ x)]
  have h0 : (show Fin 16 from (((gM : Memref sig .tc .vmem S16x1x256 .f32).access (ownRect c)).emb x : S16x1x256.Idx) 0) = c :=
    Fin.ext (own_emb0 c x)
  have h2 : (show Fin 256 from (((gM : Memref sig .tc .vmem S16x1x256 .f32).access (ownRect c)).emb x : S16x1x256.Idx) 2) = (show Fin 256 from x 2) :=
    Fin.ext (own_emb2 c x)
  unfold gath part
  rw [h0, h2, ← pay3_eq]
  rfl

omit [FloatOps F] in
theorem slot_emb_val (j : Dev nD) (y : S1x256.Idx) (a : Fin 3) :
    (((slotM j).view.emb y : S16x1x256.Idx) a : ℕ)
      = (![j.val, 0, 0] : Fin 3 → ℕ) a + ((Shape.reshapeEquiv (s := S1x1x256) (s' := S1x256) squeezes_S1x1x256_S1x256.numel_eq y) a : ℕ) := by
  show k0_off3 j a + 1 * _ = _
  rw [congrFun (k0_off3_eq j) a, Nat.one_mul]
  rfl

omit [FloatOps F] in
theorem slot_emb0 (j : Dev nD) (y : S1x256.Idx) : (((slotM j).view.emb y : S16x1x256.Idx) 0 : ℕ) = j.val := by
  rw [slot_emb_val]
  have h : ((Shape.reshapeEquiv (s := S1x1x256) (s' := S1x256) squeezes_S1x1x256_S1x256.numel_eq y) 0 : ℕ) < 1 := Fin.isLt _
  show j.val + _ = j.val
  omega

omit [FloatOps F] in
theorem slot_emb2 (j : Dev nD) (y : S1x256.Idx) : (((slotM j).view.emb y : S16x1x256.Idx) 2 : ℕ) = (y 1).val := by
  rw [slot_emb_val, Shape.reshapeEquiv_cons_one]
  show 0 + (y 1).val = (y 1).val
  omega

theorem gath_slot (j : Dev nD) (y : S1x256.Idx) : gath m ρ ((slotM j).view.emb y) = part m ρ j y := by
  have h0 : (show Fin 16 from ((slotM j).view.emb y : S16x1x256.Idx) 0) = j := Fin.ext (slot_emb0 j y)
  have h2 : ValueIdx.ix2 (0 : Fin 1) (show Fin 256 from ((slotM j).view.emb y : S16x1x256.Idx) 2) = y := by
    funext a
    match a with
    | ⟨0, _⟩ => exact Fin.ext (by have h : ((y 0 : Fin 1) : ℕ) < 1 := Fin.isLt _; show 0 = ((y 0 : Fin 1) : ℕ); omega)
    | ⟨1, _⟩ => exact Fin.ext (slot_emb2 j y)
  unfold gath
  rw [h0, h2]

/-- Device `j`'s copy of its send buffer, landed in slot `j` of device `c'`'s gather buffer, leaves that slot as the final gather buffer has it. -/
theorem landed_eq (c' j : Dev nD) (fd : Buf (Elt F) ((slotM j).view.loc (c' : Thread nD τ))) :
    ∀ i ∈ (slotM j).view.set,
      (slotM j).view.write (Elt F) fd ((sM : Memref sig .tc .vmem S1x256 .f32).view.read (Elt F) (part m ρ j)) Finset.univ i = gath m ρ i := by
  intro i hi
  obtain ⟨y, rfl⟩ := View.exists_emb_of_mem_set _ hi
  rw [View.write_emb_of_mem _ _ (Finset.mem_univ y), gath_slot]
  rfl

omit [FloatOps F] in
theorem mem_slot_set (j : Dev nD) (i : S16x1x256.Idx) : i ∈ (slotM j).view.set ↔ (i 0 : ℕ) = j.val := by
  rw [slot_set]
  show i ∈ (slotRect j).set.map (Function.Embedding.refl _) ↔ _
  rw [Finset.map_refl, Rect.mem_set_unit]
  have h1 : (i 1 : ℕ) < 1 := (i 1).isLt
  have h2 : (i 2 : ℕ) < 256 := (i 2).isLt
  have e0 := congrFun (k0_off3_eq j) 0
  have e1 := congrFun (k0_off3_eq j) 1
  have e2 := congrFun (k0_off3_eq j) 2
  constructor
  · intro h
    have h0 := h 0
    rw [e0] at h0
    have h0' : j.val ≤ (i 0 : ℕ) ∧ (i 0 : ℕ) < j.val + 1 := h0
    omega
  · intro h a
    match a with
    | ⟨0, _⟩ =>
      show k0_off3 j 0 ≤ (i 0 : ℕ) ∧ (i 0 : ℕ) < k0_off3 j 0 + 1
      rw [e0]; show j.val ≤ (i 0 : ℕ) ∧ (i 0 : ℕ) < j.val + 1; omega
    | ⟨1, _⟩ =>
      show k0_off3 j 1 ≤ (i 1 : ℕ) ∧ (i 1 : ℕ) < k0_off3 j 1 + 1
      rw [e1]; show 0 ≤ (i 1 : ℕ) ∧ (i 1 : ℕ) < 0 + 1; omega
    | ⟨2, _⟩ =>
      show k0_off3 j 2 ≤ (i 2 : ℕ) ∧ (i 2 : ℕ) < k0_off3 j 2 + 256
      rw [e2]; show 0 ≤ (i 2 : ℕ) ∧ (i 2 : ℕ) < 0 + 256; omega

/-- The sixteen offsets from a device are the sixteen devices. -/
def peerEquivL (c : Dev nD) : Fin 16 ≃ Dev nD where
  toFun := peer c
  invFun j := (show Fin 16 from j) - (show Fin 16 from c)
  left_inv := by revert c; decide
  right_inv := by revert c; decide

/-- The whole gather buffer is its sixteen slots, listed from the device's own by offset. -/
theorem gbuf_split (c : Dev nD) (f : Buf (Elt F) ((c : Thread nD τ).loc cc0_scratch1)) :
    ((((c : Thread nD τ).loc cc0_scratch1) ↦{fullShare} f : sProp 𝕄)) = bigSep Finset.univ fun k : Fin 16 => slotPts c (peer c k) f := by
  have hcov : (Finset.univ : Finset (Idx ((c : Thread nD τ).loc cc0_scratch1)))
      = (Finset.univ : Finset (Dev nD)).biUnion fun j => (slotM j).view.set := by
    ext i
    simp only [Finset.mem_univ, Finset.mem_biUnion, true_and, true_iff]
    exact ⟨(show Fin 16 from (show S16x1x256.Idx from i) 0), (mem_slot_set _ _).mpr rfl⟩
  have hdisj : ∀ j ∈ (Finset.univ : Finset (Dev nD)), ∀ j' ∈ (Finset.univ : Finset (Dev nD)), j ≠ j' →
      Disjoint (slotM j).view.set (slotM j').view.set := by
    intro j _ j' _ hne
    rw [Finset.disjoint_left]
    intro i hi hi'
    exact hne (Fin.ext (((mem_slot_set j i).mp hi).symm.trans ((mem_slot_set j' i).mp hi')))
  rw [hcov, pointsTo_biUnion _ _ hdisj, bigSep_univ_equiv (peerEquivL c)]
  rfl

/-- A full share of any elements is its first n pieces and the rest. -/
theorem share_pieces {ℓ : Loc nD τ sig} (I : Finset (Idx ℓ)) (f : Buf (Elt F) ℓ) (n : ℕ) :
    (ℓ ↦[I]{fullShare} f : sProp 𝕄)
      = iprop((bigSep (Finset.range n) fun k => (ℓ ↦[I]{pieceShare k} f : sProp 𝕄)) ∗ ℓ ↦[I]{restShare n} f) := by
  induction n with
  | zero =>
    rw [Finset.range_zero, bigSep_empty]
    exact (BI.equiv_iff.mp (BI.emp_sep (P := (ℓ ↦[I]{restShare 0} f : sProp 𝕄)))).symm
  | succ n ih =>
    have h : (ℓ ↦[I]{restShare n} f : sProp 𝕄) ⊣⊢ iprop((ℓ ↦[I]{(restShare n).left} f) ∗ ℓ ↦[I]{(restShare n).right} f) :=
      pointsTo_share (PosShare.mem_left_op_right (restShare n))
    have hs : (ℓ ↦[I]{restShare n} f : sProp 𝕄) = iprop((ℓ ↦[I]{pieceShare n} f) ∗ ℓ ↦[I]{restShare (n + 1)} f) :=
      BI.equiv_iff.mp ⟨h.1, h.2⟩
    rw [Finset.range_add_one, bigSep_insert Finset.notMem_range_self, ih, hs]
    have h' := (sep_left_comm (P := bigSep (Finset.range n) fun k => (ℓ ↦[I]{pieceShare k} f : sProp 𝕄))
      (Q := (ℓ ↦[I]{pieceShare n} f : sProp 𝕄)) (R := (ℓ ↦[I]{restShare (n + 1)} f : sProp 𝕄))).trans sep_assoc.symm
    exact BI.equiv_iff.mp ⟨h'.1, h'.2⟩

omit [FloatOps F] in
/-- The numbers below n are the values of `Fin n`. -/
theorem range_eq_map_val (n : ℕ) : Finset.range n = (Finset.univ : Finset (Fin n)).map Fin.valEmbedding := by
  ext x
  rw [Finset.mem_range, Finset.mem_map]
  exact ⟨fun h => ⟨⟨x, h⟩, Finset.mem_univ _, rfl⟩, fun ⟨a, _, h⟩ => h ▸ a.isLt⟩

/-- The whole send buffer at the device's partial sum is its sixteen pieces and the rest. -/
theorem sbuf_split (c : Dev nD) :
    ((((c : Thread nD τ).loc cc0_scratch0) ↦{fullShare} part m ρ c : sProp 𝕄))
      ⊣⊢ iprop((bigSep Finset.univ fun k : Fin 16 => sbufPts m ρ c (pieceShare k.val)) ∗ sbufPts m ρ c (restShare 16)) := by
  have heq : ((((c : Thread nD τ).loc cc0_scratch0) ↦{fullShare} part m ρ c : sProp 𝕄))
      = iprop((bigSep Finset.univ fun k : Fin 16 => sbufPts m ρ c (pieceShare k.val)) ∗ sbufPts m ρ c (restShare 16)) := by
    rw [share_pieces (F := F) (ℓ := (c : Thread nD τ).loc cc0_scratch0) Finset.univ (part m ρ c) 16, range_eq_map_val, bigSep_map]
    unfold sbufPts
    rw [View.set_whole]
    rfl
  rw [heq]

end Cert.KernelProof

end
-- ==== Proof.W.Rules.lean ====
/-
  The protocol's five remote steps and the barrier wait, each as one rule at the schedule's cells.

  Payments are numbered in program order: 0..14 the entry signals to peers 1..15, 15..29 the copies,
  30..44 the exit signals; `owedAfter c a` is what device c still owes after its first a payments.
-/
import proofs.«901090_g7700000000001091_dist_sum_ax0_shard0_i_m512_n256_v7x_i16_f32_1_alg».proof.Proof.W.Data
import proofs.«901090_g7700000000001091_dist_sum_ax0_shard0_i_m512_n256_v7x_i16_f32_1_alg».proof.Proof.W.Landing

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

section Rules
variable (K : Dev nD × CellIx → ℕ) (c : Dev nD)

/-! The payments by position: the `a`-th is the entry signal, the copy, the exit signal to the peer at the matching offset. -/

omit [FloatOps F] in
theorem dues_lt (a : ℕ) (h : a < 45) : a < (dues c).length := by simp [dues, ks]; omega

omit [FloatOps F] in
theorem dues_entry (k : Fin 16) (a : ℕ) (hk : k.val = a + 1) : (dues c)[a]'(dues_lt c a (by omega)) = owedE c k := by
  obtain ⟨kv, hkv⟩ := k
  simp only at hk
  subst hk
  have ha : a < 15 := by omega
  interval_cases a <;> rfl

omit [FloatOps F] in
theorem dues_copy (k : Fin 16) (a : ℕ) (hk : 15 + k.val = a + 1) (hk0 : k ≠ 0) : (dues c)[a]'(dues_lt c a (by omega)) = owedS c k := by
  obtain ⟨kv, hkv⟩ := k
  have h0 : kv ≠ 0 := fun h => hk0 (Fin.ext h)
  simp only at hk
  obtain ⟨b, rfl⟩ : ∃ b, kv = b + 1 := ⟨kv - 1, by omega⟩
  have ha : a = 15 + b := by omega
  subst ha
  have hb : b < 15 := by omega
  interval_cases b <;> rfl

omit [FloatOps F] in
theorem dues_exit (k : Fin 16) (a : ℕ) (hk : 30 + k.val = a + 1) (hk0 : k ≠ 0) : (dues c)[a]'(dues_lt c a (by omega)) = owedX c k := by
  obtain ⟨kv, hkv⟩ := k
  have h0 : kv ≠ 0 := fun h => hk0 (Fin.ext h)
  simp only at hk
  obtain ⟨b, rfl⟩ : ∃ b, kv = b + 1 := ⟨kv - 1, by omega⟩
  have ha : a = 30 + b := by omega
  subst ha
  have hb : b < 15 := by omega
  interval_cases b <;> rfl

/-- The entry signal to the `k`-th peer: payment `a`, one unit on that peer's barrier cell for its entry round, handing the
    peer the right to write its slot of this device's gather buffer. -/
theorem wp_entry (k : Fin 16) (a a' : ℕ) (ha : a' = a + 1) (hk : k.val = a') (p : Dev nD) (hp : p = peer c k) (n : ℕ) (hn : n = 1)
    {α : Type} {Q : α → sProp 𝕄} {kk : PUnit → Prog (TpuEff nD τ sig (Elt F) Λ₀ .tc) α} (W : Waits sig ℕ) :
    iprop(cellInv ER (rd m ρ) (K (peer c k, none)) (barCell (peer c k))
        ∗ owes (c : Thread nD τ) (owedAfter c a) W
        ∗ dutyTok ER (barCell (peer c k)) 0 c
        ∗ (∃ f, slotPts c (peer c k) f)
        ∗ reached ER (barCell (peer c k)) 0)
      ⊢ iprop((owes (c : Thread nD τ) (owedAfter c a') W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (p : Thread nD τ) barS n) kk) Q) := by
  subst hp hn ha
  have hk0 : k ≠ 0 := fun h => by rw [h] at hk; exact absurd hk (by simp)
  have hO : owedAfter c a = owedAfter c (a + 1) + tallyAt (barCell (peer c k)) 0 1 := by
    rw [owedAfter_step c a (by omega), dues_entry c k a hk]; rfl
  rw [← payload_bar0 m ρ (peer c k) c]
  exact Rounds.wp_signal 𝒱₀ ER (rd m ρ) (c : Thread nD τ) none (dst := (peer c k : Thread nD τ)) (sem := barS) (κ := K (peer c k, none))
    (r := 0) (d := c) (by rw [duties_bar m ρ (peer c k) 0 (by omega)]; exact Finset.mem_erase.mpr ⟨(peer_ne c k hk0).symm, Finset.mem_univ _⟩)
    (amount_bar m ρ (peer c k) 0 c) 0 (owedAfter c (a + 1)) hO (W := W)

/-! What is still owed from the copies on, cell by cell, and the levels. -/

omit [FloatOps F] in
theorem list_sum_pos {l : List (CellTallies nD τ sig ℕ)} {g : GSem nD τ sig} {i : ℕ} (h : 0 < l.sum g i) : ∃ t ∈ l, 0 < t g i := by
  induction l with
  | nil => simp at h
  | cons t l ih =>
    rw [List.sum_cons] at h
    rcases Pipeline.add_pos_cases h with h | h
    · exact ⟨t, List.mem_cons_self, h⟩
    · obtain ⟨t', ht', h'⟩ := ih h; exact ⟨t', List.mem_cons_of_mem _ ht', h'⟩

omit [FloatOps F] in
/-- After the thirty first payments only exit signals are owed: units on peers' barrier cells at index 1. -/
theorem owed30_pos (g : GSem nD τ sig) (i : ℕ) (h : 0 < owedAfter c 30 g i) : ∃ k : Fin 16, g = barCell (peer c k) ∧ i = 1 := by
  unfold owedAfter at h
  rw [show (dues c).drop 30 = ks.map (owedX c) from rfl] at h
  obtain ⟨t, ht, hpos⟩ := list_sum_pos h
  obtain ⟨k, -, rfl⟩ := List.mem_map.mp ht
  exact ⟨k, Pipeline.tallyAt_pos hpos⟩

omit [FloatOps F] in
/-- After the fifteen entry signals: copies' credits on peers' receive cells at index 0, and the exit signals. -/
theorem owed15_pos (g : GSem nD τ sig) (i : ℕ) (h : 0 < owedAfter c 15 g i) :
    (∃ k : Fin 16, g = recvCell (peer c k) c ∧ i = 0) ∨ ∃ k : Fin 16, g = barCell (peer c k) ∧ i = 1 := by
  unfold owedAfter at h
  rw [show (dues c).drop 15 = ks.map (owedS c) ++ ks.map (owedX c) from rfl] at h
  obtain ⟨t, ht, hpos⟩ := list_sum_pos h
  rcases List.mem_append.mp ht with ht | ht
  · obtain ⟨k, -, rfl⟩ := List.mem_map.mp ht
    exact Or.inl ⟨k, Pipeline.tallyAt_pos hpos⟩
  · obtain ⟨k, -, rfl⟩ := List.mem_map.mp ht
    exact Or.inr ⟨k, Pipeline.tallyAt_pos hpos⟩

omit [FloatOps F] in
theorem lv_bar (d : Dev nD) (i : ℕ) : lv (barCell d) i = if i = 0 then 1 else 3 := by
  show (if (SemLoc.reg barS : SemLoc sig) = .reg barS then (if i = 0 then 1 else 3) else _) = _
  rw [if_pos rfl]
omit [FloatOps F] in
theorem lv_recv (d : Dev nD) (j : Fin 16) (i : ℕ) : lv (recvCell d j) i = 2 := by
  show (if (SemLoc.dma (recvS j) : SemLoc sig) = .reg barS then _ else if (recvIdx (SemLoc.dma (recvS j) : SemLoc sig)).isSome then 2 else 0) = 2
  rw [if_neg (recv_ne_bar j), recvIdx_recv]; rfl
omit [FloatOps F] in
theorem lv_send (d : Dev nD) (k : Fin 16) (i : ℕ) : lv (sendCell d k) i = 0 := by
  show (if (SemLoc.dma (sendS k) : SemLoc sig) = .reg barS then _ else if (recvIdx (SemLoc.dma (sendS k) : SemLoc sig)).isSome then 2 else 0) = 0
  rw [if_neg (send_ne_bar k), recvIdx_send]; rfl

omit [FloatOps F] in
theorem mem_L (d : Dev nD) (sm : SemLoc sig) (i : ℕ) (hi : i = 0 ∨ i = 1) : i ∈ L ((d : Thread nD τ), sm) := by
  rw [L_tc]; rcases hi with rfl | rfl <;> simp

/-- The barrier wait's cell at index 0 (level 1) is below the copies' receive cells (2) and the exit units (3). -/
theorem mayWait_bar : (levAts L lv : sProp 𝕄) ⊢ MayWait (c : Thread nD τ) (.reg barS) 0 (owedAfter c 15) :=
  Pipeline.mayWait_of_levAts (mem_L c _ 0 (Or.inl rfl)) fun g i h => by
    rcases owed15_pos c g i h with ⟨k, rfl, rfl⟩ | ⟨k, rfl, rfl⟩
    · exact ⟨mem_L _ _ 0 (Or.inl rfl), by rw [lv_bar, lv_recv]; decide⟩
    · exact ⟨mem_L _ _ 1 (Or.inr rfl), by rw [lv_bar, lv_bar]; decide⟩
/-- A receive cell (level 2) and a send cell (level 0) are below the exit units (3). -/
theorem mayWait_recv (j : Fin 16) : (levAts L lv : sProp 𝕄) ⊢ MayWait (c : Thread nD τ) (.dma (recvS j)) 0 (owedAfter c 30) :=
  Pipeline.mayWait_of_levAts (mem_L c _ 0 (Or.inl rfl)) fun g i h => by
    obtain ⟨k, rfl, rfl⟩ := owed30_pos c g i h
    exact ⟨mem_L _ _ 1 (Or.inr rfl), by rw [lv_recv, lv_bar]; decide⟩
theorem mayWait_send (k : Fin 16) : (levAts L lv : sProp 𝕄) ⊢ MayWait (c : Thread nD τ) (.dma (sendS k)) 0 (owedAfter c 30) :=
  Pipeline.mayWait_of_levAts (mem_L c _ 0 (Or.inl rfl)) fun g i h => by
    obtain ⟨k', rfl, rfl⟩ := owed30_pos c g i h
    exact ⟨mem_L _ _ 1 (Or.inr rfl), by rw [lv_send, lv_bar]; decide⟩

/-! The rest of a round as the wait returns it. -/

theorem rest_send (k : Fin 16) (hk0 : k ≠ 0) :
    (bigSep ((rd (F := F) m ρ).duties (sendCell c k) 0 \ ∅) fun d => (rd m ρ).payload (sendCell c k) 0 d) = sbufPts m ρ c (pieceShare k.val) := by
  rw [Finset.sdiff_empty, duties_send m ρ c k hk0, bigSep_singleton, payload_send]
theorem rest_recv (j : Fin 16) (hj : j ≠ c) :
    (bigSep ((rd (F := F) m ρ).duties (recvCell c j) 0 \ ∅) fun d => (rd m ρ).payload (recvCell c j) 0 d)
      = iprop(slotPts c j (gath m ρ) ∗ reached ER (barCell j) 1) := by
  rw [Finset.sdiff_empty, duties_recv m ρ c j hj, bigSep_singleton, payload_recv]

omit [FloatOps F] in
theorem exists_peer (d : Dev nD) : ∃ k : Fin 16, peer c k = d := by revert c d; decide
omit [FloatOps F] in
/-- The other devices are the peers at the non-zero offsets. -/
theorem peers_erase : (Finset.univ.erase (0 : Fin 16)).map ⟨fun k => peer c k, fun k k' h => peer_inj c k k' h⟩ = Finset.univ.erase c := by
  ext d
  simp only [Finset.mem_map, Finset.mem_erase, Finset.mem_univ, and_true, Function.Embedding.coeFn_mk]
  constructor
  · rintro ⟨k, hk, rfl⟩; exact peer_ne c k hk
  · intro hd
    obtain ⟨k, rfl⟩ := exists_peer c d
    exact ⟨k, fun h => hd (by rw [h, peer_zero]), rfl⟩
theorem rest_bar :
    (bigSep ((rd (F := F) m ρ).duties (barCell c) 0 \ ∅) fun d => (rd m ρ).payload (barCell c) 0 d)
      = bigSep (Finset.univ.erase (0 : Fin 16)) fun k => iprop(∃ f, slotPts (peer c k) c f) := by
  rw [Finset.sdiff_empty, duties_bar m ρ c 0 (by omega), bigSep_congr fun d _ => payload_bar0 m ρ c d, ← peers_erase c, bigSep_map]
  rfl

/-- The wait for the fifteen entry units, owing the copies and the exit signals: every peer's slot for this device comes with it. -/
theorem wp_bar_wait (n : ℕ) (hn : n = 15)
    {α : Type} {Q : α → sProp 𝕄} {kk : PUnit → Prog (TpuEff nD τ sig (Elt F) Λ₀ .tc) α} (W : Waits sig ℕ) :
    iprop(cellInv ER (rd m ρ) (K (c, none)) (barCell c) ∗ cred (tallyAt (barCell c) 0 15) ∗ owes (c : Thread nD τ) (owedAfter c 15) W
        ∗ levAts L lv ∗ atPos ER (barCell c) 0 ∅ 0)
      ⊢ iprop(((owes (c : Thread nD τ) (owedAfter c 15) (insert (SemLoc.reg barS, 0) W) ∗ atPos ER (barCell c) 1 ∅ 0 ∗ reached ER (barCell c) 1
              ∗ bigSep (Finset.univ.erase (0 : Fin 16)) fun k => iprop(∃ f, slotPts (peer c k) c f))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS n) kk) Q) := by
  subst hn
  rw [← rest_bar m ρ c]
  refine (sep_mono_right (sep_mono_right (sep_mono_right (sep_mono_left (mayWait_bar c))))).trans ?_
  exact Rounds.wp_wait_rest_token 𝒱₀ ER (rd m ρ) (c : Thread nD τ) none (κ := K (c, none))
    (wpE_semWait_eq 𝒱₀ (c : Thread nD τ) none Set.univ) (Set.mem_univ _) 0 (O := owedAfter c 15) (W := W) (R := 0) (m := 0) (T := ∅)
    (by rw [expect_bar m ρ c 0 (by omega)])

/-- The copy to the `k`-th peer: payment `a`, share `k` of the send buffer lent until the departure, the peer's slot for this device
    rewritten to this device's partial sum at the arrival, with the fact that this device has finished its barrier cell's entry round. -/
theorem wp_copy (k : Fin 16) (hk0 : k ≠ 0) (a a' : ℕ) (ha : a' = a + 1) (hk : 15 + k.val = a') (p : Dev nD) (hp : p = peer c k)
    (qs qr : DmaSem sig) (hqs : qs = sendS k) (hqr : qr = recvS c)
    {hsc : (slotM c : Memref sig (Dev.tc p : Thread nD τ).2.kind .vmem S1x256 .f32).view.ref.isScScratch = false}
    {hsrc : (sM : Memref sig .tc .vmem S1x256 .f32).view.WordExact} {hdst : (slotM c : Memref sig .tc .vmem S1x256 .f32).view.WordExact}
    {hsem : DmaTarget.Typed .vmem (.dma qr) (.remote (Dev.tc p : Thread nD τ) (slotM c : Memref sig .tc .vmem S1x256 .f32) (.dma qs) hsc)}
    {α : Type} {Q : α → sProp 𝕄} {kk : PUnit → Prog (TpuEff nD τ sig (Elt F) Λ₀ .tc) α}
    (fd : Buf (Elt F) ((slotM c).view.loc (peer c k : Thread nD τ))) (W : Waits sig ℕ) :
    iprop(cellInv ER (rd m ρ) (K (c, some (.inl k))) (sendCell c k) ∗ cellInv ER (rd m ρ) (K (peer c k, some (.inr c))) (recvCell (peer c k) c)
        ∗ sbufPts m ρ c (pieceShare k.val) ∗ slotPts (peer c k) c fd
        ∗ owes (c : Thread nD τ) (owedAfter c a) W
        ∗ dutyTok ER (sendCell c k) 0 0 ∗ reached ER (sendCell c k) 0
        ∗ dutyTok ER (recvCell (peer c k) c) 0 c ∗ reached ER (recvCell (peer c k) c) 0
        ∗ reached ER (barCell c) 1)
      ⊢ iprop(((cred (tallyAt (sendCell c k) 0 N) ∗ owes (c : Thread nD τ) (owedAfter c a') W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sM (.remote (Dev.tc p : Thread nD τ) (slotM c) (.dma qs) hsc) (.dma qr) hsrc hdst hsem) kk) Q) := by
  subst hp hqs hqr ha
  have hO : owedAfter c a = owedAfter c (a + 1) + tallyAt (recvCell (peer c k) c) 0 N := by
    rw [owedAfter_step c a (by omega), dues_copy c k a hk hk0]; rfl
  have hd₁ : (0 : Fin 16) ∈ (rd (F := F) m ρ).duties (sendCell c k) 0 := by
    rw [duties_send m ρ c k hk0]; exact Finset.mem_singleton_self _
  have hd₂ : c ∈ (rd (F := F) m ρ).duties (recvCell (peer c k) c) 0 := by
    rw [duties_recv m ρ (peer c k) c (peer_ne c k hk0).symm]; exact Finset.mem_singleton_self _
  have hpay₁ : ((sM : Memref sig .tc .vmem S1x256 .f32).view.loc (c : Thread nD τ) ↦[(sM : Memref sig .tc .vmem S1x256 .f32).view.set]{pieceShare k.val} part m ρ c : sProp 𝕄)
      ⊢ (rd m ρ).payload (sendCell c k) 0 0 := by
    rw [payload_send]; unfold sbufPts; exact BI.Entails.refl _
  have hpay₂ : iprop(((slotM c).view.loc (peer c k : Thread nD τ) ↦[(slotM c).view.set]{fullShare}
        ((slotM c).view.write (Elt F) fd ((sM : Memref sig .tc .vmem S1x256 .f32).view.read (Elt F) (part m ρ c)) Finset.univ) : sProp 𝕄)
        ∗ reached ER (barCell c) 1)
      ⊢ (rd m ρ).payload (recvCell (peer c k) c) 0 c := by
    rw [payload_recv]; unfold slotPts
    rw [pointsTo_congr (landed_eq m ρ (peer c k) c fd)]
  unfold sbufPts slotPts
  iintro ⟨Hg1, Hg2, Hs, Hd, HO, Ht1, Hr1, Ht2, Hr2, HF⟩
  iapply (Rounds.wp_send_pointsTo_with 𝒱₀ ER (rd m ρ) (c : Thread nD τ) none (c' := (peer c k : Thread nD τ))
      (src := (sM : Memref sig .tc .vmem S1x256 .f32)) (dst := (slotM c : Memref sig .tc .vmem S1x256 .f32)) (q := pieceShare k.val) (fs := part m ρ c) (fd := fd)
      (F := reached ER (barCell c) 1) (sS := .dma (sendS k)) (sem := .dma (recvS c))
      (κ₁ := K (c, some (.inl k))) (κ₂ := K (peer c k, some (.inr c))) (r₁ := 0) (r₂ := 0) (d₁ := 0) (d₂ := c)
      hd₁ hd₂ 0 0 N rfl (amount_send m ρ c k 0 0) (amount_recv m ρ (peer c k) c 0 c) (owedAfter c (a + 1)) hO (W := W) hpay₁ hpay₂)
  isplitl [Hg1]; · iexact Hg1
  isplitl [Hg2]; · iexact Hg2
  isplitl [Hs]; · iexact Hs
  isplitl [Hd HF]
  · isplitl [Hd]; · iexact Hd
    iexact HF
  isplitl [HO]; · iexact HO
  isplitl [Ht1]; · iexact Ht1
  isplitl [Hr1]; · iexact Hr1
  isplitl [Ht2]; · iexact Ht2
  iexact Hr2

/-- The wait for the `k`-th peer's copy, owing the exit signals: this device's slot of that peer at the peer's partial sum, and that
    the peer has finished its barrier cell's entry round. -/
theorem wp_recv_wait (k : Fin 16) (hk0 : k ≠ 0) (q : DmaSem sig) (hq : q = recvS (peer c k))
    {sp' : Space} {s' : Shape} {e' : EltTy} {src : Memref sig .tc sp' s' e'} {dst : Memref sig .tc .vmem S1x256 .f32}
    {hsrc : src.view.WordExact} {hdst : dst.view.WordExact} (hcr : dst.view.dmaCredit = N)
    {α : Type} {Q : α → sProp 𝕄} {kk : PUnit → Prog (TpuEff nD τ sig (Elt F) Λ₀ .tc) α} (W : Waits sig ℕ) :
    iprop(cellInv ER (rd m ρ) (K (c, some (.inr (peer c k)))) (recvCell c (peer c k)) ∗ cred (tallyAt (recvCell c (peer c k)) 0 N)
        ∗ owes (c : Thread nD τ) (owedAfter c 30) W ∗ levAts L lv ∗ atPos ER (recvCell c (peer c k)) 0 ∅ 0)
      ⊢ iprop(((owes (c : Thread nD τ) (owedAfter c 30) (insert (SemLoc.dma (recvS (peer c k)), 0) W) ∗ atPos ER (recvCell c (peer c k)) 1 ∅ 0
              ∗ slotPts c (peer c k) (gath m ρ) ∗ reached ER (barCell (peer c k)) 1)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  have hw : ∀ K' : PUnit → sProp 𝕄, wpE (defs₀ (F := F)) 𝒱₀ (c : Thread nD τ) none Set.univ (.waitDma2 (recvS (peer c k)) src dst hsrc hdst) K'
      = waitSpec (c : Thread nD τ) Set.univ (.dma (recvS (peer c k))) N K' := fun K' => by
    rw [wpE_waitDma2_eq, hcr]
  iintro ⟨Hg, Hc, HO, Hlev, Hat⟩ Hk
  iapply (Rounds.wp_wait_rest_token 𝒱₀ ER (rd m ρ) (c : Thread nD τ) none (κ := K (c, some (.inr (peer c k)))) hw (Set.mem_univ _) 0
      (O := owedAfter c 30) (W := W) (R := 0) (m := 0) (T := ∅) (by rw [expect_recv m ρ c (peer c k) (peer_ne c k hk0), zero_add])) $$ [Hg Hc HO Hlev Hat]
  · isplitl [Hg]; · iexact Hg
    isplitl [Hc]; · iexact Hc
    isplitl [HO]; · iexact HO
    isplitl [Hlev]; · iapply (mayWait_recv c (peer c k)); iexact Hlev
    iexact Hat
  iintro ⟨HO, Hat, -, Hpay⟩
  ihave Hp := (Entails.of_eq (rest_recv m ρ c (peer c k) (peer_ne c k hk0))) $$ Hpay
  iapply Hk
  isplitl [HO]; · iexact HO
  isplitl [Hat]; · iexact Hat
  iexact Hp

/-- The wait for the departure of the copy to the `k`-th peer: share `k` of the send buffer back. -/
theorem wp_send_wait (k : Fin 16) (hk0 : k ≠ 0) (q : DmaSem sig) (hq : q = sendS k)
    {sp' : Space} {s' : Shape} {e' : EltTy} {src : Memref sig .tc sp' s' e'} {dst : Memref sig .tc .vmem S1x256 .f32}
    {hsrc : src.view.WordExact} {hdst : dst.view.WordExact} (hcr : dst.view.dmaCredit = N)
    {α : Type} {Q : α → sProp 𝕄} {kk : PUnit → Prog (TpuEff nD τ sig (Elt F) Λ₀ .tc) α} (W : Waits sig ℕ) :
    iprop(cellInv ER (rd m ρ) (K (c, some (.inl k))) (sendCell c k) ∗ cred (tallyAt (sendCell c k) 0 N)
        ∗ owes (c : Thread nD τ) (owedAfter c 30) W ∗ levAts L lv ∗ atPos ER (sendCell c k) 0 ∅ 0)
      ⊢ iprop(((owes (c : Thread nD τ) (owedAfter c 30) (insert (SemLoc.dma (sendS k), 0) W) ∗ atPos ER (sendCell c k) 1 ∅ 0
              ∗ sbufPts m ρ c (pieceShare k.val))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  have hw : ∀ K' : PUnit → sProp 𝕄, wpE (defs₀ (F := F)) 𝒱₀ (c : Thread nD τ) none Set.univ (.waitDma2 (sendS k) src dst hsrc hdst) K'
      = waitSpec (c : Thread nD τ) Set.univ (.dma (sendS k)) N K' := fun K' => by
    rw [wpE_waitDma2_eq, hcr]
  iintro ⟨Hg, Hc, HO, Hlev, Hat⟩ Hk
  iapply (Rounds.wp_wait_rest_token 𝒱₀ ER (rd m ρ) (c : Thread nD τ) none (κ := K (c, some (.inl k))) hw (Set.mem_univ _) 0
      (O := owedAfter c 30) (W := W) (R := 0) (m := 0) (T := ∅) (by rw [expect_send m ρ c k hk0, zero_add])) $$ [Hg Hc HO Hlev Hat]
  · isplitl [Hg]; · iexact Hg
    isplitl [Hc]; · iexact Hc
    isplitl [HO]; · iexact HO
    isplitl [Hlev]; · iapply (mayWait_send c k); iexact Hlev
    iexact Hat
  iintro ⟨HO, Hat, -, Hpay⟩
  ihave Hp := (Entails.of_eq (rest_send m ρ c k hk0)) $$ Hpay
  iapply Hk
  isplitl [HO]; · iexact HO
  isplitl [Hat]; · iexact Hat
  iexact Hp

/-- The exit signal to the `k`-th peer: payment `a`, one unit on that peer's barrier cell for its exit round; the peer is known to have
    finished its entry round. -/
theorem wp_exit (k : Fin 16) (hk0 : k ≠ 0) (a a' : ℕ) (ha : a' = a + 1) (hk : 30 + k.val = a') (p : Dev nD) (hp : p = peer c k) (n : ℕ) (hn : n = 1)
    {α : Type} {Q : α → sProp 𝕄} {kk : PUnit → Prog (TpuEff nD τ sig (Elt F) Λ₀ .tc) α} (W : Waits sig ℕ) :
    iprop(cellInv ER (rd m ρ) (K (peer c k, none)) (barCell (peer c k))
        ∗ owes (c : Thread nD τ) (owedAfter c a) W
        ∗ dutyTok ER (barCell (peer c k)) 1 c
        ∗ reached ER (barCell (peer c k)) 1)
      ⊢ iprop((owes (c : Thread nD τ) (owedAfter c a') W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (p : Thread nD τ) barS n) kk) Q) := by
  subst hp hn ha
  have hO : owedAfter c a = owedAfter c (a + 1) + tallyAt (barCell (peer c k)) 1 1 := by
    rw [owedAfter_step c a (by omega), dues_exit c k a hk hk0]; rfl
  iintro ⟨Hg, HO, Htok, Hr⟩
  iapply (Rounds.wp_signal 𝒱₀ ER (rd m ρ) (c : Thread nD τ) none (dst := (peer c k : Thread nD τ)) (sem := barS) (κ := K (peer c k, none))
    (r := 1) (d := c) (by rw [duties_bar m ρ (peer c k) 1 (by omega)]; exact Finset.mem_erase.mpr ⟨(peer_ne c k hk0).symm, Finset.mem_univ _⟩)
    (amount_bar m ρ (peer c k) 1 c) 1 (owedAfter c (a + 1)) hO (W := W))
  isplitl [Hg]; · iexact Hg
  isplitl [HO]; · iexact HO
  isplitl [Htok]; · iexact Htok
  isplitr; · rw [payload_bar1]; iempintro
  iexact Hr

/-- An own DMA cell at a round from which it has no duty closes: its counter, at zero, is the core's again. -/
theorem close_send (k : Fin 16) (r : ℕ) (hr : k = 0 ∨ 1 ≤ r) :
    iprop(cellInv ER (rd m ρ) (K (c, some (.inl k))) (sendCell c k) ∗ atPos ER (sendCell c k) r ∅ 0) ⊢ (|={Set.univ}=> semVal (sendCell c k) 0 : sProp 𝕄) :=
  Rounds.cell_close ER (rd m ρ) (Set.mem_univ _) (fun h => h) fun r' hr' => by
    rcases hr with rfl | hr
    · exact duties_send_zero m ρ c r'
    · exact duties_dma_later m ρ c (sendS k) r' (by omega)
theorem close_recv (j : Fin 16) (r : ℕ) (hr : j = c ∨ 1 ≤ r) :
    iprop(cellInv ER (rd m ρ) (K (c, some (.inr j))) (recvCell c j) ∗ atPos ER (recvCell c j) r ∅ 0) ⊢ (|={Set.univ}=> semVal (recvCell c j) 0 : sProp 𝕄) :=
  Rounds.cell_close ER (rd m ρ) (Set.mem_univ _) (fun h => h) fun r' hr' => by
    rcases hr with rfl | hr
    · exact duties_recv_self m ρ j r'
    · exact duties_dma_later m ρ c (recvS j) r' (by omega)

end Rules

end Cert.KernelProof

end
-- ==== Proof.W.DevEqs.lean ====
/-
  The printed device chains are the peers; the printed slices of the two semaphore arrays are the send and
  receive semaphores by number; the printed slot views of the receive waits are the peers' slots.
-/
import proofs.«901090_g7700000000001091_dist_sum_ax0_shard0_i_m512_n256_v7x_i16_f32_1_alg».proof.Proof.W.Proto

noncomputable section

namespace Cert.KernelProof

open Cert.Kernel Cert.Kernel.Gen
open Idealize.ShloMosaic Idealize.ShloMosaic.TcCoe

theorem dev1_eq (c : Dev nD) : (⟨k0_dev1 c, k0_dev1_lt c⟩ : Dev nD) = peer c 1 := mk_eq_peer c 1 (k0_dev1_eq c)
theorem dev2_eq (c : Dev nD) : (⟨k0_dev2 c, k0_dev2_lt c⟩ : Dev nD) = peer c 2 := mk_eq_peer c 2 (k0_dev2_eq c)
theorem dev3_eq (c : Dev nD) : (⟨k0_dev3 c, k0_dev3_lt c⟩ : Dev nD) = peer c 3 := mk_eq_peer c 3 (k0_dev3_eq c)
theorem dev4_eq (c : Dev nD) : (⟨k0_dev4 c, k0_dev4_lt c⟩ : Dev nD) = peer c 4 := mk_eq_peer c 4 (k0_dev4_eq c)
theorem dev5_eq (c : Dev nD) : (⟨k0_dev5 c, k0_dev5_lt c⟩ : Dev nD) = peer c 5 := mk_eq_peer c 5 (k0_dev5_eq c)
theorem dev6_eq (c : Dev nD) : (⟨k0_dev6 c, k0_dev6_lt c⟩ : Dev nD) = peer c 6 := mk_eq_peer c 6 (k0_dev6_eq c)
theorem dev7_eq (c : Dev nD) : (⟨k0_dev7 c, k0_dev7_lt c⟩ : Dev nD) = peer c 7 := mk_eq_peer c 7 (k0_dev7_eq c)
theorem dev8_eq (c : Dev nD) : (⟨k0_dev8 c, k0_dev8_lt c⟩ : Dev nD) = peer c 8 := mk_eq_peer c 8 (k0_dev8_eq c)
theorem dev9_eq (c : Dev nD) : (⟨k0_dev9 c, k0_dev9_lt c⟩ : Dev nD) = peer c 9 := mk_eq_peer c 9 (k0_dev9_eq c)
theorem dev10_eq (c : Dev nD) : (⟨k0_dev10 c, k0_dev10_lt c⟩ : Dev nD) = peer c 10 := mk_eq_peer c 10 (k0_dev10_eq c)
theorem dev11_eq (c : Dev nD) : (⟨k0_dev11 c, k0_dev11_lt c⟩ : Dev nD) = peer c 11 := mk_eq_peer c 11 (k0_dev11_eq c)
theorem dev12_eq (c : Dev nD) : (⟨k0_dev12 c, k0_dev12_lt c⟩ : Dev nD) = peer c 12 := mk_eq_peer c 12 (k0_dev12_eq c)
theorem dev13_eq (c : Dev nD) : (⟨k0_dev13 c, k0_dev13_lt c⟩ : Dev nD) = peer c 13 := mk_eq_peer c 13 (k0_dev13_eq c)
theorem dev14_eq (c : Dev nD) : (⟨k0_dev14 c, k0_dev14_lt c⟩ : Dev nD) = peer c 14 := mk_eq_peer c 14 (k0_dev14_eq c)
theorem dev15_eq (c : Dev nD) : (⟨k0_dev15 c, k0_dev15_lt c⟩ : Dev nD) = peer c 15 := mk_eq_peer c 15 (k0_dev15_eq c)
theorem dev16_eq (c : Dev nD) : (⟨k0_dev16 c, k0_dev16_lt c⟩ : Dev nD) = peer c 1 := mk_eq_peer c 1 (k0_dev16_eq c)
theorem dev17_eq (c : Dev nD) : (⟨k0_dev17 c, k0_dev17_lt c⟩ : Dev nD) = peer c 2 := mk_eq_peer c 2 (k0_dev17_eq c)
theorem dev18_eq (c : Dev nD) : (⟨k0_dev18 c, k0_dev18_lt c⟩ : Dev nD) = peer c 3 := mk_eq_peer c 3 (k0_dev18_eq c)
theorem dev19_eq (c : Dev nD) : (⟨k0_dev19 c, k0_dev19_lt c⟩ : Dev nD) = peer c 4 := mk_eq_peer c 4 (k0_dev19_eq c)
theorem dev20_eq (c : Dev nD) : (⟨k0_dev20 c, k0_dev20_lt c⟩ : Dev nD) = peer c 5 := mk_eq_peer c 5 (k0_dev20_eq c)
theorem dev21_eq (c : Dev nD) : (⟨k0_dev21 c, k0_dev21_lt c⟩ : Dev nD) = peer c 6 := mk_eq_peer c 6 (k0_dev21_eq c)
theorem dev22_eq (c : Dev nD) : (⟨k0_dev22 c, k0_dev22_lt c⟩ : Dev nD) = peer c 7 := mk_eq_peer c 7 (k0_dev22_eq c)
theorem dev23_eq (c : Dev nD) : (⟨k0_dev23 c, k0_dev23_lt c⟩ : Dev nD) = peer c 8 := mk_eq_peer c 8 (k0_dev23_eq c)
theorem dev24_eq (c : Dev nD) : (⟨k0_dev24 c, k0_dev24_lt c⟩ : Dev nD) = peer c 9 := mk_eq_peer c 9 (k0_dev24_eq c)
theorem dev25_eq (c : Dev nD) : (⟨k0_dev25 c, k0_dev25_lt c⟩ : Dev nD) = peer c 10 := mk_eq_peer c 10 (k0_dev25_eq c)
theorem dev26_eq (c : Dev nD) : (⟨k0_dev26 c, k0_dev26_lt c⟩ : Dev nD) = peer c 11 := mk_eq_peer c 11 (k0_dev26_eq c)
theorem dev27_eq (c : Dev nD) : (⟨k0_dev27 c, k0_dev27_lt c⟩ : Dev nD) = peer c 12 := mk_eq_peer c 12 (k0_dev27_eq c)
theorem dev28_eq (c : Dev nD) : (⟨k0_dev28 c, k0_dev28_lt c⟩ : Dev nD) = peer c 13 := mk_eq_peer c 13 (k0_dev28_eq c)
theorem dev29_eq (c : Dev nD) : (⟨k0_dev29 c, k0_dev29_lt c⟩ : Dev nD) = peer c 14 := mk_eq_peer c 14 (k0_dev29_eq c)
theorem dev30_eq (c : Dev nD) : (⟨k0_dev30 c, k0_dev30_lt c⟩ : Dev nD) = peer c 15 := mk_eq_peer c 15 (k0_dev30_eq c)
theorem dev31_eq (c : Dev nD) : (⟨k0_dev31 c, k0_dev31_lt c⟩ : Dev nD) = peer c 1 := mk_eq_peer c 1 (k0_dev31_eq c)
theorem dev32_eq (c : Dev nD) : (⟨k0_dev32 c, k0_dev32_lt c⟩ : Dev nD) = peer c 2 := mk_eq_peer c 2 (k0_dev32_eq c)
theorem dev33_eq (c : Dev nD) : (⟨k0_dev33 c, k0_dev33_lt c⟩ : Dev nD) = peer c 3 := mk_eq_peer c 3 (k0_dev33_eq c)
theorem dev34_eq (c : Dev nD) : (⟨k0_dev34 c, k0_dev34_lt c⟩ : Dev nD) = peer c 4 := mk_eq_peer c 4 (k0_dev34_eq c)
theorem dev35_eq (c : Dev nD) : (⟨k0_dev35 c, k0_dev35_lt c⟩ : Dev nD) = peer c 5 := mk_eq_peer c 5 (k0_dev35_eq c)
theorem dev36_eq (c : Dev nD) : (⟨k0_dev36 c, k0_dev36_lt c⟩ : Dev nD) = peer c 6 := mk_eq_peer c 6 (k0_dev36_eq c)
theorem dev37_eq (c : Dev nD) : (⟨k0_dev37 c, k0_dev37_lt c⟩ : Dev nD) = peer c 7 := mk_eq_peer c 7 (k0_dev37_eq c)
theorem dev38_eq (c : Dev nD) : (⟨k0_dev38 c, k0_dev38_lt c⟩ : Dev nD) = peer c 8 := mk_eq_peer c 8 (k0_dev38_eq c)
theorem dev39_eq (c : Dev nD) : (⟨k0_dev39 c, k0_dev39_lt c⟩ : Dev nD) = peer c 9 := mk_eq_peer c 9 (k0_dev39_eq c)
theorem dev40_eq (c : Dev nD) : (⟨k0_dev40 c, k0_dev40_lt c⟩ : Dev nD) = peer c 10 := mk_eq_peer c 10 (k0_dev40_eq c)
theorem dev41_eq (c : Dev nD) : (⟨k0_dev41 c, k0_dev41_lt c⟩ : Dev nD) = peer c 11 := mk_eq_peer c 11 (k0_dev41_eq c)
theorem dev42_eq (c : Dev nD) : (⟨k0_dev42 c, k0_dev42_lt c⟩ : Dev nD) = peer c 12 := mk_eq_peer c 12 (k0_dev42_eq c)
theorem dev43_eq (c : Dev nD) : (⟨k0_dev43 c, k0_dev43_lt c⟩ : Dev nD) = peer c 13 := mk_eq_peer c 13 (k0_dev43_eq c)
theorem dev44_eq (c : Dev nD) : (⟨k0_dev44 c, k0_dev44_lt c⟩ : Dev nD) = peer c 14 := mk_eq_peer c 14 (k0_dev44_eq c)
theorem dev45_eq (c : Dev nD) : (⟨k0_dev45 c, k0_dev45_lt c⟩ : Dev nD) = peer c 15 := mk_eq_peer c 15 (k0_dev45_eq c)

theorem sendSem1_eq : ((cc0_scratch2.slice (Rect.unit (s := S16) ![1] S1.size inb_S16_S1_1)).squeeze S_ squeezes_S1_S_).sem = sendS 1 := by decide
theorem sendSem2_eq : ((cc0_scratch2.slice (Rect.unit (s := S16) ![2] S1.size inb_S16_S1_2)).squeeze S_ squeezes_S1_S_).sem = sendS 2 := by decide
theorem sendSem3_eq : ((cc0_scratch2.slice (Rect.unit (s := S16) ![3] S1.size inb_S16_S1_3)).squeeze S_ squeezes_S1_S_).sem = sendS 3 := by decide
theorem sendSem4_eq : ((cc0_scratch2.slice (Rect.unit (s := S16) ![4] S1.size inb_S16_S1_4)).squeeze S_ squeezes_S1_S_).sem = sendS 4 := by decide
theorem sendSem5_eq : ((cc0_scratch2.slice (Rect.unit (s := S16) ![5] S1.size inb_S16_S1_5)).squeeze S_ squeezes_S1_S_).sem = sendS 5 := by decide
theorem sendSem6_eq : ((cc0_scratch2.slice (Rect.unit (s := S16) ![6] S1.size inb_S16_S1_6)).squeeze S_ squeezes_S1_S_).sem = sendS 6 := by decide
theorem sendSem7_eq : ((cc0_scratch2.slice (Rect.unit (s := S16) ![7] S1.size inb_S16_S1_7)).squeeze S_ squeezes_S1_S_).sem = sendS 7 := by decide
theorem sendSem8_eq : ((cc0_scratch2.slice (Rect.unit (s := S16) ![8] S1.size inb_S16_S1_8)).squeeze S_ squeezes_S1_S_).sem = sendS 8 := by decide
theorem sendSem9_eq : ((cc0_scratch2.slice (Rect.unit (s := S16) ![9] S1.size inb_S16_S1_9)).squeeze S_ squeezes_S1_S_).sem = sendS 9 := by decide
theorem sendSem10_eq : ((cc0_scratch2.slice (Rect.unit (s := S16) ![10] S1.size inb_S16_S1_10)).squeeze S_ squeezes_S1_S_).sem = sendS 10 := by decide
theorem sendSem11_eq : ((cc0_scratch2.slice (Rect.unit (s := S16) ![11] S1.size inb_S16_S1_11)).squeeze S_ squeezes_S1_S_).sem = sendS 11 := by decide
theorem sendSem12_eq : ((cc0_scratch2.slice (Rect.unit (s := S16) ![12] S1.size inb_S16_S1_12)).squeeze S_ squeezes_S1_S_).sem = sendS 12 := by decide
theorem sendSem13_eq : ((cc0_scratch2.slice (Rect.unit (s := S16) ![13] S1.size inb_S16_S1_13)).squeeze S_ squeezes_S1_S_).sem = sendS 13 := by decide
theorem sendSem14_eq : ((cc0_scratch2.slice (Rect.unit (s := S16) ![14] S1.size inb_S16_S1_14)).squeeze S_ squeezes_S1_S_).sem = sendS 14 := by decide
theorem sendSem15_eq : ((cc0_scratch2.slice (Rect.unit (s := S16) ![15] S1.size inb_S16_S1_15)).squeeze S_ squeezes_S1_S_).sem = sendS 15 := by decide

theorem recvSemOwn_eq : ∀ c : Dev nD, ((cc0_scratch3.slice (Rect.unit (s := S16) (k0_off2 c) S1.size (k0_off2_inb c))).squeeze S_ squeezes_S1_S_).sem = recvS c := by decide

theorem recvSem1_eq : ∀ c : Dev nD, ((cc0_scratch3.slice (Rect.unit (s := S16) (k0_off4 c 1#32) S1.size (k0_off4_inb c 0))).squeeze S_ squeezes_S1_S_).sem = recvS (peer c 1) := by decide
theorem recvSem2_eq : ∀ c : Dev nD, ((cc0_scratch3.slice (Rect.unit (s := S16) (k0_off4 c 2#32) S1.size (k0_off4_inb c 1))).squeeze S_ squeezes_S1_S_).sem = recvS (peer c 2) := by decide
theorem recvSem3_eq : ∀ c : Dev nD, ((cc0_scratch3.slice (Rect.unit (s := S16) (k0_off4 c 3#32) S1.size (k0_off4_inb c 2))).squeeze S_ squeezes_S1_S_).sem = recvS (peer c 3) := by decide
theorem recvSem4_eq : ∀ c : Dev nD, ((cc0_scratch3.slice (Rect.unit (s := S16) (k0_off4 c 4#32) S1.size (k0_off4_inb c 3))).squeeze S_ squeezes_S1_S_).sem = recvS (peer c 4) := by decide
theorem recvSem5_eq : ∀ c : Dev nD, ((cc0_scratch3.slice (Rect.unit (s := S16) (k0_off4 c 5#32) S1.size (k0_off4_inb c 4))).squeeze S_ squeezes_S1_S_).sem = recvS (peer c 5) := by decide
theorem recvSem6_eq : ∀ c : Dev nD, ((cc0_scratch3.slice (Rect.unit (s := S16) (k0_off4 c 6#32) S1.size (k0_off4_inb c 5))).squeeze S_ squeezes_S1_S_).sem = recvS (peer c 6) := by decide
theorem recvSem7_eq : ∀ c : Dev nD, ((cc0_scratch3.slice (Rect.unit (s := S16) (k0_off4 c 7#32) S1.size (k0_off4_inb c 6))).squeeze S_ squeezes_S1_S_).sem = recvS (peer c 7) := by decide
theorem recvSem8_eq : ∀ c : Dev nD, ((cc0_scratch3.slice (Rect.unit (s := S16) (k0_off4 c 8#32) S1.size (k0_off4_inb c 7))).squeeze S_ squeezes_S1_S_).sem = recvS (peer c 8) := by decide
theorem recvSem9_eq : ∀ c : Dev nD, ((cc0_scratch3.slice (Rect.unit (s := S16) (k0_off4 c 9#32) S1.size (k0_off4_inb c 8))).squeeze S_ squeezes_S1_S_).sem = recvS (peer c 9) := by decide
theorem recvSem10_eq : ∀ c : Dev nD, ((cc0_scratch3.slice (Rect.unit (s := S16) (k0_off4 c 10#32) S1.size (k0_off4_inb c 9))).squeeze S_ squeezes_S1_S_).sem = recvS (peer c 10) := by decide
theorem recvSem11_eq : ∀ c : Dev nD, ((cc0_scratch3.slice (Rect.unit (s := S16) (k0_off4 c 11#32) S1.size (k0_off4_inb c 10))).squeeze S_ squeezes_S1_S_).sem = recvS (peer c 11) := by decide
theorem recvSem12_eq : ∀ c : Dev nD, ((cc0_scratch3.slice (Rect.unit (s := S16) (k0_off4 c 12#32) S1.size (k0_off4_inb c 11))).squeeze S_ squeezes_S1_S_).sem = recvS (peer c 12) := by decide
theorem recvSem13_eq : ∀ c : Dev nD, ((cc0_scratch3.slice (Rect.unit (s := S16) (k0_off4 c 13#32) S1.size (k0_off4_inb c 12))).squeeze S_ squeezes_S1_S_).sem = recvS (peer c 13) := by decide
theorem recvSem14_eq : ∀ c : Dev nD, ((cc0_scratch3.slice (Rect.unit (s := S16) (k0_off4 c 14#32) S1.size (k0_off4_inb c 13))).squeeze S_ squeezes_S1_S_).sem = recvS (peer c 14) := by decide
theorem recvSem15_eq : ∀ c : Dev nD, ((cc0_scratch3.slice (Rect.unit (s := S16) (k0_off4 c 15#32) S1.size (k0_off4_inb c 14))).squeeze S_ squeezes_S1_S_).sem = recvS (peer c 15) := by decide

end Cert.KernelProof

end
-- ==== Proof.W.Fund.lean ====
/-
  The launch's ghost state: every cell funded at round 0, the duty tokens dealt to the devices that pay them.
-/
import proofs.«901090_g7700000000001091_dist_sum_ax0_shard0_i_m512_n256_v7x_i16_f32_1_alg».proof.Proof.W.Data

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The thirty-three semaphores of the protocol are distinct. -/
theorem csem_injective : Function.Injective (csem : CellIx → SemLoc sig) := by
  intro k k' h
  rcases k with _ | (d | j) <;> rcases k' with _ | (d' | j')
  · rfl
  · exact absurd h (fun h => by cases h)
  · exact absurd h (fun h => by cases h)
  · exact absurd h (fun h => by cases h)
  · have := congrArg sendIdx h; rw [sendIdx_send, sendIdx_send] at this; rw [Option.some.inj this]
  · have := congrArg sendIdx h; rw [sendIdx_send, sendIdx_recv] at this; exact absurd this (fun h => by cases h)
  · exact absurd h (fun h => by cases h)
  · have := congrArg sendIdx h; rw [sendIdx_send, sendIdx_recv] at this; exact absurd this (fun h => by cases h)
  · have := congrArg recvIdx h; rw [recvIdx_recv, recvIdx_recv] at this; rw [Option.some.inj this]

theorem kcell_injective : Function.Injective (kcell : Dev nD × CellIx → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens minted: for every cell, rounds 0 and 1, every name (more than the schedule's duties: a token of no duty pays nothing). -/
abbrev tokOf (x : (Dev nD × CellIx) × Fin 2 × Fin 16) : GSem nD τ sig × ℕ × Fin 16 := (kcell x.1, x.2.1.val, x.2.2)
theorem tokOf_injective : Function.Injective tokOf := by
  rintro ⟨ck, r, n⟩ ⟨ck', r', n'⟩ h
  have h1 : kcell ck = kcell ck' := congrArg Prod.fst h
  have h2 : r.val = r'.val := congrArg (fun x : GSem nD τ sig × ℕ × Fin 16 => x.2.1) h
  have h3 : n = n' := congrArg (fun x : GSem nD τ sig × ℕ × Fin 16 => x.2.2) h
  rw [kcell_injective h1, Fin.ext h2, h3]
def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun x : CellIx × Fin 2 × Fin 16 => dutyTok ER (kcell (c, x.1)) x.2.1.val x.2.2

/-- What the launch element deals device `c` (the launch theorem's `G`). -/
def G (c : Dev nD) : sProp 𝕄 :=
  iprop((bigSep Finset.univ fun k : CellIx => roundState ER (rd m ρ) (kcell (c, k)) 0)
    ∗ (bigSep Finset.univ fun k : CellIx => iprop(atPos ER (kcell (c, k)) 0 ∅ 0 ∗ reached ER (kcell (c, k)) 0)) ∗ toks c)

/-- What the global step makes of it (`G'`): the device's ghost state and its thirty-two own cells' positions... all under some names. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks
    rw [bigSep_map, bigSep_univ_equiv (Equiv.prodAssoc (Dev nD) CellIx (Fin 2 × Fin 16)).symm, bigSep_univ_prod]
    rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- A family over an optional index: the summand at `none`, then the family over the indices proper. -/
theorem bigSep_univ_option {α : Type} [Fintype α] (Φ : Option α → sProp 𝕄) :
    bigSep Finset.univ Φ = iprop(Φ none ∗ bigSep Finset.univ fun a => Φ (some a)) := by
  classical
  have h : (Finset.univ : Finset (Option α)) = insert none (Finset.univ.map Function.Embedding.some) := by
    ext x; cases x <;> simp
  rw [h, bigSep_insert (by simp), bigSep_map]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CellIx => semVal (kcell (c, k)) 0 : sProp 𝕄) := by
  rw [unscopedSems0_eq, bigSep_univ_option]
  unfold Pipeline.ownSems0
  iintro ⟨HS, HB⟩
  isplitl [HB]; · iexact HB
  iexact HS

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (rd m ρ) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (rd m ρ) (kcell (c, k)) 0)
      ⊢ (|={Set.univ}=> bigSep Finset.univ fun k : CellIx => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens and the positions -/

theorem sub_peer (c : Dev nD) (k : Fin 16) : (peer c k - c : Fin 16) = k := by revert c k; decide
theorem peer_sub (p j : Fin 16) : peer j (p - j) = p := by revert p j; decide

/-- Offset `k` of device `c` is the device `peer c k` naming `c`: a bijection of the pairs. -/
def around : Dev nD × Fin 16 ≃ Dev nD × Fin 16 where
  toFun ck := (peer ck.1 ck.2, ck.1)
  invFun pj := (pj.2, (pj.1 - pj.2 : Fin 16))
  left_inv ck := Prod.ext rfl (sub_peer ck.1 ck.2)
  right_inv pj := Prod.ext (peer_sub pj.1 pj.2) rfl

/-- For a fixed device the offsets enumerate the devices. -/
def peerEquiv (c : Dev nD) : Fin 16 ≃ Dev nD where
  toFun k := peer c k
  invFun p := (p - c : Fin 16)
  left_inv k := sub_peer c k
  right_inv p := peer_sub p c

theorem bigSep_around (Φ : Dev nD → Fin 16 → sProp 𝕄) :
    (bigSep Finset.univ fun p : Dev nD => bigSep Finset.univ fun j : Fin 16 => Φ p j)
      = bigSep Finset.univ fun c : Dev nD => bigSep Finset.univ fun k : Fin 16 => Φ (peer c k) c :=
  (bigSep_univ_prod (fun pj : Dev nD × Fin 16 => Φ pj.1 pj.2)).symm.trans
    ((bigSep_univ_equiv around (fun pj : Dev nD × Fin 16 => Φ pj.1 pj.2)).trans
      (bigSep_univ_prod (fun ck : Dev nD × Fin 16 => Φ (peer ck.1 ck.2) ck.1)))

/-- A family over a sum of two index types is the `∗` of the families over the summands. -/
theorem bigSep_univ_sum' {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

/-- The tokens of a device's own cells that some device pays with: its barrier cell's of both rounds, one per name; each
    receive cell's of round 0 under the cell's own index; each send cell's of round 0 under the name 0. -/
def dealt (c : Dev nD) : sProp 𝕄 :=
  iprop((bigSep Finset.univ fun j : Fin 16 => dutyTok ER (barCell c) 0 j)
    ∗ (bigSep Finset.univ fun j : Fin 16 => dutyTok ER (recvCell c j) 0 j)
    ∗ (bigSep Finset.univ fun j : Fin 16 => dutyTok ER (barCell c) 1 j)
    ∗ (bigSep Finset.univ fun k : Fin 16 => dutyTok ER (sendCell c k) 0 0))

/-- The others are let go. -/
theorem toks_dealt (c : Dev nD) : (toks c : sProp 𝕄) ⊢ dealt c := by
  have e : (toks c : sProp 𝕄) = bigSep Finset.univ fun cell : CellIx => bigSep Finset.univ fun r : Fin 2 => bigSep Finset.univ fun n : Fin 16 =>
      dutyTok ER (kcell (c, cell)) r.val n :=
    (bigSep_univ_prod (fun x : CellIx × Fin 2 × Fin 16 => (dutyTok ER (kcell (c, x.1)) x.2.1.val x.2.2 : sProp 𝕄))).trans
      (bigSep_congr fun cell _ => bigSep_univ_prod (fun rn : Fin 2 × Fin 16 => (dutyTok ER (kcell (c, cell)) rn.1.val rn.2 : sProp 𝕄)))
  have hS : (bigSep Finset.univ fun d : Fin 16 => bigSep Finset.univ fun r : Fin 2 => bigSep Finset.univ fun n : Fin 16 =>
        (dutyTok ER (kcell (c, some (.inl d))) r.val n : sProp 𝕄))
      ⊢ bigSep Finset.univ fun k : Fin 16 => dutyTok ER (sendCell c k) 0 0 :=
    bigSep_mono fun k _ => (bigSep_elim (Finset.mem_univ (0 : Fin 2))).trans (bigSep_elim (Finset.mem_univ (0 : Fin 16)))
  have hV : (bigSep Finset.univ fun j : Fin 16 => bigSep Finset.univ fun r : Fin 2 => bigSep Finset.univ fun n : Fin 16 =>
        (dutyTok ER (kcell (c, some (.inr j))) r.val n : sProp 𝕄))
      ⊢ bigSep Finset.univ fun j : Fin 16 => dutyTok ER (recvCell c j) 0 j :=
    bigSep_mono fun j _ => (bigSep_elim (Finset.mem_univ (0 : Fin 2))).trans (bigSep_elim (Finset.mem_univ j))
  have hB : (bigSep Finset.univ fun r : Fin 2 => bigSep Finset.univ fun n : Fin 16 => (dutyTok ER (kcell (c, none)) r.val n : sProp 𝕄))
      = iprop((bigSep Finset.univ fun j : Fin 16 => dutyTok ER (barCell c) 0 j) ∗ bigSep Finset.univ fun j : Fin 16 => dutyTok ER (barCell c) 1 j) :=
    bigSep_univ_two _
  rw [e, bigSep_univ_option, bigSep_univ_sum', hB]
  unfold dealt
  iintro ⟨⟨HB0, HB1⟩, HS, HV⟩
  isplitl [HB0]; · iexact HB0
  isplitl [HV]; · iapply hV; iexact HV
  isplitl [HB1]; · iexact HB1
  iapply hS; iexact HS

/-- What device `c` pays with for its `k`-th peer. -/
def payTok (c : Dev nD) (k : Fin 16) : sProp 𝕄 :=
  iprop(dutyTok ER (barCell (peer c k)) 0 c ∗ dutyTok ER (recvCell (peer c k) c) 0 c ∗ dutyTok ER (barCell (peer c k)) 1 c
    ∗ dutyTok ER (sendCell c k) 0 0)

/-- The tokens dealt around: the token of a duty on device `p`'s cell named `j` goes to device `j`, as that of its offset `p - j`. -/
theorem dealt_around : (bigSep Finset.univ fun c : Dev nD => (dealt c : sProp 𝕄)) ⊢ bigSep Finset.univ fun c : Dev nD => bigSep Finset.univ (payTok c) := by
  unfold dealt payTok
  simp only [bigSep_sep']
  rw [bigSep_around (fun p j => (dutyTok ER (barCell p) 0 j : sProp 𝕄)), bigSep_around (fun p j => (dutyTok ER (recvCell p j) 0 j : sProp 𝕄)),
    bigSep_around (fun p j => (dutyTok ER (barCell p) 1 j : sProp 𝕄))]

theorem toks_around : (bigSep Finset.univ fun c : Dev nD => (toks c : sProp 𝕄)) ⊢ bigSep Finset.univ fun c : Dev nD => bigSep Finset.univ (payTok c) :=
  (bigSep_mono fun c _ => toks_dealt c).trans dealt_around

/-- A device's positions on its thirty-three cells: the barrier cell's, and per offset the send cell's and the receive
    cell's that the peer at that offset pays. -/
theorem pos_split (c : Dev nD) :
    (bigSep Finset.univ fun k : CellIx => (atPos ER (kcell (c, k)) 0 ∅ 0 : sProp 𝕄))
      = iprop(atPos ER (barCell c) 0 ∅ 0
          ∗ bigSep Finset.univ fun k : Fin 16 => iprop(atPos ER (sendCell c k) 0 ∅ 0 ∗ atPos ER (recvCell c (peer c k)) 0 ∅ 0)) := by
  rw [bigSep_univ_option, bigSep_univ_sum',
    bigSep_univ_equiv (peerEquiv c) (fun j : Dev nD => (atPos ER (kcell (c, some (.inr j))) 0 ∅ 0 : sProp 𝕄)), bigSep_sep']
  rfl

theorem perPeer_intro (c : Dev nD) (k : Fin 16) :
    iprop(payTok c k ∗ atPos ER (sendCell c k) 0 ∅ 0 ∗ atPos ER (recvCell c (peer c k)) 0 ∅ 0) ⊢ (perPeer c k : sProp 𝕄) := by
  unfold payTok perPeer
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6

/-- What stays with device `c`: its positions, and the tokens of the duties it pays. -/
def linear (c : Dev nD) : sProp 𝕄 := iprop(atPos ER (barCell c) 0 ∅ 0 ∗ bigSep Finset.univ (perPeer c))

theorem linear_intro (c : Dev nD) :
    iprop((bigSep Finset.univ fun k : CellIx => atPos ER (kcell (c, k)) 0 ∅ 0) ∗ bigSep Finset.univ (payTok c)) ⊢ (linear c : sProp 𝕄) := by
  rw [pos_split]; unfold linear
  iintro ⟨⟨HB, HA⟩, HT⟩
  isplitl [HB]; · iexact HB
  iapply (show iprop(bigSep Finset.univ (payTok c) ∗ bigSep Finset.univ fun k : Fin 16 => iprop(atPos ER (sendCell c k) 0 ∅ 0 ∗ atPos ER (recvCell c (peer c k)) 0 ∅ 0))
      ⊢ (bigSep Finset.univ (perPeer c) : sProp 𝕄) from by
    rw [← bigSep_sep']; exact bigSep_mono fun k _ => perPeer_intro c k)
  isplitl [HT]; · iexact HT
  iexact HA

theorem ghost_intro (K : Dev nD × CellIx → ℕ) (c : Dev nD) : iprop(records m ρ K ∗ linear c) ⊢ G' m ρ c := by
  unfold G' ghost linear
  iintro ⟨HR, HL⟩
  iexists K
  isplitl [HR]; · iexact HR
  iexact HL

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER (rd m ρ) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CellIx => iprop(∃ κ : ℕ, cellInv ER (rd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CellIx => (atPos ER (kcell (c, k)) 0 ∅ 0 : sProp 𝕄))
        (fun c : Dev nD => bigSep Finset.univ (payTok c))).symm).trans
      (bigSep_mono fun c _ => linear_intro c))
    isplitl [Hat]; · iexact Hat
    iexact Htk

/-- The global step: own AND unscoped semaphores of every device at once become the cells' invariants; the tokens go to their payers. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) := by
  exact ((bigSep_mono fun c _ => core_alloc m ρ c).trans (bigSep_fupd _ _)).trans (BI.fupd_mono (regroup m ρ))

end Cert.KernelProof

end
-- ==== Proof.W.Closing.lean ====
/-
  The end of a device's body: its thirty-two own semaphores at zero regrouped as the launch indexes them, and that it owes nothing more.
-/
import proofs.«901090_g7700000000001091_dist_sum_ax0_shard0_i_m512_n256_v7x_i16_f32_1_alg».proof.Proof.W.Fund

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The send semaphores by offset and the receive semaphores by the peer at each offset are all thirty-two own semaphores:
    the offsets enumerate the devices, and the index type splits into its two summands. -/
theorem ownSems_intro (c : Dev nD) :
    iprop((bigSep Finset.univ fun k : Fin 16 => semVal (sendCell c k) 0) ∗ (bigSep Finset.univ fun k : Fin 16 => semVal (recvCell c (peer c k)) 0))
      ⊢ (bigSep Finset.univ fun x : Fin 16 ⊕ Fin 16 => semVal ((c : Thread nD τ), osem x) 0 : sProp 𝕄) := by
  rw [bigSep_univ_sum', bigSep_univ_equiv (peerEquiv c) (fun j : Dev nD => (semVal ((c : Thread nD τ), osem (.inr j)) 0 : sProp 𝕄))]
  iintro ⟨HS, HV⟩
  isplitl [HS]; · iexact HS
  iexact HV

/-- After the forty-five payments nothing is owed, which is what the point after the body asks. -/
theorem owes_done (c : Dev nD) (W : Waits sig ℕ) :
    owes (c : Thread nD τ) (owedAfter c 45) W ⊢ ((dats m ρ 0 c).owesAt 0 t₀.succ : sProp 𝕄) := by
  rw [owedAfter_done]
  unfold Dat.owesAt Pipeline.owesWithin
  rw [show (dats m ρ 0 c).owed t₀.succ = 0 from rfl]
  iintro HO
  iexists W
  isplitr; · ipureintro; exact fun _ _ => Or.inl trivial
  iexact HO

end Cert.KernelProof

end
-- ==== Proof.W.Body.lean ====
/-
  One device's body, run from its invariant: the fifteen entry signals, the partial sum kept in the send
  buffer and in the device's own slot, the wait for the fifteen peers, the fifteen copies, the waits
  for the fifteen arrivals, the sum of the sixteen slots, the waits for the departures, the fifteen
  exit signals; then the thirty-two own cells closed.
-/
import proofs.«901090_g7700000000001091_dist_sum_ax0_shard0_i_m512_n256_v7x_i16_f32_1_alg».proof.Proof.W.Data
import proofs.«901090_g7700000000001091_dist_sum_ax0_shard0_i_m512_n256_v7x_i16_f32_1_alg».proof.Proof.W.Landing
import proofs.«901090_g7700000000001091_dist_sum_ax0_shard0_i_m512_n256_v7x_i16_f32_1_alg».proof.Proof.W.Rules
import proofs.«901090_g7700000000001091_dist_sum_ax0_shard0_i_m512_n256_v7x_i16_f32_1_alg».proof.Proof.W.DevEqs
import proofs.«901090_g7700000000001091_dist_sum_ax0_shard0_i_m512_n256_v7x_i16_f32_1_alg».proof.Proof.W.Closing

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
theorem bigSep_fin15 (Φ : Fin 16 → sProp 𝕄) :
    bigSep (Finset.univ.erase (0 : Fin 16)) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ

theorem inv_at (K : Dev nD × CellIx → ℕ) (ck : Dev nD × CellIx) :
    (bigSep Finset.univ fun ck : Dev nD × CellIx => (cellInv ER (rd m ρ) (K ck) (kcell ck) : sProp 𝕄)) ⊢ cellInv ER (rd m ρ) (K ck) (kcell ck) :=
  bigSep_elim (Finset.mem_univ ck)
omit [FloatOps F] in
theorem reached_at (ck : Dev nD × CellIx) :
    (bigSep Finset.univ fun ck : Dev nD × CellIx => (reached ER (kcell ck) 0 : sProp 𝕄)) ⊢ reached ER (kcell ck) 0 :=
  bigSep_elim (Finset.mem_univ ck)

theorem fetch_0 (t : Fin cfg0.N) : (cfg0.win (0 : Fin 2)).fetch t = true := by rw [fin_N t]; rfl

abbrev rX : Rect S512x256 := Rect.unit (s := S512x256) ![0, 0] S512x256.size inb_S512x256_S512x256_0_0
abbrev rS : Rect S1x256 := Rect.unit (s := S1x256) ![0, 0] S1x256.size inb_S1x256_S1x256_0_0
abbrev rG : Rect S16x1x256 := Rect.unit (s := S16x1x256) ![0, 0, 0] S16x1x256.size inb_S16x1x256_S16x1x256_0_0_0

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
omit [FloatOps F] in
theorem read_g (f : (cc0_scratch1 : Ref sig .tc).ty.Contents (Elt F)) : (gM : Memref sig .tc .vmem S16x1x256 .f32).view.readAt (Elt F) rG.toLoadRect f = f :=
  Memref.readAt_unit_zero (Elt F) cc0_scratch1 hz3 _ f
omit [FloatOps F] in
theorem write_s (f w : (cc0_scratch0 : Ref sig .tc).ty.Contents (Elt F)) :
    ((sM : Memref sig .tc .vmem S1x256 .f32).access rS : View sig .tc _ _ _).write (Elt F) f w Finset.univ = w :=
  Memref.write_access_unit_zero_univ (Elt F) cc0_scratch0 hz2 _ f w
omit [FloatOps F] in
theorem write_o (f w : (cc0_stg1_0 : Ref sig .tc).ty.Contents (Elt F)) :
    ((oM : Memref sig .tc .vmem S1x256 .f32).access rS : View sig .tc _ _ _).write (Elt F) f w Finset.univ = w :=
  Memref.write_access_unit_zero_univ (Elt F) cc0_stg1_0 hz2 _ f w

omit [FloatOps F] in
/-- A slot of the gather buffer, wherever it sits, has one row's credit. -/
theorem slot_credit {o : Fin 3 → ℕ} (h : ∀ a, o a + S1x1x256.size a ≤ S16x1x256.size a) :
    (((gM : Memref sig .tc .vmem S16x1x256 .f32).slice (Rect.unit (s := S16x1x256) o S1x1x256.size h) (fun _ => rfl)).squeeze S1x256 squeezes_S1x1x256_S1x256).view.dmaCredit = N := rfl

set_option hygiene false in
/-- The entry signal to peer `k` (payment `a`): the peer's barrier cell's invariant, the duty's token, the device's slot for that peer. -/
local macro "entry_step" k:num a:num a':num dv:ident T:ident S:ident : tactic => `(tactic| (
  iapply (wp_entry m ρ K c $k $a $a' rfl rfl _ ($dv c) _ rfl _) $$ [HO $T:ident $S:ident]
  · isplitr
    · iapply (inv_at m ρ K (peer c $k, none)); iexact HI
    isplitl [HO]
    · iexact HO
    isplitl [$T:ident]
    · iexact $T
    isplitl [$S:ident]
    · iexists _; iexact $S
    iapply (reached_at (F := F) (peer c $k, none)); iexact HR0
  iintro HO))

set_option hygiene false in
/-- The copy to peer `k` (payment `a`): the two cells' invariants, share `k` of the send buffer, the peer's slot for this device, the two tokens. -/
local macro "copy_step" k:num a:num a':num dv:ident sq:ident B:ident R:ident Ts:ident Tr:ident Cs:ident : tactic => `(tactic| (
  icases $R:ident with ⟨%fd, $R:ident⟩
  iapply (wp_copy m ρ K c $k (by decide) $a $a' rfl rfl _ ($dv c) _ _ $sq (recvSemOwn_eq c) fd _) $$ [HO $B:ident $R:ident $Ts:ident $Tr:ident]
  · isplitr
    · iapply (inv_at m ρ K (c, some (.inl $k))); iexact HI
    isplitr
    · iapply (inv_at m ρ K (peer c $k, some (.inr c))); iexact HI
    isplitl [$B:ident]
    · iexact $B
    isplitl [$R:ident]
    · iexact $R
    isplitl [HO]
    · iexact HO
    isplitl [$Ts:ident]
    · iexact $Ts
    isplitr
    · iapply (reached_at (F := F) (c, some (.inl $k))); iexact HR0
    isplitl [$Tr:ident]
    · iexact $Tr
    isplitr
    · iapply (reached_at (F := F) (peer c $k, some (.inr c))); iexact HR0
    iexact HrB
  iintro ⟨$Cs:ident, HO⟩))

set_option hygiene false in
/-- The wait for peer `k`'s copy. -/
local macro "recv_step" k:num rq:ident C:ident A:ident G:ident Rb:ident : tactic => `(tactic| (
  iapply (wp_recv_wait m ρ K c $k (by decide) _ ($rq c) (slot_credit _) _) $$ [$C:ident HO $A:ident]
  · isplitr
    · iapply (inv_at m ρ K (c, some (.inr (peer c $k)))); iexact HI
    isplitl [$C:ident]
    · iexact $C
    isplitl [HO]
    · iexact HO
    isplitr
    · iexact Hlev
    iexact $A
  iintro ⟨HO, $A:ident, $G:ident, #$Rb:ident⟩))

set_option hygiene false in
/-- The wait for the departure of the copy to peer `k`. -/
local macro "sendw_step" k:num sq:ident C:ident A:ident B:ident : tactic => `(tactic| (
  iapply (wp_send_wait m ρ K c $k (by decide) _ $sq rfl _) $$ [$C:ident HO $A:ident]
  · isplitr
    · iapply (inv_at m ρ K (c, some (.inl $k))); iexact HI
    isplitl [$C:ident]
    · iexact $C
    isplitl [HO]
    · iexact HO
    isplitr
    · iexact Hlev
    iexact $A
  iintro ⟨HO, $A:ident, $B:ident⟩))

set_option hygiene false in
/-- The exit signal to peer `k` (payment `a`). -/
local macro "exit_step" k:num a:num a':num dv:ident T:ident Rb:ident : tactic => `(tactic| (
  iapply (wp_exit m ρ K c $k (by decide) $a $a' rfl rfl _ ($dv c) _ rfl _) $$ [HO $T:ident]
  · isplitr
    · iapply (inv_at m ρ K (peer c $k, none)); iexact HI
    isplitl [HO]
    · iexact HO
    isplitl [$T:ident]
    · iexact $T
    iexact $Rb
  iintro HO))

set_option maxHeartbeats 4000000 in
set_option maxRecDepth 65536 in
/-- The body from `bodyPre` to `bodyPost`. -/
theorem sound_body (K : Dev nD × CellIx → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  unfold bodyPre ghost records credits scratch
  rw [bigSep_fin16, bigSep_fin15]
  unfold perPeer
  iintro ⟨⟨⟨⟨⟨#HI, #HR0⟩, HatB, ⟨Te0, Tr0, Tx0, Ts0, As0, Ar0⟩, ⟨Te1, Tr1, Tx1, Ts1, As1, Ar1⟩, ⟨Te2, Tr2, Tx2, Ts2, As2, Ar2⟩, ⟨Te3, Tr3, Tx3, Ts3, As3, Ar3⟩, ⟨Te4, Tr4, Tx4, Ts4, As4, Ar4⟩, ⟨Te5, Tr5, Tx5, Ts5, As5, Ar5⟩, ⟨Te6, Tr6, Tx6, Ts6, As6, Ar6⟩, ⟨Te7, Tr7, Tx7, Ts7, As7, Ar7⟩, ⟨Te8, Tr8, Tx8, Ts8, As8, Ar8⟩, ⟨Te9, Tr9, Tx9, Ts9, As9, Ar9⟩, ⟨Te10, Tr10, Tx10, Ts10, As10, Ar10⟩, ⟨Te11, Tr11, Tx11, Ts11, As11, Ar11⟩, ⟨Te12, Tr12, Tx12, Ts12, As12, Ar12⟩, ⟨Te13, Tr13, Tx13, Ts13, As13, Ar13⟩, ⟨Te14, Tr14, Tx14, Ts14, As14, Ar14⟩, ⟨Te15, Tr15, Tx15, Ts15, As15, Ar15⟩⟩, ⟨HcB, C1, C2, C3, C4, C5, C6, C7, C8, C9, C10, C11, C12, C13, C14, C15⟩, #Hlev, ⟨%fs, Hs⟩, ⟨%fg, Hg⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedAfter c 0 from rfl]
  -- the gather buffer by slots
  ihave Hg' := (Entails.of_eq ((gbuf_split c fg).trans (bigSep_fin16 _))) $$ Hg
  icases Hg' with ⟨S0, S1, S2, S3, S4, S5, S6, S7, S8, S9, S10, S11, S12, S13, S14, S15⟩
  -- the fifteen entry signals
  entry_step 1 0 1 dev1_eq Te1 S1
  entry_step 2 1 2 dev2_eq Te2 S2
  entry_step 3 2 3 dev3_eq Te3 S3
  entry_step 4 3 4 dev4_eq Te4 S4
  entry_step 5 4 5 dev5_eq Te5 S5
  entry_step 6 5 6 dev6_eq Te6 S6
  entry_step 7 6 7 dev7_eq Te7 S7
  entry_step 8 7 8 dev8_eq Te8 S8
  entry_step 9 8 9 dev9_eq Te9 S9
  entry_step 10 9 10 dev10_eq Te10 S10
  entry_step 11 10 11 dev11_eq Te11 S11
  entry_step 12 11 12 dev12_eq Te12 S12
  entry_step 13 12 13 dev13_eq Te13 S13
  entry_step 14 13 14 dev14_eq Te14 S14
  entry_step 15 14 15 dev15_eq Te15 S15

  -- the block of x, summed over its rows; the partial sum kept in the send buffer
  iapply (wp_load 𝒱₀ (c : Thread nD τ) none Set.univ (m := xM) (Finset.subset_univ _)) $$ Hx; iintro Hx
  rw [read_x]
  iapply (wp_load 𝒱₀ (c : Thread nD τ) none Set.univ (m := sM) (Finset.subset_univ _)) $$ Hs; iintro Hs
  iapply (wp_store 𝒱₀ (c : Thread nD τ) none Set.univ (m := sM) (r := rS) (Mk := Finset.univ) (Finset.subset_univ _)) $$ Hs; iintro Hs
  rw [write_s]
  -- and in the device's own slot
  ihave S0' := (Entails.of_eq (show slotPts c (peer c 0) fg
      = (((gM : Memref sig .tc .vmem S16x1x256 .f32).view.loc (c : Thread nD τ)) ↦[(slotM c).view.set]{fullShare} fg : sProp 𝕄) from by rw [peer_zero]; rfl)) $$ S0
  iapply (wp_load 𝒱₀ (c : Thread nD τ) none Set.univ (m := gM) (S := (slotM c).view.set) (le_of_eq (own_load_set c))) $$ S0'; iintro S0'
  iapply (wp_store 𝒱₀ (c : Thread nD τ) none Set.univ (m := gM) (r := ownRect c) (Mk := Finset.univ) (S := (slotM c).view.set) (le_of_eq (own_store_set c))) $$ S0'; iintro S0'
  ihave S0 := (Entails.of_eq (show _ = slotPts c (peer c 0) (gath m ρ) from by rw [peer_zero]; exact pointsTo_congr (stored_eq m ρ c fg))) $$ S0'
  -- the wait for the fifteen peers: each one's slot for this device
  iapply (wp_bar_wait m ρ K c _ rfl _) $$ [HcB HO HatB]
  · isplitr; · iapply (inv_at m ρ K (c, none)); iexact HI
    isplitl [HcB]; · iexact HcB
    isplitl [HO]; · iexact HO
    isplitr; · iexact Hlev
    iexact HatB
  iintro ⟨HO, HatB, #HrB, Hpay⟩
  ihave Hpay' := (Entails.of_eq (bigSep_fin15 _)) $$ Hpay
  icases Hpay' with ⟨R1, R2, R3, R4, R5, R6, R7, R8, R9, R10, R11, R12, R13, R14, R15⟩
  -- the send buffer by shares, one per copy
  ihave Hs := (Entails.of_eq (show ((View.loc (c : Thread nD τ) ((sM : Memref sig .tc .vmem S1x256 .f32).access rS) ↦{fullShare} k0_pay2 (xstg m ρ c)) : sProp 𝕄)
      = (((c : Thread nD τ).loc cc0_scratch0) ↦{fullShare} part m ρ c) from rfl)) $$ Hs
  ihave Hs' := (sbuf_split m ρ c).1 $$ Hs
  icases Hs' with ⟨Hb, Hbr⟩
  ihave Hb' := (Entails.of_eq (bigSep_fin16 _)) $$ Hb
  icases Hb' with ⟨B0, B1, B2, B3, B4, B5, B6, B7, B8, B9, B10, B11, B12, B13, B14, B15⟩
  -- the fifteen copies
  copy_step 1 15 16 dev16_eq sendSem1_eq B1 R1 Ts1 Tr1 Cs1
  copy_step 2 16 17 dev17_eq sendSem2_eq B2 R2 Ts2 Tr2 Cs2
  copy_step 3 17 18 dev18_eq sendSem3_eq B3 R3 Ts3 Tr3 Cs3
  copy_step 4 18 19 dev19_eq sendSem4_eq B4 R4 Ts4 Tr4 Cs4
  copy_step 5 19 20 dev20_eq sendSem5_eq B5 R5 Ts5 Tr5 Cs5
  copy_step 6 20 21 dev21_eq sendSem6_eq B6 R6 Ts6 Tr6 Cs6
  copy_step 7 21 22 dev22_eq sendSem7_eq B7 R7 Ts7 Tr7 Cs7
  copy_step 8 22 23 dev23_eq sendSem8_eq B8 R8 Ts8 Tr8 Cs8
  copy_step 9 23 24 dev24_eq sendSem9_eq B9 R9 Ts9 Tr9 Cs9
  copy_step 10 24 25 dev25_eq sendSem10_eq B10 R10 Ts10 Tr10 Cs10
  copy_step 11 25 26 dev26_eq sendSem11_eq B11 R11 Ts11 Tr11 Cs11
  copy_step 12 26 27 dev27_eq sendSem12_eq B12 R12 Ts12 Tr12 Cs12
  copy_step 13 27 28 dev28_eq sendSem13_eq B13 R13 Ts13 Tr13 Cs13
  copy_step 14 28 29 dev29_eq sendSem14_eq B14 R14 Ts14 Tr14 Cs14
  copy_step 15 29 30 dev30_eq sendSem15_eq B15 R15 Ts15 Tr15 Cs15
  -- the waits for the fifteen arrivals
  recv_step 1 recvSem1_eq C1 Ar1 G1 Rb1
  recv_step 2 recvSem2_eq C2 Ar2 G2 Rb2
  recv_step 3 recvSem3_eq C3 Ar3 G3 Rb3
  recv_step 4 recvSem4_eq C4 Ar4 G4 Rb4
  recv_step 5 recvSem5_eq C5 Ar5 G5 Rb5
  recv_step 6 recvSem6_eq C6 Ar6 G6 Rb6
  recv_step 7 recvSem7_eq C7 Ar7 G7 Rb7
  recv_step 8 recvSem8_eq C8 Ar8 G8 Rb8
  recv_step 9 recvSem9_eq C9 Ar9 G9 Rb9
  recv_step 10 recvSem10_eq C10 Ar10 G10 Rb10
  recv_step 11 recvSem11_eq C11 Ar11 G11 Rb11
  recv_step 12 recvSem12_eq C12 Ar12 G12 Rb12
  recv_step 13 recvSem13_eq C13 Ar13 G13 Rb13
  recv_step 14 recvSem14_eq C14 Ar14 G14 Rb14
  recv_step 15 recvSem15_eq C15 Ar15 G15 Rb15
  -- the gather buffer whole again, every slot at its device's partial sum; the sum of the slots stored
  ihave Hg := (Entails.of_eq ((gbuf_split c (gath m ρ)).trans (bigSep_fin16 _)).symm) $$ [S0 G1 G2 G3 G4 G5 G6 G7 G8 G9 G10 G11 G12 G13 G14 G15]
  · isplitl [S0]; · iexact S0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    iexact G15
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := rS) (Mk := Finset.univ) (Finset.subset_univ _)) $$ Hout; iintro Hout
  rw [write_o]
  -- the waits for the fifteen departures: the send buffer's shares back
  sendw_step 1 sendSem1_eq Cs1 As1 B1
  sendw_step 2 sendSem2_eq Cs2 As2 B2
  sendw_step 3 sendSem3_eq Cs3 As3 B3
  sendw_step 4 sendSem4_eq Cs4 As4 B4
  sendw_step 5 sendSem5_eq Cs5 As5 B5
  sendw_step 6 sendSem6_eq Cs6 As6 B6
  sendw_step 7 sendSem7_eq Cs7 As7 B7
  sendw_step 8 sendSem8_eq Cs8 As8 B8
  sendw_step 9 sendSem9_eq Cs9 As9 B9
  sendw_step 10 sendSem10_eq Cs10 As10 B10
  sendw_step 11 sendSem11_eq Cs11 As11 B11
  sendw_step 12 sendSem12_eq Cs12 As12 B12
  sendw_step 13 sendSem13_eq Cs13 As13 B13
  sendw_step 14 sendSem14_eq Cs14 As14 B14
  sendw_step 15 sendSem15_eq Cs15 As15 B15
  ihave Hs := (sbuf_split m ρ c).2 $$ [B0 B1 B2 B3 B4 B5 B6 B7 B8 B9 B10 B11 B12 B13 B14 B15 Hbr]
  · isplitr [Hbr]
    · iapply (Entails.of_eq (bigSep_fin16 _).symm)
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      iexact B15
    · iexact Hbr
  -- the fifteen exit signals
  exit_step 1 30 31 dev31_eq Tx1 Rb1
  exit_step 2 31 32 dev32_eq Tx2 Rb2
  exit_step 3 32 33 dev33_eq Tx3 Rb3
  exit_step 4 33 34 dev34_eq Tx4 Rb4
  exit_step 5 34 35 dev35_eq Tx5 Rb5
  exit_step 6 35 36 dev36_eq Tx6 Rb6
  exit_step 7 36 37 dev37_eq Tx7 Rb7
  exit_step 8 37 38 dev38_eq Tx8 Rb8
  exit_step 9 38 39 dev39_eq Tx9 Rb9
  exit_step 10 39 40 dev40_eq Tx10 Rb10
  exit_step 11 40 41 dev41_eq Tx11 Rb11
  exit_step 12 41 42 dev42_eq Tx12 Rb12
  exit_step 13 42 43 dev43_eq Tx13 Rb13
  exit_step 14 43 44 dev44_eq Tx14 Rb14
  exit_step 15 44 45 dev45_eq Tx15 Rb15
  -- the thirty-two own cells close
  rw [wp_ret]
  imod (close_send m ρ K c 0 0 (Or.inl rfl)) $$ [As0] with Zs0
  · isplitr; · iapply (inv_at m ρ K (c, some (.inl 0))); iexact HI
    iexact As0
  imod (close_send m ρ K c 1 1 (Or.inr le_rfl)) $$ [As1] with Zs1
  · isplitr; · iapply (inv_at m ρ K (c, some (.inl 1))); iexact HI
    iexact As1
  imod (close_send m ρ K c 2 1 (Or.inr le_rfl)) $$ [As2] with Zs2
  · isplitr; · iapply (inv_at m ρ K (c, some (.inl 2))); iexact HI
    iexact As2
  imod (close_send m ρ K c 3 1 (Or.inr le_rfl)) $$ [As3] with Zs3
  · isplitr; · iapply (inv_at m ρ K (c, some (.inl 3))); iexact HI
    iexact As3
  imod (close_send m ρ K c 4 1 (Or.inr le_rfl)) $$ [As4] with Zs4
  · isplitr; · iapply (inv_at m ρ K (c, some (.inl 4))); iexact HI
    iexact As4
  imod (close_send m ρ K c 5 1 (Or.inr le_rfl)) $$ [As5] with Zs5
  · isplitr; · iapply (inv_at m ρ K (c, some (.inl 5))); iexact HI
    iexact As5
  imod (close_send m ρ K c 6 1 (Or.inr le_rfl)) $$ [As6] with Zs6
  · isplitr; · iapply (inv_at m ρ K (c, some (.inl 6))); iexact HI
    iexact As6
  imod (close_send m ρ K c 7 1 (Or.inr le_rfl)) $$ [As7] with Zs7
  · isplitr; · iapply (inv_at m ρ K (c, some (.inl 7))); iexact HI
    iexact As7
  imod (close_send m ρ K c 8 1 (Or.inr le_rfl)) $$ [As8] with Zs8
  · isplitr; · iapply (inv_at m ρ K (c, some (.inl 8))); iexact HI
    iexact As8
  imod (close_send m ρ K c 9 1 (Or.inr le_rfl)) $$ [As9] with Zs9
  · isplitr; · iapply (inv_at m ρ K (c, some (.inl 9))); iexact HI
    iexact As9
  imod (close_send m ρ K c 10 1 (Or.inr le_rfl)) $$ [As10] with Zs10
  · isplitr; · iapply (inv_at m ρ K (c, some (.inl 10))); iexact HI
    iexact As10
  imod (close_send m ρ K c 11 1 (Or.inr le_rfl)) $$ [As11] with Zs11
  · isplitr; · iapply (inv_at m ρ K (c, some (.inl 11))); iexact HI
    iexact As11
  imod (close_send m ρ K c 12 1 (Or.inr le_rfl)) $$ [As12] with Zs12
  · isplitr; · iapply (inv_at m ρ K (c, some (.inl 12))); iexact HI
    iexact As12
  imod (close_send m ρ K c 13 1 (Or.inr le_rfl)) $$ [As13] with Zs13
  · isplitr; · iapply (inv_at m ρ K (c, some (.inl 13))); iexact HI
    iexact As13
  imod (close_send m ρ K c 14 1 (Or.inr le_rfl)) $$ [As14] with Zs14
  · isplitr; · iapply (inv_at m ρ K (c, some (.inl 14))); iexact HI
    iexact As14
  imod (close_send m ρ K c 15 1 (Or.inr le_rfl)) $$ [As15] with Zs15
  · isplitr; · iapply (inv_at m ρ K (c, some (.inl 15))); iexact HI
    iexact As15
  imod (close_recv m ρ K c (peer c 0) 0 (Or.inl (peer_zero c))) $$ [Ar0] with Zr0
  · isplitr; · iapply (inv_at m ρ K (c, some (.inr (peer c 0)))); iexact HI
    iexact Ar0
  imod (close_recv m ρ K c (peer c 1) 1 (Or.inr le_rfl)) $$ [Ar1] with Zr1
  · isplitr; · iapply (inv_at m ρ K (c, some (.inr (peer c 1)))); iexact HI
    iexact Ar1
  imod (close_recv m ρ K c (peer c 2) 1 (Or.inr le_rfl)) $$ [Ar2] with Zr2
  · isplitr; · iapply (inv_at m ρ K (c, some (.inr (peer c 2)))); iexact HI
    iexact Ar2
  imod (close_recv m ρ K c (peer c 3) 1 (Or.inr le_rfl)) $$ [Ar3] with Zr3
  · isplitr; · iapply (inv_at m ρ K (c, some (.inr (peer c 3)))); iexact HI
    iexact Ar3
  imod (close_recv m ρ K c (peer c 4) 1 (Or.inr le_rfl)) $$ [Ar4] with Zr4
  · isplitr; · iapply (inv_at m ρ K (c, some (.inr (peer c 4)))); iexact HI
    iexact Ar4
  imod (close_recv m ρ K c (peer c 5) 1 (Or.inr le_rfl)) $$ [Ar5] with Zr5
  · isplitr; · iapply (inv_at m ρ K (c, some (.inr (peer c 5)))); iexact HI
    iexact Ar5
  imod (close_recv m ρ K c (peer c 6) 1 (Or.inr le_rfl)) $$ [Ar6] with Zr6
  · isplitr; · iapply (inv_at m ρ K (c, some (.inr (peer c 6)))); iexact HI
    iexact Ar6
  imod (close_recv m ρ K c (peer c 7) 1 (Or.inr le_rfl)) $$ [Ar7] with Zr7
  · isplitr; · iapply (inv_at m ρ K (c, some (.inr (peer c 7)))); iexact HI
    iexact Ar7
  imod (close_recv m ρ K c (peer c 8) 1 (Or.inr le_rfl)) $$ [Ar8] with Zr8
  · isplitr; · iapply (inv_at m ρ K (c, some (.inr (peer c 8)))); iexact HI
    iexact Ar8
  imod (close_recv m ρ K c (peer c 9) 1 (Or.inr le_rfl)) $$ [Ar9] with Zr9
  · isplitr; · iapply (inv_at m ρ K (c, some (.inr (peer c 9)))); iexact HI
    iexact Ar9
  imod (close_recv m ρ K c (peer c 10) 1 (Or.inr le_rfl)) $$ [Ar10] with Zr10
  · isplitr; · iapply (inv_at m ρ K (c, some (.inr (peer c 10)))); iexact HI
    iexact Ar10
  imod (close_recv m ρ K c (peer c 11) 1 (Or.inr le_rfl)) $$ [Ar11] with Zr11
  · isplitr; · iapply (inv_at m ρ K (c, some (.inr (peer c 11)))); iexact HI
    iexact Ar11
  imod (close_recv m ρ K c (peer c 12) 1 (Or.inr le_rfl)) $$ [Ar12] with Zr12
  · isplitr; · iapply (inv_at m ρ K (c, some (.inr (peer c 12)))); iexact HI
    iexact Ar12
  imod (close_recv m ρ K c (peer c 13) 1 (Or.inr le_rfl)) $$ [Ar13] with Zr13
  · isplitr; · iapply (inv_at m ρ K (c, some (.inr (peer c 13)))); iexact HI
    iexact Ar13
  imod (close_recv m ρ K c (peer c 14) 1 (Or.inr le_rfl)) $$ [Ar14] with Zr14
  · isplitr; · iapply (inv_at m ρ K (c, some (.inr (peer c 14)))); iexact HI
    iexact Ar14
  imod (close_recv m ρ K c (peer c 15) 1 (Or.inr le_rfl)) $$ [Ar15] with Zr15
  · isplitr; · iapply (inv_at m ρ K (c, some (.inr (peer c 15)))); iexact HI
    iexact Ar15
  imodintro
  iapply Hk
  unfold bodyPost Φ₁ scratch
  isplitl [Hs Hg Zs0 Zr0 Zs1 Zr1 Zs2 Zr2 Zs3 Zr3 Zs4 Zr4 Zs5 Zr5 Zs6 Zr6 Zs7 Zr7 Zs8 Zr8 Zs9 Zr9 Zs10 Zr10 Zs11 Zr11 Zs12 Zr12 Zs13 Zr13 Zs14 Zr14 Zs15 Zr15]
  · isplitl [Hs Hg]
    · isplitl [Hs]
      · iexists _; iexact Hs
      · iexists _; iexact Hg
    · iapply (ownSems_intro c)
      isplitl [Zs0 Zs1 Zs2 Zs3 Zs4 Zs5 Zs6 Zs7 Zs8 Zs9 Zs10 Zs11 Zs12 Zs13 Zs14 Zs15]
      · iapply (Entails.of_eq (bigSep_fin16 _).symm)
        isplitl [Zs0]; · iexact Zs0
        isplitl [Zs1]; · iexact Zs1
        isplitl [Zs2]; · iexact Zs2
        isplitl [Zs3]; · iexact Zs3
        isplitl [Zs4]; · iexact Zs4
        isplitl [Zs5]; · iexact Zs5
        isplitl [Zs6]; · iexact Zs6
        isplitl [Zs7]; · iexact Zs7
        isplitl [Zs8]; · iexact Zs8
        isplitl [Zs9]; · iexact Zs9
        isplitl [Zs10]; · iexact Zs10
        isplitl [Zs11]; · iexact Zs11
        isplitl [Zs12]; · iexact Zs12
        isplitl [Zs13]; · iexact Zs13
        isplitl [Zs14]; · iexact Zs14
        iexact Zs15
      · iapply (Entails.of_eq (bigSep_fin16 _).symm)
        isplitl [Zr0]; · iexact Zr0
        isplitl [Zr1]; · iexact Zr1
        isplitl [Zr2]; · iexact Zr2
        isplitl [Zr3]; · iexact Zr3
        isplitl [Zr4]; · iexact Zr4
        isplitl [Zr5]; · iexact Zr5
        isplitl [Zr6]; · iexact Zr6
        isplitl [Zr7]; · iexact Zr7
        isplitl [Zr8]; · iexact Zr8
        isplitl [Zr9]; · iexact Zr9
        isplitl [Zr10]; · iexact Zr10
        isplitl [Zr11]; · iexact Zr11
        isplitl [Zr12]; · iexact Zr12
        isplitl [Zr13]; · iexact Zr13
        isplitl [Zr14]; · iexact Zr14
        iexact Zr15
  isplitl [HO]
  · iapply (owes_done m ρ c _); iexact HO
  isplitl [Hx]
  · iexists _; isplitr; · (ipureintro; rfl)
    iexact Hx
  iexists _; isplitr; · (ipureintro; rfl)
  iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 32000 in
def bodyPre' (c : Dev nD) : sProp 𝕄 :=
  iprop(Φ₀ m ρ c ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 32000 in
/-- The library's body obligation on core `c`. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelProof.body_obligation' depends on axioms: [propext, Classical.choice, Quot.sound] -/
#guard_msgs in #print axioms body_obligation

end Cert.KernelProof

end
-- ==== Proof.W.Launch.lean ====
/-
  The launch of the one pallas_call: what the launch deals each device (its credit, its levels), the
  launch theorem's side conditions, the run of @main and the final arrays.
-/
import proofs.«901090_g7700000000001091_dist_sum_ax0_shard0_i_m512_n256_v7x_i16_f32_1_alg».proof.Proof.W.Body
import proofs.«901090_g7700000000001091_dist_sum_ax0_shard0_i_m512_n256_v7x_i16_f32_1_alg».proof.Proof.W.Fund

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ### The launch credit -/

/-- The places of the fifteen other devices around the axis. -/
abbrev others : Finset (Fin 16) := Finset.univ.erase 0

omit [FloatOps F] in
theorem sum_ks {α : Type} [AddCommMonoid α] (f : Fin 16 → α) : (ks.map f).sum = ∑ k ∈ others, f k := by
  rw [← List.sum_toFinset f (by decide : ks.Nodup)]
  exact congrArg (fun s : Finset (Fin 16) => ∑ k ∈ s, f k) (by decide : ks.toFinset = others)

omit [FloatOps F] in
/-- What a device owes, as three sums over the other places; the copies' dues indexed by the place of the payer as the
    receiver sees it (the receiver is `-k` places after the payer when the payer is `k` places after the receiver). -/
theorem O₀_eq (d : Dev nD) :
    O₀ d = (∑ k ∈ others, owedE d k + ∑ k ∈ others, owedS d (-k)) + ∑ k ∈ others, owedX d k := by
  unfold O₀ owedAfter dues
  rw [List.drop_zero, List.sum_append, List.sum_append, sum_ks, sum_ks, sum_ks]
  have hS : ∑ k ∈ others, owedS d k = ∑ k ∈ others, owedS d (-k) :=
    (Finset.sum_equiv (s := others) (t := others) (f := fun k => owedS d (-k)) (g := owedS d) (Equiv.neg (Fin 16))
      (fun i => by revert i; decide) (fun i _ => rfl)).symm
  rw [hS]

omit [FloatOps F] in
theorem launchCred_O₀ (c : Dev nD) :
    (Pipeline.launchCred O₀ c : sProp 𝕄)
      = iprop(((bigSep others fun k => Pipeline.launchCred (fun d => owedE d k) c)
          ∗ (bigSep others fun k => Pipeline.launchCred (fun d => owedS d (-k)) c))
          ∗ (bigSep others fun k => Pipeline.launchCred (fun d => owedX d k) c)) := by
  rw [show (O₀ : Dev nD → CellTallies nD τ sig ℕ)
      = fun d => (∑ k ∈ others, owedE d k + ∑ k ∈ others, owedS d (-k)) + ∑ k ∈ others, owedX d k from funext O₀_eq,
    Pipeline.launchCred_add, Pipeline.launchCred_add, Pipeline.launchCred_sum, Pipeline.launchCred_sum, Pipeline.launchCred_sum]

omit [FloatOps F] in
/-- Every device signalling its `k`-th peer's barrier cell, each device's barrier cell is signalled by the device `k` places before it. -/
theorem cred_E (c : Dev nD) (k : Fin 16) (i : ℕ) :
    (Pipeline.launchCred (fun d => tallyAt (barCell (peer d k)) i 1) c : sProp 𝕄) ⊢ cred (tallyAt (barCell c) i 1) :=
  Pipeline.launchCred_tallyAt (.reg barS) (fun d => peer d k) (fun c => peer c (-k)) (fun c => peer_neg_peer c k) (fun d => peer_peer_neg d k) i 1 c

omit [FloatOps F] in
/-- The copy into device `c`'s slot of its `k`-th peer is that peer's: on `c`'s receive cell for that peer, the one payer is that peer. -/
theorem cred_S (c : Dev nD) (k : Fin 16) :
    (Pipeline.launchCred (fun d => owedS d (-k)) c : sProp 𝕄) ⊢ cred (tallyAt (recvCell c (peer c k)) 0 N) := by
  refine (Pipeline.launchCred_elim _ c (.dma (recvS (peer c k)))).trans (Entails.of_eq (congrArg cred ?_))
  rw [Pipeline.tallyOn_launchCredit_owing]
  unfold tallyAt
  refine congrArg _ ?_
  rw [Finset.sum_apply, Finset.sum_eq_single (peer c k) (fun d _ hd => ?_) (fun h => absurd (Finset.mem_univ _) h)]
  · unfold owedS tallyAt tallyOn
    rw [peer_peer_neg]; exact Pi.single_eq_same _ _
  · unfold owedS tallyAt tallyOn
    refine Pi.single_eq_of_ne (fun h => hd ?_) _
    have h2 := congrArg (fun g : GSem nD τ sig => recvIdx g.2) h
    simp only [recvIdx_recv] at h2
    exact (Option.some.inj h2).symm

omit [FloatOps F] in
theorem nsmul_tallyAt (g : GSem nD τ sig) (i : ℕ) (n : ℕ) : n • (tallyAt g i 1 : CellTallies nD τ sig ℕ) = tallyAt g i n := by
  induction n with
  | zero => rw [zero_nsmul, tallyAt_zero]
  | succ n ih => rw [succ_nsmul, ih, tallyAt_add]

omit [FloatOps F] in
/-- Fifteen units on one cell, one per other device, are its credit of fifteen. -/
theorem cred_fifteen (g : GSem nD τ sig) (i : ℕ) :
    (bigSep others fun _ : Fin 16 => (cred (tallyAt g i 1) : sProp 𝕄)) ⊢ cred (tallyAt g i 15) := by
  rw [← Pipeline.cred_finsetSum, Finset.sum_const, Finset.card_erase_of_mem (Finset.mem_univ _), Finset.card_univ, Fintype.card_fin,
    nsmul_tallyAt]

omit [FloatOps F] in
theorem creds (c : Dev nD) : (Pipeline.launchCred O₀ c : sProp 𝕄) ⊢ credits c := by
  rw [launchCred_O₀]
  unfold credits
  have hE : (bigSep others fun k => Pipeline.launchCred (fun d => owedE d k) c : sProp 𝕄) ⊢ cred (tallyAt (barCell c) 0 15) :=
    (bigSep_mono fun k _ => cred_E c k 0).trans (cred_fifteen (barCell c) 0)
  have hS : (bigSep others fun k => Pipeline.launchCred (fun d => owedS d (-k)) c : sProp 𝕄)
      ⊢ bigSep others fun k => cred (tallyAt (recvCell c (peer c k)) 0 N) :=
    bigSep_mono fun k _ => cred_S c k
  iintro ⟨⟨HE, HS⟩, -⟩
  isplitl [HE]
  · iapply hE; iexact HE
  · iapply hS; iexact HS

/-! ### The levels of the staging waits -/

omit [FloatOps F] in
/-- Whatever a device owes is owed to a barrier cell (entry or exit round) or to a receive cell (its one round). -/
theorem O₀_pos {c : Dev nD} {g : GSem nD τ sig} {i : ℕ} (h : 0 < O₀ c g i) :
    (∃ d : Dev nD, g = barCell d ∧ (i = 0 ∨ i = 1)) ∨ (∃ (d : Dev nD) (j : Fin 16), g = recvCell d j ∧ i = 0) := by
  rw [O₀_eq] at h
  rcases Pipeline.add_pos_cases h with h | h
  · rcases Pipeline.add_pos_cases h with h | h
    · obtain ⟨k, _, hk⟩ := Pipeline.sum_pos_exists h
      have hk' : 0 < tallyAt (barCell (peer c k)) 0 1 g i := hk
      obtain ⟨rfl, rfl⟩ := Pipeline.tallyAt_pos hk'
      exact Or.inl ⟨_, rfl, Or.inl rfl⟩
    · obtain ⟨k, _, hk⟩ := Pipeline.sum_pos_exists h
      have hk' : 0 < tallyAt (recvCell (peer c (-k)) c) 0 N g i := hk
      obtain ⟨rfl, rfl⟩ := Pipeline.tallyAt_pos hk'
      exact Or.inr ⟨_, _, rfl, rfl⟩
  · obtain ⟨k, _, hk⟩ := Pipeline.sum_pos_exists h
    have hk' : 0 < tallyAt (barCell (peer c k)) 1 1 g i := hk
    obtain ⟨rfl, rfl⟩ := Pipeline.tallyAt_pos hk'
    exact Or.inl ⟨_, rfl, Or.inr rfl⟩

omit [FloatOps F] in
/-- A wait on a DMA semaphore that is no receive semaphore (a staging semaphore) sits at level 0, below everything a device owes. -/
theorem mayWait_stage (c : Dev nD) (q : DmaSem sig) (hq : recvIdx (.dma q : SemLoc sig) = none) (O : CellTallies nD τ sig ℕ) (hO : O = O₀ c ∨ O = 0) :
    (levAts L lv : sProp 𝕄) ⊢ MayWait (c : Thread nD τ) (.dma q) 0 O := by
  rcases hO with rfl | rfl
  · have h0 : lv ((c : Thread nD τ), SemLoc.dma q) 0 = 0 := by
      dsimp only [lv]; rw [if_neg (fun h => by cases h), hq]; rfl
    refine Pipeline.mayWait_of_levAts (by rw [L_tc]; decide) fun g i hg => ?_
    rw [h0]
    rcases O₀_pos hg with ⟨d, rfl, hi⟩ | ⟨d, j, rfl, rfl⟩
    · refine ⟨by rw [L_tc]; rcases hi with rfl | rfl <;> decide, ?_⟩
      dsimp only [lv]; rw [if_pos rfl]; rcases hi with rfl | rfl <;> decide
    · refine ⟨by rw [L_tc]; decide, ?_⟩
      dsimp only [lv]; rw [if_neg (recv_ne_bar j), recvIdx_recv, Option.isSome_some, if_pos rfl]; decide
  · rw [MayWait_zero]; iintro -; iempintro

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait_stage c _ (by fin_cases w <;> fin_cases s <;> decide) _ (by
      rcases t with ⟨_ | _, ht⟩
      · exact Or.inl rfl
      · exact Or.inr rfl)

/-! ### The theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch Pipeline.ownSems0
  iintro ⟨Hr, Hz⟩
  isplitr; · iempintro
  isplitl [Hz]; · iexact Hz
  iexact Hr

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main (the sixteen kernels meeting on the runtime's barrier semaphore, then each copying its partial sum
    into every other device's gather buffer) terminates, and every final state has each device's result array at the
    computed contents and `x` unchanged. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the sum of the sixteen partial sums: the output window is written back whole at the one point. -/
theorem finalA_out (c : Dev nD) : finalA m ρ c (1 : Fin 2) = outAt m ρ := by
  unfold finalA
  rw [show cfg0.N = t₀.val + 1 from rfl, Dat.arrAt_succ, if_pos (by rfl)]
  exact Memref.write_access_unit_zero_univ (Elt F) main_v1 (by funext a; fin_cases a <;> rfl) _ _ _

/-- info: 'Cert.KernelProof.run_main' depends on axioms: [propext, Classical.choice, Quot.sound] -/
#guard_msgs in #print axioms run_main

end Cert.KernelProof

end
-- ==== Proof.lean ====
/-
  The claim of this certificate, proved.

  Sixteen devices each hold a block of 512 rows of x (8192 x 256). Each device sums its block over the rows into one
  row of 256, its partial sum; the devices meet on the barrier semaphore, every device copies its partial sum into its
  own slot of every other device's gather buffer, waits for the fifteen copies addressed to it, and sums the sixteen
  slots into its result. The reference, on one device, sums x over all 8192 rows and keeps the sum as one row.

  One run of @main, at any float instance, from any memory with every semaphore at zero: every weakly fair execution
  terminates, nothing faults, every device's block of x ends as it began and every device's result array ends at the
  sum of the sixteen partial sums, each a term of the device's own block. The three frames are that run, and the
  reference's, with the values dropped; the program printed for the ideal values is the program's own text, so
  nothing is to be preserved; over the extended reals the sum of sixteen sums of 512 rows is the sum of the 8192 rows,
  which is the algebraic conjunct: the result is the same on every device and is the reference's.
-/
import proofs.«901090_g7700000000001091_dist_sum_ax0_shard0_i_m512_n256_v7x_i16_f32_1_alg».proof.Defs
import proofs.«901090_g7700000000001091_dist_sum_ax0_shard0_i_m512_n256_v7x_i16_f32_1_alg».proof.Proof.Gen.Kernel
import proofs.«901090_g7700000000001091_dist_sum_ax0_shard0_i_m512_n256_v7x_i16_f32_1_alg».proof.Proof.Gen.Kernel.Skeleton
import proofs.«901090_g7700000000001091_dist_sum_ax0_shard0_i_m512_n256_v7x_i16_f32_1_alg».proof.Proof.Gen.Kernel.Launch
import proofs.«901090_g7700000000001091_dist_sum_ax0_shard0_i_m512_n256_v7x_i16_f32_1_alg».proof.Proof.Gen.Kernel.Points
import proofs.«901090_g7700000000001091_dist_sum_ax0_shard0_i_m512_n256_v7x_i16_f32_1_alg».proof.Proof.Gen.Kernel.Frame
import proofs.«901090_g7700000000001091_dist_sum_ax0_shard0_i_m512_n256_v7x_i16_f32_1_alg».proof.Proof.Gen.KernelIdeal
import proofs.«901090_g7700000000001091_dist_sum_ax0_shard0_i_m512_n256_v7x_i16_f32_1_alg».proof.Proof.Gen.KernelIdeal.Skeleton
import proofs.«901090_g7700000000001091_dist_sum_ax0_shard0_i_m512_n256_v7x_i16_f32_1_alg».proof.Proof.Gen.KernelIdeal.Launch
import proofs.«901090_g7700000000001091_dist_sum_ax0_shard0_i_m512_n256_v7x_i16_f32_1_alg».proof.Proof.Gen.KernelIdeal.Points
import proofs.«901090_g7700000000001091_dist_sum_ax0_shard0_i_m512_n256_v7x_i16_f32_1_alg».proof.Proof.Gen.KernelIdeal.Frame
import proofs.«901090_g7700000000001091_dist_sum_ax0_shard0_i_m512_n256_v7x_i16_f32_1_alg».proof.Proof.Gen.ReferenceIdeal
import proofs.«901090_g7700000000001091_dist_sum_ax0_shard0_i_m512_n256_v7x_i16_f32_1_alg».proof.Proof.Gen.Pre_finite_inputs_Kernel
import proofs.«901090_g7700000000001091_dist_sum_ax0_shard0_i_m512_n256_v7x_i16_f32_1_alg».proof.Proof.Gen.Pre_finite_inputs_ReferenceIdeal
import Idealize.ShloMosaic.Adequacy
import Idealize.ShloMosaic.Init
import proofs.«901090_g7700000000001091_dist_sum_ax0_shard0_i_m512_n256_v7x_i16_f32_1_alg».proof.Proof.Assembly
import proofs.«901090_g7700000000001091_dist_sum_ax0_shard0_i_m512_n256_v7x_i16_f32_1_alg».proof.Proof.W.Launch

noncomputable section

namespace Cert.Proof

open Idealize.ShloMosaic Idealize.SL.Sem Cert.Kernel

/-- The kernel as printed runs and every device's block of x ends as it began: the run of @main at the word-level
    values, with the result's value dropped. -/
theorem frame_p : Cert.frame_Kernel := fun m ρ _ =>
  (θ_run Cert.Kernel.defs _ _).mono (fun r h c => (h c (0 : Fin 2)).trans (Cert.KernelProof.finalA_x m ρ c))
    (Cert.KernelProof.run_main (F := Bits) m ρ)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, Cert.KernelIdealProof.frame_pi, Cert.KernelIdealProof.frame_ri, trivial, Cert.KernelIdealProof.algebraic⟩

end Cert.Proof

end
